-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S6400000 : Shape := ⟨1, ![6400000]⟩
abbrev S100000 : Shape := ⟨1, ![100000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S6400000 : S_.BroadcastsInDim S6400000 (![] : Fin 0 → Fin S6400000.rank)
  reducesTo_S6400000_S_d0 : S6400000.ReducesTo [0] S_

variable [Facts]

def fn {F : FTy → Type} [FloatOps F] (main_arg0 : FVec F S100000x32 .f32) (main_arg1 : IVec S6400000 32) (main_arg2 : IVec S6400000 32) (main_arg3 : FVec F S6400000 .f32) (main_arg4 : IVec S100000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S6400000 .f32 := Host.absf main_arg3
  let main_cst_0 : FVec F S_ .f32 := constant S_ .f32 0x7F800000#32
  let main_v5 : FVec F S6400000 .f32 := broadcastInDim S6400000 ![] bcast_S_S6400000 main_cst_0
  let main_v6 : IVec S6400000 1 := cmpf .olt main_v4 main_v5
  let main_c_1 : IVec S_ 1 := constantI S_ 1 1#1
  let main_v7 : IVec S_ 1 := (fun x v => Host.reduce IntOp.andi x v reducesTo_S6400000_S_d0 h_S_) main_v6 main_c_1
  let main_v8 : IVec S_ 1 := andi main_v3 main_v7
  let main_c_2 : IVec S_ 32 := constantI S_ 32 4294867296#32
  let main_v9 : IVec S6400000 32 := broadcastInDim S6400000 ![] bcast_S_S6400000 main_c_2
  let main_v10 : IVec S6400000 1 := cmpi .sge main_arg2 main_v9
  let main_c_3 : IVec S_ 32 := constantI S_ 32 100000#32
  let main_v11 : IVec S6400000 32 := broadcastInDim S6400000 ![] bcast_S_S6400000 main_c_3
  let main_v12 : IVec S6400000 1 := cmpi .slt main_arg2 main_v11
  let main_v13 : IVec S6400000 1 := andi main_v10 main_v12
  let main_c_4 : IVec S_ 1 := constantI S_ 1 1#1
  let main_v14 : IVec S_ 1 := (fun x v => Host.reduce IntOp.andi x v reducesTo_S6400000_S_d0 h_S_) main_v13 main_c_4
  let main_v15 : IVec S_ 1 := andi main_v8 main_v14
  main_v15
-- ==== Kernel.lean ====
abbrev S100000x32 : Shape := ⟨2, ![100000, 32]⟩
abbrev S6400000 : Shape := ⟨1, ![6400000]⟩
abbrev S100000 : Shape := ⟨1, ![100000]⟩
abbrev S_ : Shape := ⟨0, ![]⟩
abbrev S6400000x1 : Shape := ⟨2, ![6400000, 1]⟩
abbrev S100000x1 : Shape := ⟨2, ![100000, 1]⟩
abbrev S25000x128 : Shape := ⟨2, ![25000, 128]⟩
abbrev S5000x128 : Shape := ⟨2, ![5000, 128]⟩
abbrev S1 : Shape := ⟨1, ![1]⟩
abbrev S1x1 : Shape := ⟨2, ![1, 1]⟩
abbrev S6400000x32 : Shape := ⟨2, ![6400000, 32]⟩

abbrev nBuf : Space → Nat
  | .hbm => 98
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S100000, .i32⟩
  | .hbm, ⟨5, _⟩ => ⟨S_, .f32⟩
  | .hbm, ⟨6, _⟩ => ⟨S100000, .f32⟩
  | .hbm, ⟨7, _⟩ => ⟨S6400000x1, .i32⟩
  | .hbm, ⟨8, _⟩ => ⟨S100000, .f32⟩
  | .hbm, ⟨9, _⟩ => ⟨S_, .f32⟩
  | .hbm, ⟨10, _⟩ => ⟨S100000, .f32⟩
  | .hbm, ⟨11, _⟩ => ⟨S100000, .i1⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S25000x128, .f32⟩
  | .hbm, ⟨28, _⟩ => ⟨S100000x32, .f32⟩
  | .hbm, ⟨29, _⟩ => ⟨S25000x128, .f32⟩
  | .hbm, ⟨30, _⟩ => ⟨S25000x128, .f32⟩
  | .hbm, ⟨31, _⟩ => ⟨S100000x32, .f32⟩
  | .hbm, ⟨32, _⟩ => ⟨S_, .i32⟩
  | .hbm, ⟨33, _⟩ => ⟨S6400000, .i32⟩
  | .hbm, ⟨34, _⟩ => ⟨S6400000, .i1⟩
  | .hbm, ⟨35, _⟩ => ⟨S_, .i32⟩
  | .hbm, ⟨36, _⟩ => ⟨S6400000, .i32⟩
  | .hbm, ⟨37, _⟩ => ⟨S6400000, .i32⟩
  | .hbm, ⟨38, _⟩ => ⟨S6400000, .i32⟩
  | .hbm, ⟨39, _⟩ => ⟨S6400000x1, .i32⟩
  | .hbm, ⟨40, _⟩ => ⟨S1, .i32⟩
  | .hbm, ⟨41, _⟩ => ⟨S_, .i32⟩
  | .hbm, ⟨42, _⟩ => ⟨S6400000x1, .i32⟩
  | .hbm, ⟨43, _⟩ => ⟨S6400000x1, .i1⟩
  | .hbm, ⟨44, _⟩ => ⟨S1x1, .i32⟩
  | .hbm, ⟨45, _⟩ => ⟨S6400000x1, .i32⟩
  | .hbm, ⟨46, _⟩ => ⟨S6400000x1, .i1⟩
  | .hbm, ⟨47, _⟩ => ⟨S6400000x1, .i1⟩
  | .hbm, ⟨48, _⟩ => ⟨S_, .i1⟩
  | .hbm, ⟨49, _⟩ => ⟨S6400000, .i1⟩
  | .hbm, ⟨50, _⟩ => ⟨S6400000x32, .f32⟩
  | .hbm, ⟨51, _⟩ => ⟨S6400000x32, .i1⟩
  | .hbm, ⟨52, _⟩ => ⟨S_, .f32⟩
  | .hbm, ⟨53, _⟩ => ⟨S6400000x32, .f32⟩
  | .hbm, ⟨54, _⟩ => ⟨S6400000x32, .f32⟩
  | .hbm, ⟨55, _⟩ => ⟨S6400000x1, .f32⟩
  | .hbm, ⟨56, _⟩ => ⟨S6400000x32, .f32⟩
  | .hbm, ⟨57, _⟩ => ⟨S6400000x32, .f32⟩
  | .hbm, ⟨58, _⟩ => ⟨S_, .f32⟩
  | .hbm, ⟨59, _⟩ => ⟨S100000x32, .f32⟩
  | .hbm, ⟨60, _⟩ => ⟨S6400000x1, .i32⟩
  | .hbm, ⟨61, _⟩ => ⟨S100000x32, .f32⟩
  | .hbm, ⟨62, _⟩ => ⟨S25000x128, .f32⟩
  | .hbm, ⟨63, _⟩ => ⟨S100000x32, .f32⟩
  | .hbm, ⟨64, _⟩ => ⟨S25000x128, .f32⟩
  | .hbm, ⟨65, _⟩ => ⟨S25000x128, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S_, .i32⟩
  | .hbm, ⟨70, _⟩ => ⟨S100000, .i32⟩
  | .hbm, ⟨71, _⟩ => ⟨S100000, .i1⟩
  | .hbm, ⟨72, _⟩ => ⟨S_, .i32⟩
  | .hbm, ⟨73, _⟩ => ⟨S100000, .i32⟩
  | .hbm, ⟨74, _⟩ => ⟨S100000, .i32⟩
  | .hbm, ⟨75, _⟩ => ⟨S100000, .i32⟩
  | .hbm, ⟨76, _⟩ => ⟨S100000x1, .i32⟩
  | .hbm, ⟨77, _⟩ => ⟨S100000x32, .f32⟩
  | .hbm, ⟨78, _⟩ => ⟨S_, .f32⟩
  | .hbm, ⟨79, _⟩ => ⟨S100000, .f32⟩
  | .hbm, ⟨80, _⟩ => ⟨S_, .i32⟩
  | .hbm, ⟨81, _⟩ => ⟨S100000, .i32⟩
  | .hbm, ⟨82, _⟩ => ⟨S100000, .i1⟩
  | .hbm, ⟨83, _⟩ => ⟨S_, .i32⟩
  | .hbm, ⟨84, _⟩ => ⟨S100000, .i32⟩
  | .hbm, ⟨85, _⟩ => ⟨S100000, .i32⟩
  | .hbm, ⟨86, _⟩ => ⟨S100000, .i32⟩
  | .hbm, ⟨87, _⟩ => ⟨S100000x1, .i32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S25000x128, .f32⟩
  | .hbm, ⟨93, _⟩ => ⟨S25000x128, .f32⟩
  | .hbm, ⟨94, _⟩ => ⟨S100000x32, .f32⟩
  | .hbm, ⟨95, _⟩ => ⟨S25000x128, .f32⟩
  | .hbm, ⟨96, _⟩ => ⟨S25000x128, .f32⟩
  | .hbm, ⟨97, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_v14 : Ref sig .tc := ⟨.hbm, 51, rfl⟩
abbrev main_call2_cst : Ref sig .tc := ⟨.hbm, 52, rfl⟩
abbrev main_call2_v15 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_5 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_cst_6 : Ref sig .tc := ⟨.hbm, 67, rfl⟩
abbrev main_v29 : Ref sig .tc := ⟨.hbm, 68, rfl⟩
abbrev main_c : Ref sig .tc := ⟨.hbm, 69, rfl⟩
abbrev main_v30 : Ref sig .tc := ⟨.hbm, 70, rfl⟩
abbrev main_v31 : Ref sig .tc := ⟨.hbm, 71, rfl⟩
abbrev main_c_7 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_8 : Ref sig .tc := ⟨.hbm, 78, rfl⟩
abbrev main_v37 : Ref sig .tc := ⟨.hbm, 79, rfl⟩
abbrev main_c_9 : Ref sig .tc := ⟨.hbm, 80, rfl⟩
abbrev main_v38 : Ref sig .tc := ⟨.hbm, 81, rfl⟩
abbrev main_v39 : Ref sig .tc := ⟨.hbm, 82, rfl⟩
abbrev main_c_10 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_11 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S100000 : S_.BroadcastsInDim S100000 (![] : Fin 0 → Fin S100000.rank)
  bcast_S6400000_S6400000x1_0 : S6400000.BroadcastsInDim S6400000x1 (![0] : Fin 1 → Fin S6400000x1.rank)
  shapeCasts_S100000_S100000x1 : S100000.ShapeCasts S100000x1
  shapeCasts_S100000x32_S25000x128 : S100000x32.ShapeCasts S25000x128
  bcast_S100000x1_S100000x32_0_1 : S100000x1.BroadcastsInDim S100000x32 (![0, 1] : Fin 2 → Fin S100000x32.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S25000x128_S100000x32 : S25000x128.ShapeCasts S100000x32
  bcast_S_S6400000 : S_.BroadcastsInDim S6400000 (![] : Fin 0 → Fin S6400000.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  bcast_S6400000_S6400000x32_0 : S6400000.BroadcastsInDim S6400000x32 (![0] : Fin 1 → Fin S6400000x32.rank)
  bcast_S_S6400000x32 : S_.BroadcastsInDim S6400000x32 (![] : Fin 0 → Fin S6400000x32.rank)
  bcast_S6400000x1_S6400000x32_0_1 : S6400000x1.BroadcastsInDim S6400000x32 (![0, 1] : Fin 2 → Fin S6400000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  scatter_S100000_S6400000x1_S6400000_n_0_0_1_wf : ScatterDims.WF S100000 S6400000x1 S6400000 [] [0] [0] 1
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  scatter_S100000x32_S100000x1_S100000x32_1_0_0_1_wf : ScatterDims.WF S100000x32 S100000x1 S100000x32 [1] [0] [0] 1
  scatter_S100000_S100000x1_S100000_n_0_0_1_wf : ScatterDims.WF S100000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S25000x128.size a
  hwx0_2 : ∀ i : grid0.Coords, EltTy.bits .f32 = 32 ∨ (Rect.block (s := S25000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S25000x128.size a
  hwx1_0 : ∀ i : grid1.Coords, EltTy.bits .f32 = 32 ∨ (Rect.block (s := S25000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S25000x128.size a
  hwx1_1 : ∀ i : grid1.Coords, EltTy.bits .f32 = 32 ∨ (Rect.block (s := S25000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S25000x128.size a
  hwx1_2 : ∀ i : grid1.Coords, EltTy.bits .f32 = 32 ∨ (Rect.block (s := S25000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S25000x128.size a
  hwx2_1 : ∀ i : grid2.Coords, EltTy.bits .f32 = 32 ∨ (Rect.block (s := S25000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S25000x128.size a
  hwx2_2 : ∀ i : grid2.Coords, EltTy.bits .f32 = 32 ∨ (Rect.block (s := S25000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S25000x128.size a
  hwx2_3 : ∀ i : grid2.Coords, EltTy.bits .f32 = 32 ∨ (Rect.block (s := S25000x128) S5000x128.size (cc2_transform_3 i) (hinb2_3 i)).WholeWords (EltTy.packing .f32)

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def scatter_S100000x32_S100000x1_S100000x32_1_0_0_1 : ScatterDims S100000x32 S100000x1 S100000x32 where
  updateWindowDims := [1]
  insertedWindowDims := [0]
  scatterDimsToOperandDims := [0]
  indexVectorDim := 1
  wf := scatter_S100000x32_S100000x1_S100000x32_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S6400000 : Shape := ⟨1, ![6400000]⟩
abbrev S100000 : Shape := ⟨1, ![100000]⟩
abbrev S_ : Shape := ⟨0, ![]⟩
abbrev S6400000x1 : Shape := ⟨2, ![6400000, 1]⟩
abbrev S6400000x32 : Shape := ⟨2, ![6400000, 32]⟩
abbrev S100000x1 : Shape := ⟨2, ![100000, 1]⟩

abbrev nBuf : Space → Nat
  | .hbm => 89
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S6400000, .i32⟩
  | .hbm, ⟨2, _⟩ => ⟨S6400000, .i32⟩
  | .hbm, ⟨3, _⟩ => ⟨S6400000, .f32⟩
  | .hbm, ⟨4, _⟩ => ⟨S100000, .i32⟩
  | .hbm, ⟨5, _⟩ => ⟨S_, .f32⟩
  | .hbm, ⟨6, _⟩ => ⟨S100000, .f32⟩
  | .hbm, ⟨7, _⟩ => ⟨S6400000x1, .i32⟩
  | .hbm, ⟨8, _⟩ => ⟨S100000, .f32⟩
  | .hbm, ⟨9, _⟩ => ⟨S_, .f32⟩
  | .hbm, ⟨10, _⟩ => ⟨S100000, .f32⟩
  | .hbm, ⟨11, _⟩ => ⟨S100000, .i1⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S6400000, .i32⟩
  | .hbm, ⟨28, _⟩ => ⟨S6400000, .i1⟩
  | .hbm, ⟨29, _⟩ => ⟨S_, .i32⟩
  | .hbm, ⟨30, _⟩ => ⟨S6400000, .i32⟩
  | .hbm, ⟨31, _⟩ => ⟨S6400000, .i32⟩
  | .hbm, ⟨32, _⟩ => ⟨S6400000, .i32⟩
  | .hbm, ⟨33, _⟩ => ⟨S6400000x1, .i32⟩
  | .hbm, ⟨34, _⟩ => ⟨S6400000, .f32⟩
  | .hbm, ⟨35, _⟩ => ⟨S6400000, .f32⟩
  | .hbm, ⟨36, _⟩ => ⟨S_, .i32⟩
  | .hbm, ⟨37, _⟩ => ⟨S6400000, .i32⟩
  | .hbm, ⟨38, _⟩ => ⟨S6400000, .i1⟩
  | .hbm, ⟨39, _⟩ => ⟨S_, .i32⟩
  | .hbm, ⟨40, _⟩ => ⟨S6400000, .i32⟩
  | .hbm, ⟨41, _⟩ => ⟨S6400000, .i32⟩
  | .hbm, ⟨42, _⟩ => ⟨S6400000, .i32⟩
  | .hbm, ⟨43, _⟩ => ⟨S6400000x1, .i32⟩
  | .hbm, ⟨44, _⟩ => ⟨S6400000, .f32⟩
  | .hbm, ⟨45, _⟩ => ⟨S6400000, .f32⟩
  | .hbm, ⟨46, _⟩ => ⟨S6400000x1, .f32⟩
  | .hbm, ⟨47, _⟩ => ⟨S_, .i32⟩
  | .hbm, ⟨48, _⟩ => ⟨S6400000, .i32⟩
  | .hbm, ⟨49, _⟩ => ⟨S6400000, .i1⟩
  | .hbm, ⟨50, _⟩ => ⟨S_, .i32⟩
  | .hbm, ⟨51, _⟩ => ⟨S6400000, .i32⟩
  | .hbm, ⟨52, _⟩ => ⟨S6400000, .i32⟩
  | .hbm, ⟨53, _⟩ => ⟨S6400000, .i32⟩
  | .hbm, ⟨54, _⟩ => ⟨S6400000x1, .i32⟩
  | .hbm, ⟨55, _⟩ => ⟨S6400000x32, .f32⟩
  | .hbm, ⟨56, _⟩ => ⟨S6400000x32, .f32⟩
  | .hbm, ⟨57, _⟩ => ⟨S6400000x32, .f32⟩
  | .hbm, ⟨58, _⟩ => ⟨S_, .f32⟩
  | .hbm, ⟨59, _⟩ => ⟨S100000x32, .f32⟩
  | .hbm, ⟨60, _⟩ => ⟨S6400000x1, .i32⟩
  | .hbm, ⟨61, _⟩ => ⟨S100000x32, .f32⟩
  | .hbm, ⟨62, _⟩ => ⟨S_, .f32⟩
  | .hbm, ⟨63, _⟩ => ⟨S100000x32, .f32⟩
  | .hbm, ⟨64, _⟩ => ⟨S_, .i32⟩
  | .hbm, ⟨65, _⟩ => ⟨S100000, .i32⟩
  | .hbm, ⟨66, _⟩ => ⟨S100000, .i1⟩
  | .hbm, ⟨67, _⟩ => ⟨S_, .i32⟩
  | .hbm, ⟨68, _⟩ => ⟨S100000, .i32⟩
  | .hbm, ⟨69, _⟩ => ⟨S100000, .i32⟩
  | .hbm, ⟨70, _⟩ => ⟨S100000, .i32⟩
  | .hbm, ⟨71, _⟩ => ⟨S100000x1, .i32⟩
  | .hbm, ⟨72, _⟩ => ⟨S100000x32, .f32⟩
  | .hbm, ⟨73, _⟩ => ⟨S_, .i1⟩
  | .hbm, ⟨74, _⟩ => ⟨S100000, .i1⟩
  | .hbm, ⟨75, _⟩ => ⟨S_, .i32⟩
  | .hbm, ⟨76, _⟩ => ⟨S100000, .i32⟩
  | .hbm, ⟨77, _⟩ => ⟨S100000, .i1⟩
  | .hbm, ⟨78, _⟩ => ⟨S_, .i32⟩
  | .hbm, ⟨79, _⟩ => ⟨S100000, .i32⟩
  | .hbm, ⟨80, _⟩ => ⟨S100000, .i32⟩
  | .hbm, ⟨81, _⟩ => ⟨S100000, .i32⟩
  | .hbm, ⟨82, _⟩ => ⟨S100000x1, .i32⟩
  | .hbm, ⟨83, _⟩ => ⟨S_, .i1⟩
  | .hbm, ⟨84, _⟩ => ⟨S100000, .i1⟩
  | .hbm, ⟨85, _⟩ => ⟨S100000, .i1⟩
  | .hbm, ⟨86, _⟩ => ⟨S100000x1, .i1⟩
  | .hbm, ⟨87, _⟩ => ⟨S100000x32, .i1⟩
  | .hbm, ⟨88, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_6 : Ref sig .tc := ⟨.hbm, 36, rfl⟩
abbrev main_v19 : Ref sig .tc := ⟨.hbm, 37, rfl⟩
abbrev main_v20 : Ref sig .tc := ⟨.hbm, 38, rfl⟩
abbrev main_c_7 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_c_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_c_12 : Ref sig .tc := ⟨.hbm, 64, rfl⟩
abbrev main_v41 : Ref sig .tc := ⟨.hbm, 65, rfl⟩
abbrev main_v42 : Ref sig .tc := ⟨.hbm, 66, rfl⟩
abbrev main_c_13 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_14 : Ref sig .tc := ⟨.hbm, 73, rfl⟩
abbrev main_v48 : Ref sig .tc := ⟨.hbm, 74, rfl⟩
abbrev main_c_15 : Ref sig .tc := ⟨.hbm, 75, rfl⟩
abbrev main_v49 : Ref sig .tc := ⟨.hbm, 76, rfl⟩
abbrev main_v50 : Ref sig .tc := ⟨.hbm, 77, rfl⟩
abbrev main_c_16 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_17 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call2_v0 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S6400000_S6400000x1_0 : S6400000.BroadcastsInDim S6400000x1 (![0] : Fin 1 → Fin S6400000x1.rank)
  bcast_S_S6400000 : S_.BroadcastsInDim S6400000 (![] : Fin 0 → Fin S6400000.rank)
  bcast_S6400000x1_S6400000x32_0_1 : S6400000x1.BroadcastsInDim S6400000x32 (![0, 1] : Fin 2 → Fin S6400000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  scatter_S100000_S6400000x1_S6400000_n_0_0_1_wf : ScatterDims.WF S100000 S6400000x1 S6400000 [] [0] [0] 1
  gather_S100000_S6400000x1_S6400000_n_0_n_n_0_1_1_wf : GatherDims.WF S100000 S6400000x1 S6400000 [] [0] [] [0] [] 1 ![1]
  gather_S100000x32_S6400000x1_S6400000x32_1_0_n_n_0_1_132_wf : GatherDims.WF S100000x32 S6400000x1 S6400000x32 [1] [0] [] [0] [] 1 ![1, 32]
  scatter_S100000x32_S6400000x1_S6400000x32_1_0_0_1_wf : ScatterDims.WF S100000x32 S6400000x1 S6400000x32 [1] [0] [0] 1
  scatter_S100000x32_S100000x1_S100000x32_1_0_0_1_wf : ScatterDims.WF S100000x32 S100000x1 S100000x32 [1] [0] [0] 1
  scatter_S100000_S100000x1_S100000_n_0_0_1_wf : ScatterDims.WF S100000 S100000x1 S100000 [] [0] [0] 1

variable [Facts₀]

def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf
def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S100000x32_S6400000x1_S6400000x32_1_0_n_n_0_1_132 : GatherDims S100000x32 S6400000x1 S6400000x32 where
  offsetDims := [1]
  collapsedSliceDims := [0]
  operandBatchingDims := []
  startIndicesBatchingDims := []
  startIndexMap := [0]
  indexVectorDim := 1
  sliceSizes := ![1, 32]
  wf := gather_S100000x32_S6400000x1_S6400000x32_1_0_n_n_0_1_132_wf
def scatter_S100000x32_S6400000x1_S6400000x32_1_0_0_1 : ScatterDims S100000x32 S6400000x1 S6400000x32 where
  updateWindowDims := [1]
  insertedWindowDims := [0]
  scatterDimsToOperandDims := [0]
  indexVectorDim := 1
  wf := scatter_S100000x32_S6400000x1_S6400000x32_1_0_0_1_wf
def scatter_S100000x32_S100000x1_S100000x32_1_0_0_1 : ScatterDims S100000x32 S100000x1 S100000x32 where
  updateWindowDims := [1]
  insertedWindowDims := [0]
  scatterDimsToOperandDims := [0]
  indexVectorDim := 1
  wf := scatter_S100000x32_S100000x1_S100000x32_1_0_0_1_wf
def scatter_S100000_S100000x1_S100000_n_0_0_1 : ScatterDims S100000 S100000x1 S100000 where
  updateWindowDims := []
  insertedWindowDims := [0]
  scatterDimsToOperandDims := [0]
  indexVectorDim := 1
  wf := scatter_S100000_S100000x1_S100000_n_0_0_1_wf

class Facts : Prop extends Facts₀ where

variable [Facts]
-- ==== Proof.RefEval.lean ====
/-
  The reference program's 84 host operations, composed. The run of the reference leaves the result buffer at the FOLD of
  the operations over the launch contents; the stages `val_<buffer>` give each operation's value as a function of the
  argument arrays. Here the two meet: from any contents V, the fold at the result buffer is the last stage of V's five
  argument buffers.

  The fold is not compared with the composed stage in one step (that comparison unfolds all 84 operations at once).
  The list is cut into ten stretches of six to ten consecutive operations. For one stretch, from any contents W:
    * a buffer the stretch does not write keeps its contents (the stretch's written buffers are listed, and an
      operation writes only its result buffer);
    * each buffer the stretch writes that a LATER stretch reads holds its stage of the arguments, provided the
      buffers the stretch READS held theirs (and the argument buffers it reads held the arguments): the fold over the
      few operations is computed, the transports of the typed references of an inlined function (casts along an
      equation between a type and itself) are removed, the hypotheses are substituted, and what is left is the
      stage's definition unfolded a few steps.
  The fold over a concatenation is the fold over the second list from the fold over the first, so the invariant
  "every buffer still to be read holds its stage of V's arguments, and the argument buffers hold what V held" is carried
  from stretch to stretch; after the last one it says the result buffer holds the last stage.

  Which buffers are read later, stretch by stretch: after 1–7 the degree sums and their sign test; after 8–14 the sums and
  the power; after 15–21 only the scale (stage 10); after 22–31 the scale and the first product (18); after 32–41 the
  edge weights (26); after 42–50 the weights as a column (27) and the wrapped columns (33); after 51–59 the aggregated rows
  (39) and a zero array (40); after 60–68 the scattered rows (47); after 69–78 those, a false mask (48) and the wrapped
  node indices (54); the last six operations give the result (58).
-/
import proofs.«424469_j541165879956_3_alg».proof.Proof.RefRead
import Idealize.ShloMosaic.Lib.StableHlo.Run
import Idealize.ShloMosaic.Lib.Pipeline.Frame
import Idealize.ShloMosaic.PureOps.Ideal

noncomputable section

namespace Cert.ReferenceIdeal.RefEval

open Cert.ReferenceIdeal Cert.ReferenceIdeal.Gen Idealize.ShloMosaic Idealize.ShloMosaic.TcCoe Idealize.SL.Sem Idealize.ShloMosaic.StableHlo
open Cert.ReferenceIdeal.ReadCopy Cert.ReferenceIdeal.RunCopy

section Stretches

variable {F : FTy → Type} [FloatOps F]

/-- An operation writes its one result buffer, and that buffer is in a list of references that names it. -/
macro "w1" : term => `(by simp only [nullary_writes, unary_writes, binary_writes, ternary_writes, Finset.singleton_subset_iff, List.mem_toFinset]; exact List.mem_map_of_mem (by decide))

/-! ## The stretches

Each stretch is a literal run of consecutive operations of the list; for each, the buffers it writes, the fact that a buffer
it does not write keeps its contents through it, and the contents it leaves in the buffers read later, as the stage
function of the arguments, from hypotheses saying what the buffers it reads held. -/

variable (W V : Valuation τ sig (Elt F)) (x0 : (⟨S100000x32, .f32⟩ : BufTy).Contents (Elt F)) (x1 x2 : (⟨S6400000, .i32⟩ : BufTy).Contents (Elt F)) (x3 : (⟨S6400000, .f32⟩ : BufTy).Contents (Elt F)) (x4 : (⟨S100000, .i32⟩ : BufTy).Contents (Elt F))

/-- Operations 1 to 7: the degree sums (a scatter-add of the edge values over the row indices into zeros) and their test against zero. -/
abbrev chunkA : List (HloOp τ sig (Elt F)) :=
  [ nullary main_cst (constant S_ .f32 0x00000000#32),
    unary main_cst main_v0 (broadcastInDim S100000 ![] bcast_S_S100000 : (⟨S_, .f32⟩ : BufTy).Contents (Elt F) → (⟨S100000, .f32⟩ : BufTy).Contents (Elt F)),
    unary main_arg1 main_v1 (broadcastInDim S6400000x1 ![0] bcast_S6400000_S6400000x1_0 : (⟨S6400000, .i32⟩ : BufTy).Contents (Elt F) → (⟨S6400000x1, .i32⟩ : BufTy).Contents (Elt F)),
    ternary main_v0 main_v1 main_arg3 main_v2 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    nullary main_cst_0 (constant S_ .f32 0x00000000#32),
    unary main_cst_0 main_v3 (broadcastInDim S100000 ![] bcast_S_S100000 : (⟨S_, .f32⟩ : BufTy).Contents (Elt F) → (⟨S100000, .f32⟩ : BufTy).Contents (Elt F)),
    binary main_v2 main_v3 main_v4 (cmpf .ogt : (⟨S100000, .f32⟩ : BufTy).Contents (Elt F) → (⟨S100000, .f32⟩ : BufTy).Contents (Elt F) → (⟨S100000, .i1⟩ : BufTy).Contents (Elt F)) ]
/-- The buffers these operations write. -/
abbrev chunkA_W : List (Ref sig .tc) := [main_cst, main_v0, main_v1, main_v2, main_cst_0, main_v3, main_v4]
theorem chunkA_writes : (chunkA : List (HloOp τ sig (Elt F))).Forall fun op => op.writes ⊆ (chunkA_W.map (Proc.devRef (τ := τ) .tc)).toFinset := by
  simp only [List.Forall]
  exact ⟨w1, w1, w1, w1, w1, w1, w1⟩
theorem keepA (W : Valuation τ sig (Elt F)) (r : Ref sig .tc) (h : r ∉ chunkA_W) :
    after (chunkA (F := F)) W (Proc.devRef .tc r) = W (Proc.devRef .tc r) :=
  after_of_writes_sub chunkA W chunkA_writes h

theorem A_v2 (h1 : W (Proc.devRef .tc main_arg1) = x1) (h3 : W (Proc.devRef .tc main_arg3) = x3) :
    after (chunkA (F := F)) W (Proc.devRef .tc main_v2) = val_main_v2 (F := F) x1 x3 := by
  subst h1 h3
  after_results
  all_goals rfl
theorem A_v4 (h1 : W (Proc.devRef .tc main_arg1) = x1) (h3 : W (Proc.devRef .tc main_arg3) = x3) :
    after (chunkA (F := F)) W (Proc.devRef .tc main_v4) = val_main_v4 (F := F) x1 x3 := by
  subst h1 h3
  after_results
  all_goals rfl

/-- Operations 8 to 14: where the degree is positive the degree, else one; then its power -1/2. -/
abbrev chunkB : List (HloOp τ sig (Elt F)) :=
  [ nullary main_cst_1 (constant S_ .f32 0x3F800000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v4) (TRef.of (T := ⟨S100000, .f32⟩) main_v2) (TRef.of (T := ⟨S100000, .f32⟩) main_call0_v1) (TRef.of (T := ⟨S100000, .f32⟩) main_v5) select,
    nullary main_cst_2 (constant S_ .f32 0xBF000000#32),
    unary main_cst_2 main_v6 (broadcastInDim S100000 ![] bcast_S_S100000 : (⟨S_, .f32⟩ : BufTy).Contents (Elt F) → (⟨S100000, .f32⟩ : BufTy).Contents (Elt F)),
    binary main_v5 main_v6 main_v7 (Host.powf : (⟨S100000, .f32⟩ : BufTy).Contents (Elt F) → (⟨S100000, .f32⟩ : BufTy).Contents (Elt F) → (⟨S100000, .f32⟩ : BufTy).Contents (Elt F)) ]
/-- The buffers these operations write. -/
abbrev chunkB_W : List (Ref sig .tc) := [main_cst_1, main_call0_v0, main_call0_v1, main_v5, main_cst_2, main_v6, main_v7]
theorem chunkB_writes : (chunkB : List (HloOp τ sig (Elt F))).Forall fun op => op.writes ⊆ (chunkB_W.map (Proc.devRef (τ := τ) .tc)).toFinset := by
  simp only [List.Forall]
  exact ⟨w1, w1, w1, w1, w1, w1, w1⟩
theorem keepB (W : Valuation τ sig (Elt F)) (r : Ref sig .tc) (h : r ∉ chunkB_W) :
    after (chunkB (F := F)) W (Proc.devRef .tc r) = W (Proc.devRef .tc r) :=
  after_of_writes_sub chunkB W chunkB_writes h

theorem B_v7 (h2 : W (Proc.devRef .tc main_v2) = val_main_v2 (F := F) x1 x3) (h4 : W (Proc.devRef .tc main_v4) = val_main_v4 (F := F) x1 x3) :
    after (chunkB (F := F)) W (Proc.devRef .tc main_v7) = val_main_v7 (F := F) x1 x3 := by
  after_results
  simp only [cast_cast, cast_eq]
  rw [h2, h4]
  rfl

/-- Operations 15 to 21: where the degree is positive that power, else zero. -/
abbrev chunkC : List (HloOp τ sig (Elt F)) :=
  [ nullary main_cst_3 (constant S_ .f32 0x00000000#32),
    unary main_cst_3 main_v8 (broadcastInDim S100000 ![] bcast_S_S100000 : (⟨S_, .f32⟩ : BufTy).Contents (Elt F) → (⟨S100000, .f32⟩ : BufTy).Contents (Elt F)),
    binary main_v2 main_v8 main_v9 (cmpf .ogt : (⟨S100000, .f32⟩ : BufTy).Contents (Elt F) → (⟨S100000, .f32⟩ : BufTy).Contents (Elt F) → (⟨S100000, .i1⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v9) (TRef.of (T := ⟨S100000, .f32⟩) main_v7) (TRef.of (T := ⟨S100000, .f32⟩) main_call1_v1) (TRef.of (T := ⟨S100000, .f32⟩) main_v10) select ]
/-- The buffers these operations write. -/
abbrev chunkC_W : List (Ref sig .tc) := [main_cst_3, main_v8, main_v9, main_cst_4, main_call1_v0, main_call1_v1, main_v10]
theorem chunkC_writes : (chunkC : List (HloOp τ sig (Elt F))).Forall fun op => op.writes ⊆ (chunkC_W.map (Proc.devRef (τ := τ) .tc)).toFinset := by
  simp only [List.Forall]
  exact ⟨w1, w1, w1, w1, w1, w1, w1⟩
theorem keepC (W : Valuation τ sig (Elt F)) (r : Ref sig .tc) (h : r ∉ chunkC_W) :
    after (chunkC (F := F)) W (Proc.devRef .tc r) = W (Proc.devRef .tc r) :=
  after_of_writes_sub chunkC W chunkC_writes h

theorem C_v10 (h2 : W (Proc.devRef .tc main_v2) = val_main_v2 (F := F) x1 x3) (h7 : W (Proc.devRef .tc main_v7) = val_main_v7 (F := F) x1 x3) :
    after (chunkC (F := F)) W (Proc.devRef .tc main_v10) = val_main_v10 (F := F) x1 x3 := by
  after_results
  simp only [cast_cast, cast_eq]
  rw [h2, h7]
  rfl

/-- Operations 22 to 31: the row indices wrapped, the scale gathered at them, times the edge values. -/
abbrev chunkD : List (HloOp τ sig (Elt F)) :=
  [ nullary main_c (constantI S_ 32 0#32),
    unary main_c main_v11 (broadcastInDim S6400000 ![] bcast_S_S6400000 : (⟨S_, .i32⟩ : BufTy).Contents (Elt F) → (⟨S6400000, .i32⟩ : BufTy).Contents (Elt F)),
    binary main_arg1 main_v11 main_v12 (cmpi .slt : (⟨S6400000, .i32⟩ : BufTy).Contents (Elt F) → (⟨S6400000, .i32⟩ : BufTy).Contents (Elt F) → (⟨S6400000, .i1⟩ : BufTy).Contents (Elt F)),
    nullary main_c_5 (constantI S_ 32 100000#32),
    unary main_c_5 main_v13 (broadcastInDim S6400000 ![] bcast_S_S6400000 : (⟨S_, .i32⟩ : BufTy).Contents (Elt F) → (⟨S6400000, .i32⟩ : BufTy).Contents (Elt F)),
    binary main_arg1 main_v13 main_v14 (addi : (⟨S6400000, .i32⟩ : BufTy).Contents (Elt F) → (⟨S6400000, .i32⟩ : BufTy).Contents (Elt F) → (⟨S6400000, .i32⟩ : BufTy).Contents (Elt F)),
    ternary main_v12 main_v14 main_arg1 main_v15 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v15 main_v16 (broadcastInDim S6400000x1 ![0] bcast_S6400000_S6400000x1_0 : (⟨S6400000, .i32⟩ : BufTy).Contents (Elt F) → (⟨S6400000x1, .i32⟩ : BufTy).Contents (Elt F)),
    binary main_v10 main_v16 main_v17 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    binary main_v17 main_arg3 main_v18 (mulf : (⟨S6400000, .f32⟩ : BufTy).Contents (Elt F) → (⟨S6400000, .f32⟩ : BufTy).Contents (Elt F) → (⟨S6400000, .f32⟩ : BufTy).Contents (Elt F)) ]
/-- The buffers these operations write. -/
abbrev chunkD_W : List (Ref sig .tc) := [main_c, main_v11, main_v12, main_c_5, main_v13, main_v14, main_v15, main_v16, main_v17, main_v18]
theorem chunkD_writes : (chunkD : List (HloOp τ sig (Elt F))).Forall fun op => op.writes ⊆ (chunkD_W.map (Proc.devRef (τ := τ) .tc)).toFinset := by
  simp only [List.Forall]
  exact ⟨w1, w1, w1, w1, w1, w1, w1, w1, w1, w1⟩
theorem keepD (W : Valuation τ sig (Elt F)) (r : Ref sig .tc) (h : r ∉ chunkD_W) :
    after (chunkD (F := F)) W (Proc.devRef .tc r) = W (Proc.devRef .tc r) :=
  after_of_writes_sub chunkD W chunkD_writes h

theorem D_v18 (h1 : W (Proc.devRef .tc main_arg1) = x1) (h3 : W (Proc.devRef .tc main_arg3) = x3)
    (h10 : W (Proc.devRef .tc main_v10) = val_main_v10 (F := F) x1 x3) :
    after (chunkD (F := F)) W (Proc.devRef .tc main_v18) = val_main_v18 (F := F) x1 x3 := by
  subst h1 h3
  after_results
  rw [h10]
  rfl

/-- Operations 32 to 41: the column indices wrapped, the scale gathered at them, times the product so far. -/
abbrev chunkE : List (HloOp τ sig (Elt F)) :=
  [ nullary main_c_6 (constantI S_ 32 0#32),
    unary main_c_6 main_v19 (broadcastInDim S6400000 ![] bcast_S_S6400000 : (⟨S_, .i32⟩ : BufTy).Contents (Elt F) → (⟨S6400000, .i32⟩ : BufTy).Contents (Elt F)),
    binary main_arg2 main_v19 main_v20 (cmpi .slt : (⟨S6400000, .i32⟩ : BufTy).Contents (Elt F) → (⟨S6400000, .i32⟩ : BufTy).Contents (Elt F) → (⟨S6400000, .i1⟩ : BufTy).Contents (Elt F)),
    nullary main_c_7 (constantI S_ 32 100000#32),
    unary main_c_7 main_v21 (broadcastInDim S6400000 ![] bcast_S_S6400000 : (⟨S_, .i32⟩ : BufTy).Contents (Elt F) → (⟨S6400000, .i32⟩ : BufTy).Contents (Elt F)),
    binary main_arg2 main_v21 main_v22 (addi : (⟨S6400000, .i32⟩ : BufTy).Contents (Elt F) → (⟨S6400000, .i32⟩ : BufTy).Contents (Elt F) → (⟨S6400000, .i32⟩ : BufTy).Contents (Elt F)),
    ternary main_v20 main_v22 main_arg2 main_v23 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v23 main_v24 (broadcastInDim S6400000x1 ![0] bcast_S6400000_S6400000x1_0 : (⟨S6400000, .i32⟩ : BufTy).Contents (Elt F) → (⟨S6400000x1, .i32⟩ : BufTy).Contents (Elt F)),
    binary main_v10 main_v24 main_v25 ((fun x i => Host.gather gather_S100000_S6400000x1_S6400000_n_0_n_n_0_1_1 x i) : (⟨S100000, .f32⟩ : BufTy).Contents (Elt F) → (⟨S6400000x1, .i32⟩ : BufTy).Contents (Elt F) → (⟨S6400000, .f32⟩ : BufTy).Contents (Elt F)),
    binary main_v18 main_v25 main_v26 (mulf : (⟨S6400000, .f32⟩ : BufTy).Contents (Elt F) → (⟨S6400000, .f32⟩ : BufTy).Contents (Elt F) → (⟨S6400000, .f32⟩ : BufTy).Contents (Elt F)) ]
/-- The buffers these operations write. -/
abbrev chunkE_W : List (Ref sig .tc) := [main_c_6, main_v19, main_v20, main_c_7, main_v21, main_v22, main_v23, main_v24, main_v25, main_v26]
theorem chunkE_writes : (chunkE : List (HloOp τ sig (Elt F))).Forall fun op => op.writes ⊆ (chunkE_W.map (Proc.devRef (τ := τ) .tc)).toFinset := by
  simp only [List.Forall]
  exact ⟨w1, w1, w1, w1, w1, w1, w1, w1, w1, w1⟩
theorem keepE (W : Valuation τ sig (Elt F)) (r : Ref sig .tc) (h : r ∉ chunkE_W) :
    after (chunkE (F := F)) W (Proc.devRef .tc r) = W (Proc.devRef .tc r) :=
  after_of_writes_sub chunkE W chunkE_writes h

theorem E_v26 (h2 : W (Proc.devRef .tc main_arg2) = x2) (h10 : W (Proc.devRef .tc main_v10) = val_main_v10 (F := F) x1 x3)
    (h18 : W (Proc.devRef .tc main_v18) = val_main_v18 (F := F) x1 x3) :
    after (chunkE (F := F)) W (Proc.devRef .tc main_v26) = val_main_v26 (F := F) x1 x2 x3 := by
  subst h2
  after_results
  rw [h10, h18]
  rfl

/-- Operations 42 to 50: the edge weights as a column, and the column indices wrapped again, as a column. -/
abbrev chunkF : List (HloOp τ sig (Elt F)) :=
  [ unary main_v26 main_v27 (broadcastInDim S6400000x1 ![0] bcast_S6400000_S6400000x1_0 : (⟨S6400000, .f32⟩ : BufTy).Contents (Elt F) → (⟨S6400000x1, .f32⟩ : BufTy).Contents (Elt F)),
    nullary main_c_8 (constantI S_ 32 0#32),
    unary main_c_8 main_v28 (broadcastInDim S6400000 ![] bcast_S_S6400000 : (⟨S_, .i32⟩ : BufTy).Contents (Elt F) → (⟨S6400000, .i32⟩ : BufTy).Contents (Elt F)),
    binary main_arg2 main_v28 main_v29 (cmpi .slt : (⟨S6400000, .i32⟩ : BufTy).Contents (Elt F) → (⟨S6400000, .i32⟩ : BufTy).Contents (Elt F) → (⟨S6400000, .i1⟩ : BufTy).Contents (Elt F)),
    nullary main_c_9 (constantI S_ 32 100000#32),
    unary main_c_9 main_v30 (broadcastInDim S6400000 ![] bcast_S_S6400000 : (⟨S_, .i32⟩ : BufTy).Contents (Elt F) → (⟨S6400000, .i32⟩ : BufTy).Contents (Elt F)),
    binary main_arg2 main_v30 main_v31 (addi : (⟨S6400000, .i32⟩ : BufTy).Contents (Elt F) → (⟨S6400000, .i32⟩ : BufTy).Contents (Elt F) → (⟨S6400000, .i32⟩ : BufTy).Contents (Elt F)),
    ternary main_v29 main_v31 main_arg2 main_v32 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v32 main_v33 (broadcastInDim S6400000x1 ![0] bcast_S6400000_S6400000x1_0 : (⟨S6400000, .i32⟩ : BufTy).Contents (Elt F) → (⟨S6400000x1, .i32⟩ : BufTy).Contents (Elt F)) ]
/-- The buffers these operations write. -/
abbrev chunkF_W : List (Ref sig .tc) := [main_v27, main_c_8, main_v28, main_v29, main_c_9, main_v30, main_v31, main_v32, main_v33]
theorem chunkF_writes : (chunkF : List (HloOp τ sig (Elt F))).Forall fun op => op.writes ⊆ (chunkF_W.map (Proc.devRef (τ := τ) .tc)).toFinset := by
  simp only [List.Forall]
  exact ⟨w1, w1, w1, w1, w1, w1, w1, w1, w1⟩
theorem keepF (W : Valuation τ sig (Elt F)) (r : Ref sig .tc) (h : r ∉ chunkF_W) :
    after (chunkF (F := F)) W (Proc.devRef .tc r) = W (Proc.devRef .tc r) :=
  after_of_writes_sub chunkF W chunkF_writes h

theorem F_v27 (h26 : W (Proc.devRef .tc main_v26) = val_main_v26 (F := F) x1 x2 x3) :
    after (chunkF (F := F)) W (Proc.devRef .tc main_v27) = val_main_v27 (F := F) x1 x2 x3 := by
  after_results
  rw [h26]
  rfl
theorem F_v33 (h2 : W (Proc.devRef .tc main_arg2) = x2) :
    after (chunkF (F := F)) W (Proc.devRef .tc main_v33) = val_main_v33 (F := F) x2 := by
  subst h2
  after_results
  all_goals rfl

/-- Operations 51 to 59: the feature rows gathered at the columns, weighted, scatter-added over the row indices into zeros; and a second zero array. -/
abbrev chunkG : List (HloOp τ sig (Elt F)) :=
  [ binary main_arg0 main_v33 main_v34 ((fun x i => Host.gather gather_S100000x32_S6400000x1_S6400000x32_1_0_n_n_0_1_132 x i) : (⟨S100000x32, .f32⟩ : BufTy).Contents (Elt F) → (⟨S6400000x1, .i32⟩ : BufTy).Contents (Elt F) → (⟨S6400000x32, .f32⟩ : BufTy).Contents (Elt F)),
    unary main_v27 main_v35 (broadcastInDim S6400000x32 ![0, 1] bcast_S6400000x1_S6400000x32_0_1 : (⟨S6400000x1, .f32⟩ : BufTy).Contents (Elt F) → (⟨S6400000x32, .f32⟩ : BufTy).Contents (Elt F)),
    binary main_v35 main_v34 main_v36 (mulf : (⟨S6400000x32, .f32⟩ : BufTy).Contents (Elt F) → (⟨S6400000x32, .f32⟩ : BufTy).Contents (Elt F) → (⟨S6400000x32, .f32⟩ : BufTy).Contents (Elt F)),
    nullary main_cst_10 (constant S_ .f32 0x00000000#32),
    unary main_cst_10 main_v37 (broadcastInDim S100000x32 ![] bcast_S_S100000x32 : (⟨S_, .f32⟩ : BufTy).Contents (Elt F) → (⟨S100000x32, .f32⟩ : BufTy).Contents (Elt F)),
    unary main_arg1 main_v38 (broadcastInDim S6400000x1 ![0] bcast_S6400000_S6400000x1_0 : (⟨S6400000, .i32⟩ : BufTy).Contents (Elt F) → (⟨S6400000x1, .i32⟩ : BufTy).Contents (Elt F)),
    ternary main_v37 main_v38 main_v36 main_v39 ((fun x i u => Host.scatterAdd scatter_S100000x32_S6400000x1_S6400000x32_1_0_0_1 x i u) : (⟨S100000x32, .f32⟩ : BufTy).Contents (Elt F) → (⟨S6400000x1, .i32⟩ : BufTy).Contents (Elt F) → (⟨S6400000x32, .f32⟩ : BufTy).Contents (Elt F) → (⟨S100000x32, .f32⟩ : BufTy).Contents (Elt F)),
    nullary main_cst_11 (constant S_ .f32 0x00000000#32),
    unary main_cst_11 main_v40 (broadcastInDim S100000x32 ![] bcast_S_S100000x32 : (⟨S_, .f32⟩ : BufTy).Contents (Elt F) → (⟨S100000x32, .f32⟩ : BufTy).Contents (Elt F)) ]
/-- The buffers these operations write. -/
abbrev chunkG_W : List (Ref sig .tc) := [main_v34, main_v35, main_v36, main_cst_10, main_v37, main_v38, main_v39, main_cst_11, main_v40]
theorem chunkG_writes : (chunkG : List (HloOp τ sig (Elt F))).Forall fun op => op.writes ⊆ (chunkG_W.map (Proc.devRef (τ := τ) .tc)).toFinset := by
  simp only [List.Forall]
  exact ⟨w1, w1, w1, w1, w1, w1, w1, w1, w1⟩
theorem keepG (W : Valuation τ sig (Elt F)) (r : Ref sig .tc) (h : r ∉ chunkG_W) :
    after (chunkG (F := F)) W (Proc.devRef .tc r) = W (Proc.devRef .tc r) :=
  after_of_writes_sub chunkG W chunkG_writes h

theorem G_v39 (h0 : W (Proc.devRef .tc main_arg0) = x0) (h1 : W (Proc.devRef .tc main_arg1) = x1)
    (h27 : W (Proc.devRef .tc main_v27) = val_main_v27 (F := F) x1 x2 x3) (h33 : W (Proc.devRef .tc main_v33) = val_main_v33 (F := F) x2) :
    after (chunkG (F := F)) W (Proc.devRef .tc main_v39) = val_main_v39 (F := F) x0 x1 x2 x3 := by
  subst h0 h1
  after_results
  rw [h27, h33]
  rfl
theorem G_v40 : after (chunkG (F := F)) W (Proc.devRef .tc main_v40) = val_main_v40 (F := F) := by
  after_results
  all_goals rfl

/-- Operations 60 to 68: the node indices wrapped, as a column, and the aggregated rows scattered at them into the zero array. -/
abbrev chunkH : List (HloOp τ sig (Elt F)) :=
  [ nullary main_c_12 (constantI S_ 32 0#32),
    unary main_c_12 main_v41 (broadcastInDim S100000 ![] bcast_S_S100000 : (⟨S_, .i32⟩ : BufTy).Contents (Elt F) → (⟨S100000, .i32⟩ : BufTy).Contents (Elt F)),
    binary main_arg4 main_v41 main_v42 (cmpi .slt : (⟨S100000, .i32⟩ : BufTy).Contents (Elt F) → (⟨S100000, .i32⟩ : BufTy).Contents (Elt F) → (⟨S100000, .i1⟩ : BufTy).Contents (Elt F)),
    nullary main_c_13 (constantI S_ 32 100000#32),
    unary main_c_13 main_v43 (broadcastInDim S100000 ![] bcast_S_S100000 : (⟨S_, .i32⟩ : BufTy).Contents (Elt F) → (⟨S100000, .i32⟩ : BufTy).Contents (Elt F)),
    binary main_arg4 main_v43 main_v44 (addi : (⟨S100000, .i32⟩ : BufTy).Contents (Elt F) → (⟨S100000, .i32⟩ : BufTy).Contents (Elt F) → (⟨S100000, .i32⟩ : BufTy).Contents (Elt F)),
    ternary main_v42 main_v44 main_arg4 main_v45 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v45 main_v46 (broadcastInDim S100000x1 ![0] bcast_S100000_S100000x1_0 : (⟨S100000, .i32⟩ : BufTy).Contents (Elt F) → (⟨S100000x1, .i32⟩ : BufTy).Contents (Elt F)),
    ternary main_v40 main_v46 main_v39 main_v47 ((fun x i u => Host.scatter scatter_S100000x32_S100000x1_S100000x32_1_0_0_1 (fun _ b => b) x i u) : (⟨S100000x32, .f32⟩ : BufTy).Contents (Elt F) → (⟨S100000x1, .i32⟩ : BufTy).Contents (Elt F) → (⟨S100000x32, .f32⟩ : BufTy).Contents (Elt F) → (⟨S100000x32, .f32⟩ : BufTy).Contents (Elt F)) ]
/-- The buffers these operations write. -/
abbrev chunkH_W : List (Ref sig .tc) := [main_c_12, main_v41, main_v42, main_c_13, main_v43, main_v44, main_v45, main_v46, main_v47]
theorem chunkH_writes : (chunkH : List (HloOp τ sig (Elt F))).Forall fun op => op.writes ⊆ (chunkH_W.map (Proc.devRef (τ := τ) .tc)).toFinset := by
  simp only [List.Forall]
  exact ⟨w1, w1, w1, w1, w1, w1, w1, w1, w1⟩
theorem keepH (W : Valuation τ sig (Elt F)) (r : Ref sig .tc) (h : r ∉ chunkH_W) :
    after (chunkH (F := F)) W (Proc.devRef .tc r) = W (Proc.devRef .tc r) :=
  after_of_writes_sub chunkH W chunkH_writes h

theorem H_v47 (h4 : W (Proc.devRef .tc main_arg4) = x4) (h39 : W (Proc.devRef .tc main_v39) = val_main_v39 (F := F) x0 x1 x2 x3)
    (h40 : W (Proc.devRef .tc main_v40) = val_main_v40 (F := F)) :
    after (chunkH (F := F)) W (Proc.devRef .tc main_v47) = val_main_v47 (F := F) x0 x1 x2 x3 x4 := by
  subst h4
  after_results
  rw [h39, h40]
  rfl

/-- Operations 69 to 78: an all-false mask, and the node indices wrapped once more, as a column. -/
abbrev chunkI : List (HloOp τ sig (Elt F)) :=
  [ nullary main_c_14 (constantI S_ 1 0#1),
    unary main_c_14 main_v48 (broadcastInDim S100000 ![] bcast_S_S100000 : (⟨S_, .i1⟩ : BufTy).Contents (Elt F) → (⟨S100000, .i1⟩ : BufTy).Contents (Elt F)),
    nullary main_c_15 (constantI S_ 32 0#32),
    unary main_c_15 main_v49 (broadcastInDim S100000 ![] bcast_S_S100000 : (⟨S_, .i32⟩ : BufTy).Contents (Elt F) → (⟨S100000, .i32⟩ : BufTy).Contents (Elt F)),
    binary main_arg4 main_v49 main_v50 (cmpi .slt : (⟨S100000, .i32⟩ : BufTy).Contents (Elt F) → (⟨S100000, .i32⟩ : BufTy).Contents (Elt F) → (⟨S100000, .i1⟩ : BufTy).Contents (Elt F)),
    nullary main_c_16 (constantI S_ 32 100000#32),
    unary main_c_16 main_v51 (broadcastInDim S100000 ![] bcast_S_S100000 : (⟨S_, .i32⟩ : BufTy).Contents (Elt F) → (⟨S100000, .i32⟩ : BufTy).Contents (Elt F)),
    binary main_arg4 main_v51 main_v52 (addi : (⟨S100000, .i32⟩ : BufTy).Contents (Elt F) → (⟨S100000, .i32⟩ : BufTy).Contents (Elt F) → (⟨S100000, .i32⟩ : BufTy).Contents (Elt F)),
    ternary main_v50 main_v52 main_arg4 main_v53 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v53 main_v54 (broadcastInDim S100000x1 ![0] bcast_S100000_S100000x1_0 : (⟨S100000, .i32⟩ : BufTy).Contents (Elt F) → (⟨S100000x1, .i32⟩ : BufTy).Contents (Elt F)) ]
/-- The buffers these operations write. -/
abbrev chunkI_W : List (Ref sig .tc) := [main_c_14, main_v48, main_c_15, main_v49, main_v50, main_c_16, main_v51, main_v52, main_v53, main_v54]
theorem chunkI_writes : (chunkI : List (HloOp τ sig (Elt F))).Forall fun op => op.writes ⊆ (chunkI_W.map (Proc.devRef (τ := τ) .tc)).toFinset := by
  simp only [List.Forall]
  exact ⟨w1, w1, w1, w1, w1, w1, w1, w1, w1, w1⟩
theorem keepI (W : Valuation τ sig (Elt F)) (r : Ref sig .tc) (h : r ∉ chunkI_W) :
    after (chunkI (F := F)) W (Proc.devRef .tc r) = W (Proc.devRef .tc r) :=
  after_of_writes_sub chunkI W chunkI_writes h

theorem I_v48 : after (chunkI (F := F)) W (Proc.devRef .tc main_v48) = val_main_v48 (F := F) := by
  after_results
  all_goals rfl
theorem I_v54 (h4 : W (Proc.devRef .tc main_arg4) = x4) :
    after (chunkI (F := F)) W (Proc.devRef .tc main_v54) = val_main_v54 (F := F) x4 := by
  subst h4
  after_results
  all_goals rfl

/-- Operations 79 to 84: true scattered into the mask at the node indices, the mask spread over the feature axis, and the select between the scattered rows and the features. -/
abbrev chunkK : List (HloOp τ sig (Elt F)) :=
  [ nullary main_c_17 (constantI S_ 1 1#1),
    unary main_c_17 main_v55 (broadcastInDim S100000 ![] bcast_S_S100000 : (⟨S_, .i1⟩ : BufTy).Contents (Elt F) → (⟨S100000, .i1⟩ : BufTy).Contents (Elt F)),
    ternary main_v48 main_v54 main_v55 main_v56 ((fun x i u => Host.scatter scatter_S100000_S100000x1_S100000_n_0_0_1 (fun _ b => b) x i u) : (⟨S100000, .i1⟩ : BufTy).Contents (Elt F) → (⟨S100000x1, .i32⟩ : BufTy).Contents (Elt F) → (⟨S100000, .i1⟩ : BufTy).Contents (Elt F) → (⟨S100000, .i1⟩ : BufTy).Contents (Elt F)),
    unary main_v56 main_v57 (broadcastInDim S100000x1 ![0] bcast_S100000_S100000x1_0 : (⟨S100000, .i1⟩ : BufTy).Contents (Elt F) → (⟨S100000x1, .i1⟩ : BufTy).Contents (Elt F)),
    TRef.unary (TRef.of (T := ⟨S100000x1, .i1⟩) main_v57) (TRef.of (T := ⟨S100000x32, .i1⟩) main_call2_v0) (broadcastInDim S100000x32 ![0, 1] bcast_S100000x1_S100000x32_0_1),
    TRef.ternary (TRef.of (T := ⟨S100000x32, .i1⟩) main_call2_v0) (TRef.of (T := ⟨S100000x32, .f32⟩) main_v47) (TRef.of (T := ⟨S100000x32, .f32⟩) main_arg0) (TRef.of (T := ⟨S100000x32, .f32⟩) main_v58) select ]
/-- The buffers these operations write. -/
abbrev chunkK_W : List (Ref sig .tc) := [main_c_17, main_v55, main_v56, main_v57, main_call2_v0, main_v58]
theorem chunkK_writes : (chunkK : List (HloOp τ sig (Elt F))).Forall fun op => op.writes ⊆ (chunkK_W.map (Proc.devRef (τ := τ) .tc)).toFinset := by
  simp only [List.Forall]
  exact ⟨w1, w1, w1, w1, w1, w1⟩
theorem keepK (W : Valuation τ sig (Elt F)) (r : Ref sig .tc) (h : r ∉ chunkK_W) :
    after (chunkK (F := F)) W (Proc.devRef .tc r) = W (Proc.devRef .tc r) :=
  after_of_writes_sub chunkK W chunkK_writes h

theorem K_v58 (h0 : W (Proc.devRef .tc main_arg0) = x0) (h47 : W (Proc.devRef .tc main_v47) = val_main_v47 (F := F) x0 x1 x2 x3 x4)
    (h48 : W (Proc.devRef .tc main_v48) = val_main_v48 (F := F)) (h54 : W (Proc.devRef .tc main_v54) = val_main_v54 (F := F) x4) :
    after (chunkK (F := F)) W (Proc.devRef .tc main_v58) = val_main_v58 (F := F) x0 x1 x2 x3 x4 := by
  subst h0
  after_results
  simp only [cast_cast, cast_eq]
  rw [h47, h48, h54]
  rfl

/-! ## The list is the stretches in a row -/

theorem ops_split : (ops : List (HloOp τ sig (Elt F)))
    = chunkA ++ (chunkB ++ (chunkC ++ (chunkD ++ (chunkE ++ (chunkF ++ (chunkG ++ (chunkH ++ (chunkI ++ chunkK)))))))) := rfl

/-- The contents after the first k stretches. -/
def W1 : Valuation τ sig (Elt F) := after (chunkA (F := F)) V
def W2 : Valuation τ sig (Elt F) := after (chunkB (F := F)) (W1 V)
def W3 : Valuation τ sig (Elt F) := after (chunkC (F := F)) (W2 V)
def W4 : Valuation τ sig (Elt F) := after (chunkD (F := F)) (W3 V)
def W5 : Valuation τ sig (Elt F) := after (chunkE (F := F)) (W4 V)
def W6 : Valuation τ sig (Elt F) := after (chunkF (F := F)) (W5 V)
def W7 : Valuation τ sig (Elt F) := after (chunkG (F := F)) (W6 V)
def W8 : Valuation τ sig (Elt F) := after (chunkH (F := F)) (W7 V)
def W9 : Valuation τ sig (Elt F) := after (chunkI (F := F)) (W8 V)
def W10 : Valuation τ sig (Elt F) := after (chunkK (F := F)) (W9 V)

theorem after_ops : after (ops (F := F)) V = W10 V := by
  rw [ops_split]
  simp only [after_append]
  rfl

/-! ## A buffer none of the first k stretches writes holds what it held at the start -/

theorem W1_keep (r : Ref sig .tc) (h : r ∉ chunkA_W) : W1 V (Proc.devRef .tc r) = V (Proc.devRef .tc r) := keepA V r h
theorem W2_keep (r : Ref sig .tc) (h : r ∉ chunkA_W ++ chunkB_W) : W2 V (Proc.devRef .tc r) = V (Proc.devRef .tc r) :=
  (keepB _ r fun hm => h (List.mem_append_right _ hm)).trans (W1_keep V r fun hm => h (List.mem_append_left _ hm))
theorem W3_keep (r : Ref sig .tc) (h : r ∉ (chunkA_W ++ chunkB_W) ++ chunkC_W) : W3 V (Proc.devRef .tc r) = V (Proc.devRef .tc r) :=
  (keepC _ r fun hm => h (List.mem_append_right _ hm)).trans (W2_keep V r fun hm => h (List.mem_append_left _ hm))
theorem W4_keep (r : Ref sig .tc) (h : r ∉ ((chunkA_W ++ chunkB_W) ++ chunkC_W) ++ chunkD_W) : W4 V (Proc.devRef .tc r) = V (Proc.devRef .tc r) :=
  (keepD _ r fun hm => h (List.mem_append_right _ hm)).trans (W3_keep V r fun hm => h (List.mem_append_left _ hm))
theorem W5_keep (r : Ref sig .tc) (h : r ∉ (((chunkA_W ++ chunkB_W) ++ chunkC_W) ++ chunkD_W) ++ chunkE_W) :
    W5 V (Proc.devRef .tc r) = V (Proc.devRef .tc r) :=
  (keepE _ r fun hm => h (List.mem_append_right _ hm)).trans (W4_keep V r fun hm => h (List.mem_append_left _ hm))
theorem W6_keep (r : Ref sig .tc) (h : r ∉ ((((chunkA_W ++ chunkB_W) ++ chunkC_W) ++ chunkD_W) ++ chunkE_W) ++ chunkF_W) :
    W6 V (Proc.devRef .tc r) = V (Proc.devRef .tc r) :=
  (keepF _ r fun hm => h (List.mem_append_right _ hm)).trans (W5_keep V r fun hm => h (List.mem_append_left _ hm))
theorem W7_keep (r : Ref sig .tc) (h : r ∉ (((((chunkA_W ++ chunkB_W) ++ chunkC_W) ++ chunkD_W) ++ chunkE_W) ++ chunkF_W) ++ chunkG_W) :
    W7 V (Proc.devRef .tc r) = V (Proc.devRef .tc r) :=
  (keepG _ r fun hm => h (List.mem_append_right _ hm)).trans (W6_keep V r fun hm => h (List.mem_append_left _ hm))
theorem W8_keep (r : Ref sig .tc)
    (h : r ∉ ((((((chunkA_W ++ chunkB_W) ++ chunkC_W) ++ chunkD_W) ++ chunkE_W) ++ chunkF_W) ++ chunkG_W) ++ chunkH_W) :
    W8 V (Proc.devRef .tc r) = V (Proc.devRef .tc r) :=
  (keepH _ r fun hm => h (List.mem_append_right _ hm)).trans (W7_keep V r fun hm => h (List.mem_append_left _ hm))
theorem W9_keep (r : Ref sig .tc)
    (h : r ∉ (((((((chunkA_W ++ chunkB_W) ++ chunkC_W) ++ chunkD_W) ++ chunkE_W) ++ chunkF_W) ++ chunkG_W) ++ chunkH_W) ++ chunkI_W) :
    W9 V (Proc.devRef .tc r) = V (Proc.devRef .tc r) :=
  (keepI _ r fun hm => h (List.mem_append_right _ hm)).trans (W8_keep V r fun hm => h (List.mem_append_left _ hm))

/-! ## The invariant: after each stretch, every buffer still to be read holds its stage of the arguments -/

/-- The five argument buffers' contents at the start. -/
abbrev arg0 := V (Proc.devRef .tc main_arg0)
abbrev arg1 := V (Proc.devRef .tc main_arg1)
abbrev arg2 := V (Proc.devRef .tc main_arg2)
abbrev arg3 := V (Proc.devRef .tc main_arg3)
abbrev arg4 := V (Proc.devRef .tc main_arg4)

theorem W1_v2 : W1 V (Proc.devRef .tc main_v2) = val_main_v2 (F := F) (arg1 V) (arg3 V) := A_v2 V (arg1 V) (arg3 V) rfl rfl
theorem W1_v4 : W1 V (Proc.devRef .tc main_v4) = val_main_v4 (F := F) (arg1 V) (arg3 V) := A_v4 V (arg1 V) (arg3 V) rfl rfl
theorem W2_v2 : W2 V (Proc.devRef .tc main_v2) = val_main_v2 (F := F) (arg1 V) (arg3 V) := (keepB _ main_v2 (by decide)).trans (W1_v2 V)
theorem W2_v7 : W2 V (Proc.devRef .tc main_v7) = val_main_v7 (F := F) (arg1 V) (arg3 V) := B_v7 (W1 V) (arg1 V) (arg3 V) (W1_v2 V) (W1_v4 V)
theorem W3_v10 : W3 V (Proc.devRef .tc main_v10) = val_main_v10 (F := F) (arg1 V) (arg3 V) := C_v10 (W2 V) (arg1 V) (arg3 V) (W2_v2 V) (W2_v7 V)
theorem W4_v10 : W4 V (Proc.devRef .tc main_v10) = val_main_v10 (F := F) (arg1 V) (arg3 V) := (keepD _ main_v10 (by decide)).trans (W3_v10 V)
theorem W4_v18 : W4 V (Proc.devRef .tc main_v18) = val_main_v18 (F := F) (arg1 V) (arg3 V) :=
  D_v18 (W3 V) (arg1 V) (arg3 V) (W3_keep V main_arg1 (by decide)) (W3_keep V main_arg3 (by decide)) (W3_v10 V)
theorem W5_v26 : W5 V (Proc.devRef .tc main_v26) = val_main_v26 (F := F) (arg1 V) (arg2 V) (arg3 V) :=
  E_v26 (W4 V) (arg1 V) (arg2 V) (arg3 V) (W4_keep V main_arg2 (by decide)) (W4_v10 V) (W4_v18 V)
theorem W6_v27 : W6 V (Proc.devRef .tc main_v27) = val_main_v27 (F := F) (arg1 V) (arg2 V) (arg3 V) := F_v27 (W5 V) (arg1 V) (arg2 V) (arg3 V) (W5_v26 V)
theorem W6_v33 : W6 V (Proc.devRef .tc main_v33) = val_main_v33 (F := F) (arg2 V) := F_v33 (W5 V) (arg2 V) (W5_keep V main_arg2 (by decide))
theorem W7_v39 : W7 V (Proc.devRef .tc main_v39) = val_main_v39 (F := F) (arg0 V) (arg1 V) (arg2 V) (arg3 V) :=
  G_v39 (W6 V) (arg0 V) (arg1 V) (arg2 V) (arg3 V) (W6_keep V main_arg0 (by decide)) (W6_keep V main_arg1 (by decide)) (W6_v27 V) (W6_v33 V)
theorem W7_v40 : W7 V (Proc.devRef .tc main_v40) = val_main_v40 (F := F) := G_v40 (W6 V)
theorem W8_v47 : W8 V (Proc.devRef .tc main_v47) = val_main_v47 (F := F) (arg0 V) (arg1 V) (arg2 V) (arg3 V) (arg4 V) :=
  H_v47 (W7 V) (arg0 V) (arg1 V) (arg2 V) (arg3 V) (arg4 V) (W7_keep V main_arg4 (by decide)) (W7_v39 V) (W7_v40 V)
theorem W9_v47 : W9 V (Proc.devRef .tc main_v47) = val_main_v47 (F := F) (arg0 V) (arg1 V) (arg2 V) (arg3 V) (arg4 V) := (keepI _ main_v47 (by decide)).trans (W8_v47 V)
theorem W9_v48 : W9 V (Proc.devRef .tc main_v48) = val_main_v48 (F := F) := I_v48 (W8 V)
theorem W9_v54 : W9 V (Proc.devRef .tc main_v54) = val_main_v54 (F := F) (arg4 V) := I_v54 (W8 V) (arg4 V) (W8_keep V main_arg4 (by decide))
theorem W10_v58 : W10 V (Proc.devRef .tc main_v58) = val_main_v58 (F := F) (arg0 V) (arg1 V) (arg2 V) (arg3 V) (arg4 V) :=
  K_v58 (W9 V) (arg0 V) (arg1 V) (arg2 V) (arg3 V) (arg4 V) (W9_keep V main_arg0 (by decide)) (W9_v47 V) (W9_v48 V) (W9_v54 V)

end Stretches

/-- THE REFERENCE'S VALUE: from any contents, the result buffer after the 84 operations holds the last stage of the five
    argument buffers' contents. -/
theorem eval (V : Valuation τ sig (Elt Ideal)) :
    StableHlo.after (Cert.ReferenceIdeal.RunCopy.ops (F := Ideal)) V (Proc.devRef .tc main_v58)
      = Cert.ReferenceIdeal.ReadCopy.val_main_v58 (F := Ideal) (V (Proc.devRef .tc main_arg0)) (V (Proc.devRef .tc main_arg1))
          (V (Proc.devRef .tc main_arg2)) (V (Proc.devRef .tc main_arg3)) (V (Proc.devRef .tc main_arg4)) := by
  rw [after_ops]
  exact W10_v58 V

end Cert.ReferenceIdeal.RefEval

end
-- ==== Proof.KStretch.lean ====
/-
  The kernel program's host operations, stretch by stretch, as pure functions of the buffers they read.

  Between the launch and the return the program runs five stretches of host operations around its three regions. Read
  at the buffers the next region (or the return) takes, each stretch is a composition of the operations' functions:
  `rowsum` and `dinv` (the row sums of the edge weights by a scatter-add into zeros, and the degree coefficient
  `rowsum ^ (−1/2)` where positive, else `0`), `col` (a length-100000 vector laid along the rows of a 100000 × 32
  array), `take` (numpy's fill-mode row gather: the index wrapped when negative, the gathered row where the wrapped
  index is inside the table and the fill value elsewhere), `agg` (the gathered rows times the edge weights,
  scatter-added by destination row), `scat` and `maskf` (the scatter of rows, and of ones, at the wrapped `index`
  entries). Every array passes through a reshape to the packed 25000 × 128 layout on its way into a region and back on
  its way out.
-/
import proofs.«424469_j541165879956_3_alg».proof.Proof.Gen.KernelIdeal.Frame
import Idealize.ShloMosaic.Lib.StableHlo.Run
import Idealize.ShloMosaic.PureOps.Ideal

set_option maxRecDepth 16384

noncomputable section

namespace Cert.KernelIdeal.KStretch

open Cert.KernelIdeal Cert.KernelIdeal.Gen Idealize.ShloMosaic Idealize.ShloMosaic.TcCoe Idealize.SL.Sem
open Idealize.ShloMosaic.StableHlo

/-! ## The stretches' functions -/

/-- A length-100000 vector of zeros. -/
def zerosN : FVec Ideal S100000 .f32 :=
  broadcastInDim S100000 ![] bcast_S_S100000 (constant (F := Ideal) S_ .f32 0x00000000#32)

/-- The row sums: the edge weights scatter-added by destination row into zeros. -/
def rowsum (x1 : IVec S6400000 32) (x3 : FVec Ideal S6400000 .f32) : FVec Ideal S100000 .f32 :=
  Host.scatterAdd scatter_S100000_S6400000x1_S6400000_n_0_0_1 zerosN
    (broadcastInDim S6400000x1 ![0] bcast_S6400000_S6400000x1_0 x1) x3

/-- The degree coefficient of an array of row sums: `s ^ (−1/2)` where `s > 0`, else `0`. -/
def dcoef (rs : FVec Ideal S100000 .f32) : FVec Ideal S100000 .f32 :=
  select (cmpf .ogt rs zerosN)
    (Host.powf (select (cmpf .ogt rs zerosN) rs
        (broadcastInDim S100000 ![] bcast_S_S100000 (constant (F := Ideal) S_ .f32 0x3F800000#32)))
      (broadcastInDim S100000 ![] bcast_S_S100000 (constant (F := Ideal) S_ .f32 0xBF000000#32)))
    zerosN

def dinv (x1 : IVec S6400000 32) (x3 : FVec Ideal S6400000 .f32) : FVec Ideal S100000 .f32 := dcoef (rowsum x1 x3)

/-- A column `[100000, 1]` spread along the rows of a 100000 × 32 array. -/
def spread (cl : FVec Ideal S100000x1 .f32) : FVec Ideal S100000x32 .f32 :=
  broadcastInDim S100000x32 ![0, 1] bcast_S100000x1_S100000x32_0_1 cl

/-- A length-100000 vector as a column, spread along the rows. -/
def col (dv : FVec Ideal S100000 .f32) : FVec Ideal S100000x32 .f32 :=
  spread (shapeCast S100000x1 dv shapeCasts_S100000_S100000x1)

/-- The gather indices: a negative word has 100000 added; as a column of start indices. -/
def wrapIdx (x2 : IVec S6400000 32) : IVec S6400000x1 32 :=
  broadcastInDim S6400000x1 ![0] bcast_S6400000_S6400000x1_0
    (select (cmpi .slt x2 (broadcastInDim S6400000 ![] bcast_S_S6400000 (constantI S_ 32 0#32)))
      (addi x2 (broadcastInDim S6400000 ![] bcast_S_S6400000 (constantI S_ 32 100000#32))) x2)

/-- Whether each wrapped index is inside the table: `0 ≤ i ≤ 99999`, and-reduced over the unit axis. -/
def inb (i5 : IVec S6400000x1 32) : IVec S6400000 1 :=
  Host.reduce IntOp.andi
    (andi (cmpi .sge i5 (broadcastInDim S6400000x1 ![] bcast_S_S6400000x1 (constantI S_ 32 0#32)))
      (cmpi .sle i5 (broadcastInDim S6400000x1 ![0, 1] bcast_S1x1_S6400000x1_0_1
        (broadcastInDim S1x1 ![1] bcast_S1_S1x1_1 (constantI S1 32 99999#32)))))
    (constantI S_ 1 1#1) reducesTo_S6400000x1_S6400000_d1 h_S_

/-- The fill-mode row gather of a table `fs` at the indices `x2`. -/
def take (fs : FVec Ideal S100000x32 .f32) (x2 : IVec S6400000 32) : FVec Ideal S6400000x32 .f32 :=
  select (broadcastInDim S6400000x32 ![0] bcast_S6400000_S6400000x32_0 (inb (wrapIdx x2)))
    (Host.gather gather_S100000x32_S6400000x1_S6400000x32_1_0_n_n_0_1_132 fs (wrapIdx x2))
    (broadcastInDim S6400000x32 ![] bcast_S_S6400000x32 (constant (F := Ideal) S_ .f32 0x7FC00000#32))

/-- The gathered rows times the edge weights, scatter-added by destination row into zeros. -/
def agg (fs : FVec Ideal S100000x32 .f32) (x1 x2 : IVec S6400000 32) (x3 : FVec Ideal S6400000 .f32) :
    FVec Ideal S100000x32 .f32 :=
  Host.scatterAdd scatter_S100000x32_S6400000x1_S6400000x32_1_0_0_1
    (broadcastInDim S100000x32 ![] bcast_S_S100000x32 (constant (F := Ideal) S_ .f32 0x00000000#32))
    (broadcastInDim S6400000x1 ![0] bcast_S6400000_S6400000x1_0 x1)
    (mulf (take fs x2)
      (broadcastInDim S6400000x32 ![0, 1] bcast_S6400000x1_S6400000x32_0_1
        (broadcastInDim S6400000x1 ![0] bcast_S6400000_S6400000x1_0 x3)))

/-- The entries of `index`, a negative one wrapped, as a column of start indices. -/
def wrapIx (x4 : IVec S100000 32) : IVec S100000x1 32 :=
  broadcastInDim S100000x1 ![0] bcast_S100000_S100000x1_0
    (select (cmpi .slt x4 (broadcastInDim S100000 ![] bcast_S_S100000 (constantI S_ 32 0#32)))
      (addi x4 (broadcastInDim S100000 ![] bcast_S_S100000 (constantI S_ 32 100000#32))) x4)

/-- The rows of `out` written at the wrapped `index` entries into zeros. -/
def scat (out : FVec Ideal S100000x32 .f32) (x4 : IVec S100000 32) : FVec Ideal S100000x32 .f32 :=
  Host.scatter scatter_S100000x32_S100000x1_S100000x32_1_0_0_1 (fun _ b => b)
    (broadcastInDim S100000x32 ![] bcast_S_S100000x32 (constant (F := Ideal) S_ .f32 0x00000000#32))
    (wrapIx x4) out

/-- Ones written at the wrapped `index` entries into zeros: the membership mask as floats. -/
def maskf (x4 : IVec S100000 32) : FVec Ideal S100000 .f32 :=
  Host.scatter scatter_S100000_S100000x1_S100000_n_0_0_1 (fun _ b => b) zerosN (wrapIx x4)
    (broadcastInDim S100000 ![] bcast_S_S100000 (constant (F := Ideal) S_ .f32 0x3F800000#32))

/-! ## The stretches read at the buffers the regions take -/

variable (V : Valuation τ sig (Elt Ideal))

/-- The five host stretches before region 0, from contents `V`. -/
abbrev A0 : Valuation τ sig (Elt Ideal) :=
  StableHlo.after (hostOps0_4 (F := Ideal)) (StableHlo.after hostOps0_3 (StableHlo.after hostOps0_2
    (StableHlo.after hostOps0_1 (StableHlo.after hostOps0 V))))

set_option maxHeartbeats 8000000 in
theorem st0_v12 : A0 V (Proc.devRef .tc main_v12)
    = shapeCast S25000x128 (V (Proc.devRef .tc main_arg0)) shapeCasts_S100000x32_S25000x128 := by
  after_results_simp
  all_goals rfl

set_option maxHeartbeats 8000000 in
theorem st0_args : A0 V (Proc.devRef .tc main_arg0) = V (Proc.devRef .tc main_arg0)
    ∧ A0 V (Proc.devRef .tc main_arg1) = V (Proc.devRef .tc main_arg1)
    ∧ A0 V (Proc.devRef .tc main_arg2) = V (Proc.devRef .tc main_arg2)
    ∧ A0 V (Proc.devRef .tc main_arg3) = V (Proc.devRef .tc main_arg3)
    ∧ A0 V (Proc.devRef .tc main_arg4) = V (Proc.devRef .tc main_arg4) := by
  refine ⟨?_, ?_, ?_, ?_, ?_⟩ <;> after_results_simp <;> rfl

/-- The three host stretches between region 0 and region 1, from contents `V`. -/
abbrev A1 : Valuation τ sig (Elt Ideal) :=
  StableHlo.after (hostOps1_2 (F := Ideal)) (StableHlo.after hostOps1_1 (StableHlo.after hostOps1 V))

set_option maxHeartbeats 16000000 in
theorem st1_v26 : A1 V (Proc.devRef .tc main_v26)
    = shapeCast S25000x128 (spread (V (Proc.devRef .tc main_v11))) shapeCasts_S100000x32_S25000x128 := by
  after_results_simp
  all_goals rfl

set_option maxHeartbeats 16000000 in
theorem st1_args : A1 V (Proc.devRef .tc main_arg0) = V (Proc.devRef .tc main_arg0)
    ∧ A1 V (Proc.devRef .tc main_arg4) = V (Proc.devRef .tc main_arg4) := by
  refine ⟨?_, ?_⟩ <;> after_results_simp <;> rfl

/-- The host stretch between region 1 and region 2, from contents `V`. -/
abbrev A2 : Valuation τ sig (Elt Ideal) := StableHlo.after (hostOps2 (F := Ideal)) V

set_option maxHeartbeats 16000000 in
theorem st2_v47 : A2 V (Proc.devRef .tc main_v47)
    = shapeCast S25000x128
        (scat (shapeCast S100000x32 (V (Proc.devRef .tc main_v27)) shapeCasts_S25000x128_S100000x32)
          (V (Proc.devRef .tc main_arg4)))
        shapeCasts_S100000x32_S25000x128 := by
  after_results_simp
  all_goals rfl

set_option maxHeartbeats 16000000 in
theorem st2_v48 : A2 V (Proc.devRef .tc main_v48)
    = shapeCast S25000x128 (V (Proc.devRef .tc main_arg0)) shapeCasts_S100000x32_S25000x128 := by
  after_results_simp
  all_goals rfl

set_option maxHeartbeats 16000000 in
theorem st2_v50 : A2 V (Proc.devRef .tc main_v50)
    = shapeCast S25000x128 (col (maskf (V (Proc.devRef .tc main_arg4)))) shapeCasts_S100000x32_S25000x128 := by
  after_results_simp
  all_goals rfl

/-- The last stretch: the result reshaped back. -/
theorem st3_v52 : StableHlo.after (hostOps3 (F := Ideal)) V (Proc.devRef .tc main_v52)
    = shapeCast S100000x32 (V (Proc.devRef .tc main_v51)) shapeCasts_S25000x128_S100000x32 := by
  after_results
  all_goals rfl

end Cert.KernelIdeal.KStretch

end
-- ==== Proof.KStretch0.lean ====
/-
  The host operations before the first region, read at the degree coefficient.

  The row sums (a scatter-add of the edge weights into zeros), the comparison with zero, the two selects of the
  inlined `where` and the power `−1/2` compose, stretch by stretch, into `dinv`; the last stretch lays it out as a
  column and as the packed array the first region multiplies the table by.
-/
import proofs.«424469_j541165879956_3_alg».proof.Proof.KStretch

set_option maxRecDepth 16384

noncomputable section

namespace Cert.KernelIdeal.KStretch0

open Cert.KernelIdeal Cert.KernelIdeal.Gen Idealize.ShloMosaic Idealize.ShloMosaic.TcCoe Idealize.SL.Sem
open Idealize.ShloMosaic.StableHlo Cert.KernelIdeal.KStretch

variable (V : Valuation τ sig (Elt Ideal))

/-! ## One stretch at a time -/

theorem a_v2 : StableHlo.after (hostOps0 (F := Ideal)) V (Proc.devRef .tc main_v2)
    = rowsum (V (Proc.devRef .tc main_arg1)) (V (Proc.devRef .tc main_arg3)) := by
  after_results
  all_goals rfl

theorem a_v4 : StableHlo.after (hostOps0 (F := Ideal)) V (Proc.devRef .tc main_v4)
    = cmpf .ogt (rowsum (V (Proc.devRef .tc main_arg1)) (V (Proc.devRef .tc main_arg3))) zerosN := by
  after_results
  all_goals rfl

theorem a_cst1 : StableHlo.after (hostOps0 (F := Ideal)) V (Proc.devRef .tc main_cst_1)
    = constant (F := Ideal) S_ .f32 0x3F800000#32 := by
  after_results
  all_goals rfl

theorem b_v5 : StableHlo.after (hostOps0_1 (F := Ideal)) V (Proc.devRef .tc main_v5)
    = select (V (Proc.devRef .tc main_v4)) (V (Proc.devRef .tc main_v2))
        (broadcastInDim S100000 ![] bcast_S_S100000 (V (Proc.devRef .tc main_cst_1))) := by
  after_results
  all_goals rfl

theorem b_v2 : StableHlo.after (hostOps0_1 (F := Ideal)) V (Proc.devRef .tc main_v2) = V (Proc.devRef .tc main_v2) := by
  after_results
  all_goals rfl

theorem c_v7 : StableHlo.after (hostOps0_2 (F := Ideal)) V (Proc.devRef .tc main_v7)
    = Host.powf (V (Proc.devRef .tc main_v5))
        (broadcastInDim S100000 ![] bcast_S_S100000 (constant (F := Ideal) S_ .f32 0xBF000000#32)) := by
  after_results
  all_goals rfl

theorem c_v9 : StableHlo.after (hostOps0_2 (F := Ideal)) V (Proc.devRef .tc main_v9)
    = cmpf .ogt (V (Proc.devRef .tc main_v2)) zerosN := by
  after_results
  all_goals rfl

theorem c_cst4 : StableHlo.after (hostOps0_2 (F := Ideal)) V (Proc.devRef .tc main_cst_4)
    = constant (F := Ideal) S_ .f32 0x00000000#32 := by
  after_results
  all_goals rfl

theorem d_v10 : StableHlo.after (hostOps0_3 (F := Ideal)) V (Proc.devRef .tc main_v10)
    = select (V (Proc.devRef .tc main_v9)) (V (Proc.devRef .tc main_v7))
        (broadcastInDim S100000 ![] bcast_S_S100000 (V (Proc.devRef .tc main_cst_4))) := by
  after_results
  all_goals rfl

theorem e_v11 : StableHlo.after (hostOps0_4 (F := Ideal)) V (Proc.devRef .tc main_v11)
    = shapeCast S100000x1 (V (Proc.devRef .tc main_v10)) shapeCasts_S100000_S100000x1 := by
  after_results
  all_goals rfl

theorem e_v14 : StableHlo.after (hostOps0_4 (F := Ideal)) V (Proc.devRef .tc main_v14)
    = shapeCast S25000x128 (col (V (Proc.devRef .tc main_v10))) shapeCasts_S100000x32_S25000x128 := by
  after_results
  all_goals rfl

/-! ## Composed -/

/-- After the first four stretches the coefficient buffer holds `dinv` of the edge rows and weights. -/
theorem v10_eq : StableHlo.after (hostOps0_3 (F := Ideal)) (StableHlo.after hostOps0_2 (StableHlo.after hostOps0_1
      (StableHlo.after hostOps0 V))) (Proc.devRef .tc main_v10)
    = dinv (V (Proc.devRef .tc main_arg1)) (V (Proc.devRef .tc main_arg3)) := by
  rw [d_v10, c_v9, c_v7, c_cst4, b_v5, b_v2, a_v2, a_v4, a_cst1]
  rfl

theorem st0_v11 : A0 V (Proc.devRef .tc main_v11)
    = shapeCast S100000x1 (dinv (V (Proc.devRef .tc main_arg1)) (V (Proc.devRef .tc main_arg3))) shapeCasts_S100000_S100000x1 := by
  show StableHlo.after (hostOps0_4 (F := Ideal)) _ (Proc.devRef .tc main_v11) = _
  rw [e_v11, v10_eq]

theorem st0_v14 : A0 V (Proc.devRef .tc main_v14)
    = shapeCast S25000x128 (col (dinv (V (Proc.devRef .tc main_arg1)) (V (Proc.devRef .tc main_arg3)))) shapeCasts_S100000x32_S25000x128 := by
  show StableHlo.after (hostOps0_4 (F := Ideal)) _ (Proc.devRef .tc main_v14) = _
  rw [e_v14, v10_eq]

end Cert.KernelIdeal.KStretch0

end
-- ==== Proof.KStretch1.lean ====
/-
  The three host stretches between region 0 and region 1, read at the array region 1 takes as its first operand.

  The stretches run, in order: a reshape of region 0's output back to 100000 × 32; the fill-mode row gather of that
  table at the source indices (the index wrapped when negative, the bounds test, the gather, and the fill value
  where the wrapped index is outside the table); and the aggregation (the gathered rows times the edge weights,
  scatter-added by destination row into zeros) followed by the reshape to the packed 25000 × 128 layout. The gather's
  23 operations are read in three consecutive pieces — the index wrap, the bounds test, the gather with its fill —,
  each piece at ANY contents, and the pieces are then composed: every piece leaves alone the buffers a later piece or
  stretch still reads.
-/
import proofs.«424469_j541165879956_3_alg».proof.Proof.KStretch

set_option maxRecDepth 16384

noncomputable section

namespace Cert.KernelIdeal.KStretch1

open Cert.KernelIdeal Cert.KernelIdeal.Gen Idealize.ShloMosaic Idealize.ShloMosaic.TcCoe Idealize.SL.Sem
open Idealize.ShloMosaic.StableHlo

/-! ## The gather and the aggregation from their intermediate values -/

/-- The fill-mode gather from the wrapped indices `i5` and their bounds test `ok`: the gathered row where the test
    holds, the fill value elsewhere. -/
def takeOf (fs : FVec Ideal S100000x32 .f32) (i5 : IVec S6400000x1 32) (ok : IVec S6400000 1) :
    FVec Ideal S6400000x32 .f32 :=
  select (broadcastInDim S6400000x32 ![0] bcast_S6400000_S6400000x32_0 ok)
    (Host.gather gather_S100000x32_S6400000x1_S6400000x32_1_0_n_n_0_1_132 fs i5)
    (broadcastInDim S6400000x32 ![] bcast_S_S6400000x32 (constant (F := Ideal) S_ .f32 0x7FC00000#32))

/-- `take` is `takeOf` at the wrapped indices and their bounds test. -/
theorem take_eq (fs : FVec Ideal S100000x32 .f32) (x2 : IVec S6400000 32) :
    KStretch.take fs x2 = takeOf fs (KStretch.wrapIdx x2) (KStretch.inb (KStretch.wrapIdx x2)) := rfl

/-- The aggregation from the gathered rows `g`: times the edge weights, scatter-added by destination row into zeros. -/
def aggOf (g : FVec Ideal S6400000x32 .f32) (x1 : IVec S6400000 32) (x3 : FVec Ideal S6400000 .f32) :
    FVec Ideal S100000x32 .f32 :=
  Host.scatterAdd scatter_S100000x32_S6400000x1_S6400000x32_1_0_0_1
    (broadcastInDim S100000x32 ![] bcast_S_S100000x32 (constant (F := Ideal) S_ .f32 0x00000000#32))
    (broadcastInDim S6400000x1 ![0] bcast_S6400000_S6400000x1_0 x1)
    (mulf g
      (broadcastInDim S6400000x32 ![0, 1] bcast_S6400000x1_S6400000x32_0_1
        (broadcastInDim S6400000x1 ![0] bcast_S6400000_S6400000x1_0 x3)))

/-- `agg` is `aggOf` at the gathered rows. -/
theorem agg_eq (fs : FVec Ideal S100000x32 .f32) (x1 x2 : IVec S6400000 32) (x3 : FVec Ideal S6400000 .f32) :
    KStretch.agg fs x1 x2 x3 = aggOf (KStretch.take fs x2) x1 x3 := rfl

/-! ## The gather's operations in three consecutive pieces -/

/-- The index wrap: a negative index has the table's height added; the result as a column of start indices. -/
abbrev wrapOps : List (HloOp τ sig (Elt Ideal)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S6400000, .i32⟩) (broadcastInDim S6400000 ![] bcast_S_S6400000),
    StableHlo.TRef.binary (.of main_arg2 : StableHlo.TRef sig ⟨S6400000, .i32⟩) (.of main_call2_v0 : StableHlo.TRef sig ⟨S6400000, .i32⟩) (.of main_call2_v1 : StableHlo.TRef sig ⟨S6400000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S6400000, .i32⟩) (broadcastInDim S6400000 ![] bcast_S_S6400000),
    StableHlo.TRef.binary (.of main_arg2 : StableHlo.TRef sig ⟨S6400000, .i32⟩) (.of main_call2_v2 : StableHlo.TRef sig ⟨S6400000, .i32⟩) (.of main_call2_v3 : StableHlo.TRef sig ⟨S6400000, .i32⟩) addi,
    StableHlo.TRef.ternary (.of main_call2_v1 : StableHlo.TRef sig ⟨S6400000, .i1⟩) (.of main_call2_v3 : StableHlo.TRef sig ⟨S6400000, .i32⟩) (.of main_arg2 : StableHlo.TRef sig ⟨S6400000, .i32⟩) (.of main_call2_v4 : StableHlo.TRef sig ⟨S6400000, .i32⟩) select,
    StableHlo.TRef.unary main_call2_call0.v0 (.of main_call2_v5 : StableHlo.TRef sig ⟨S6400000x1, .i32⟩) (broadcastInDim S6400000x1 ![0] bcast_S6400000_S6400000x1_0) ]

/-- The bounds test of the wrapped indices: `0 ≤ i ≤ 99999`, and-reduced over the unit axis. -/
abbrev boundsOps : List (HloOp τ sig (Elt Ideal)) :=
  [ StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S6400000x1, .i32⟩) (broadcastInDim S6400000x1 ![] bcast_S_S6400000x1),
    StableHlo.TRef.binary (.of main_call2_v5 : StableHlo.TRef sig ⟨S6400000x1, .i32⟩) (.of main_call2_v6 : StableHlo.TRef sig ⟨S6400000x1, .i32⟩) (.of main_call2_v7 : StableHlo.TRef sig ⟨S6400000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S6400000x1, .i32⟩) (broadcastInDim S6400000x1 ![0, 1] bcast_S1x1_S6400000x1_0_1),
    StableHlo.TRef.binary (.of main_call2_v5 : StableHlo.TRef sig ⟨S6400000x1, .i32⟩) (.of main_call2_v9 : StableHlo.TRef sig ⟨S6400000x1, .i32⟩) (.of main_call2_v10 : StableHlo.TRef sig ⟨S6400000x1, .i1⟩) (cmpi .sle),
    StableHlo.TRef.binary (.of main_call2_v7 : StableHlo.TRef sig ⟨S6400000x1, .i1⟩) (.of main_call2_v10 : StableHlo.TRef sig ⟨S6400000x1, .i1⟩) (.of main_call2_v11 : StableHlo.TRef sig ⟨S6400000x1, .i1⟩) andi,
    StableHlo.TRef.nullary (.of main_call2_c_3 : StableHlo.TRef sig ⟨S_, .i1⟩) (constantI S_ 1 1#1),
    StableHlo.TRef.binary (.of main_call2_v11 : StableHlo.TRef sig ⟨S6400000x1, .i1⟩) (.of main_call2_c_3 : StableHlo.TRef sig ⟨S_, .i1⟩) (.of main_call2_v12 : StableHlo.TRef sig ⟨S6400000, .i1⟩) (fun x v => Host.reduce IntOp.andi x v reducesTo_S6400000x1_S6400000_d1 h_S_) ]

/-- The gather at the wrapped indices, and the fill value where the bounds test fails. -/
abbrev gatherOps : List (HloOp τ sig (Elt Ideal)) :=
  [ StableHlo.TRef.binary (.of main_v16 : StableHlo.TRef sig ⟨S100000x32, .f32⟩) (.of main_call2_v5 : StableHlo.TRef sig ⟨S6400000x1, .i32⟩) (.of main_call2_v13 : StableHlo.TRef sig ⟨S6400000x32, .f32⟩) (fun x i => Host.gather gather_S100000x32_S6400000x1_S6400000x32_1_0_n_n_0_1_132 x i),
    StableHlo.TRef.unary (.of main_call2_v12 : StableHlo.TRef sig ⟨S6400000, .i1⟩) (.of main_call2_v14 : StableHlo.TRef sig ⟨S6400000x32, .i1⟩) (broadcastInDim S6400000x32 ![0] bcast_S6400000_S6400000x32_0),
    StableHlo.TRef.nullary (.of main_call2_cst : StableHlo.TRef sig ⟨S_, .f32⟩) (constant (F := Ideal) S_ .f32 0x7FC00000#32),
    StableHlo.TRef.unary (.of main_call2_cst : StableHlo.TRef sig ⟨S_, .f32⟩) (.of main_call2_v15 : StableHlo.TRef sig ⟨S6400000x32, .f32⟩) (broadcastInDim S6400000x32 ![] bcast_S_S6400000x32),
    StableHlo.TRef.ternary (.of main_call2_v14 : StableHlo.TRef sig ⟨S6400000x32, .i1⟩) (.of main_call2_v13 : StableHlo.TRef sig ⟨S6400000x32, .f32⟩) (.of main_call2_v15 : StableHlo.TRef sig ⟨S6400000x32, .f32⟩) (.of main_v17 : StableHlo.TRef sig ⟨S6400000x32, .f32⟩) select ]

/-- The gather's operations are the three pieces in a row. -/
theorem take_ops_split : (hostOps1_1 : List (HloOp τ sig (Elt Ideal))) = wrapOps ++ boundsOps ++ gatherOps := rfl

variable (W : Valuation τ sig (Elt Ideal))

/-- Reads a short literal list of operations at one buffer: each operation's result is rewritten to its function's
    value at its own buffer and to what was there at any other; a typed reference's transport of contents along the
    equation of its buffer's type, which at a literal reference is the identity, is removed; what is left holds by
    unfolding the definitions. -/
local macro "read_ops" : tactic =>
  `(tactic| (after_results
             all_goals (try simp only [cast_cast, cast_eq])
             all_goals rfl))

/-! ### The index wrap -/

theorem wrap_v5 : StableHlo.after wrapOps W (Proc.devRef .tc main_call2_v5) = KStretch.wrapIdx (W (Proc.devRef .tc main_arg2)) := by
  read_ops

theorem wrap_v16 : StableHlo.after wrapOps W (Proc.devRef .tc main_v16) = W (Proc.devRef .tc main_v16) := by
  read_ops

theorem wrap_arg1 : StableHlo.after wrapOps W (Proc.devRef .tc main_arg1) = W (Proc.devRef .tc main_arg1) := by
  read_ops

theorem wrap_arg3 : StableHlo.after wrapOps W (Proc.devRef .tc main_arg3) = W (Proc.devRef .tc main_arg3) := by
  read_ops

/-! ### The bounds test -/

theorem bounds_v12 : StableHlo.after boundsOps W (Proc.devRef .tc main_call2_v12) = KStretch.inb (W (Proc.devRef .tc main_call2_v5)) := by
  read_ops

theorem bounds_v5 : StableHlo.after boundsOps W (Proc.devRef .tc main_call2_v5) = W (Proc.devRef .tc main_call2_v5) := by
  read_ops

theorem bounds_v16 : StableHlo.after boundsOps W (Proc.devRef .tc main_v16) = W (Proc.devRef .tc main_v16) := by
  read_ops

theorem bounds_arg1 : StableHlo.after boundsOps W (Proc.devRef .tc main_arg1) = W (Proc.devRef .tc main_arg1) := by
  read_ops

theorem bounds_arg3 : StableHlo.after boundsOps W (Proc.devRef .tc main_arg3) = W (Proc.devRef .tc main_arg3) := by
  read_ops

/-! ### The gather and its fill -/

theorem gather_v17 : StableHlo.after gatherOps W (Proc.devRef .tc main_v17)
    = takeOf (W (Proc.devRef .tc main_v16)) (W (Proc.devRef .tc main_call2_v5)) (W (Proc.devRef .tc main_call2_v12)) := by
  read_ops

theorem gather_arg1 : StableHlo.after gatherOps W (Proc.devRef .tc main_arg1) = W (Proc.devRef .tc main_arg1) := by
  read_ops

theorem gather_arg3 : StableHlo.after gatherOps W (Proc.devRef .tc main_arg3) = W (Proc.devRef .tc main_arg3) := by
  read_ops

/-! ## The three stretches, each at any contents -/

/-- The first stretch reshapes region 0's output back to 100000 × 32 and touches nothing else that is read later. -/
theorem first_v16 : StableHlo.after (hostOps1 (F := Ideal)) W (Proc.devRef .tc main_v16)
    = shapeCast S100000x32 (W (Proc.devRef .tc main_v15)) shapeCasts_S25000x128_S100000x32 := by
  read_ops

theorem first_arg1 : StableHlo.after (hostOps1 (F := Ideal)) W (Proc.devRef .tc main_arg1) = W (Proc.devRef .tc main_arg1) := by
  read_ops

theorem first_arg2 : StableHlo.after (hostOps1 (F := Ideal)) W (Proc.devRef .tc main_arg2) = W (Proc.devRef .tc main_arg2) := by
  read_ops

theorem first_arg3 : StableHlo.after (hostOps1 (F := Ideal)) W (Proc.devRef .tc main_arg3) = W (Proc.devRef .tc main_arg3) := by
  read_ops

/-- The second stretch leaves in `main_v17` the fill-mode gather of the table `main_v16` at the indices `main_arg2`:
    the three pieces composed. -/
theorem second_v17 : StableHlo.after (hostOps1_1 (F := Ideal)) W (Proc.devRef .tc main_v17)
    = KStretch.take (W (Proc.devRef .tc main_v16)) (W (Proc.devRef .tc main_arg2)) := by
  rw [take_ops_split, StableHlo.after_append, StableHlo.after_append, gather_v17, bounds_v16, bounds_v5, bounds_v12,
    wrap_v16, wrap_v5, take_eq]

theorem second_arg1 : StableHlo.after (hostOps1_1 (F := Ideal)) W (Proc.devRef .tc main_arg1) = W (Proc.devRef .tc main_arg1) := by
  rw [take_ops_split, StableHlo.after_append, StableHlo.after_append, gather_arg1, bounds_arg1, wrap_arg1]

theorem second_arg3 : StableHlo.after (hostOps1_1 (F := Ideal)) W (Proc.devRef .tc main_arg3) = W (Proc.devRef .tc main_arg3) := by
  rw [take_ops_split, StableHlo.after_append, StableHlo.after_append, gather_arg3, bounds_arg3, wrap_arg3]

/-- The third stretch leaves in `main_v24` the aggregation of the gathered rows `main_v17`, reshaped to the packed
    layout. -/
theorem third_v24 : StableHlo.after (hostOps1_2 (F := Ideal)) W (Proc.devRef .tc main_v24)
    = shapeCast S25000x128 (aggOf (W (Proc.devRef .tc main_v17)) (W (Proc.devRef .tc main_arg1)) (W (Proc.devRef .tc main_arg3)))
        shapeCasts_S100000x32_S25000x128 := by
  read_ops

/-! ## The stretches composed -/

/-- After the three stretches, region 1's first operand is the aggregation over the table that region 0 left, reshaped
    to the packed layout. -/
theorem st1_v24 (V : Valuation τ sig (Elt Ideal)) : KStretch.A1 V (Proc.devRef .tc main_v24)
    = shapeCast S25000x128
        (KStretch.agg (shapeCast S100000x32 (V (Proc.devRef .tc main_v15)) shapeCasts_S25000x128_S100000x32)
          (V (Proc.devRef .tc main_arg1)) (V (Proc.devRef .tc main_arg2)) (V (Proc.devRef .tc main_arg3)))
        shapeCasts_S100000x32_S25000x128 := by
  show StableHlo.after (hostOps1_2 (F := Ideal)) (StableHlo.after hostOps1_1 (StableHlo.after hostOps1 V)) (Proc.devRef .tc main_v24) = _
  rw [third_v24, second_v17, second_arg1, second_arg3, first_v16, first_arg1, first_arg2, first_arg3, agg_eq]

end Cert.KernelIdeal.KStretch1

end
-- ==== Proof.RegionValue.lean ====
import proofs.«424469_j541165879956_3_alg».proof.Proof.Gen.KernelIdeal.Frame
import Idealize.ShloMosaic.Lib.Pipeline.Value

/-! # Each region's output array as one function of its input arrays

The program has three pipelined regions, each a grid of 5 points over arrays of shape 25000 × 128 cut into blocks
of shape 5000 × 128, point `t` working on block `(t, 0)` of every array. Regions 0 and 1 multiply two arrays
elementwise; region 2 selects elementwise between two arrays by a mask compared with one half. The five blocks tile
the array (5 · 5000 = 25000 rows, one block of 128 columns), so after a region its output array is, at EVERY index, the
elementwise operation of the input arrays as the region found them. This holds for any float interpretation and any
contents at the region's entry. -/

-- membership in a rectangle of these extents recurses once per coordinate of the long axis
set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load and one store sit at offsets `(0, 0)`: the constant zero. -/
theorem offsets_zero : (![0, 0] : Fin 2 → Nat) = fun _ => 0 := funext fun a => by fin_cases a <;> rfl

/-! ## Region 0: the elementwise product of two arrays -/

/-- The elementwise product of two whole arrays. -/
abbrev prodArr (a0 a1 : S25000x128.Idx → Elt F .f32) : S25000x128.Idx → Elt F .f32 := fun i => FloatOps.mulf (a0 i) (a1 i)

/-- The stored value is the product of the two loaded blocks: a reshape of a block to its own shape changes nothing. -/
theorem payload0_eq (x0 x1 : Vec F S5000x128 .f32) : k0_pay1 x0 x1 = mulf x0 x1 := by
  unfold k0_pay1
  rw [shapeCast_self, shapeCast_self]

/-- At grid point `t` the output's block index is `(t, 0)`, and both inputs' block indices equal it (decided over
    the 5 points). -/
theorem index0 : ∀ t : Fin cfg0.N, win0_0.index t = win0_2.index t ∧ win0_1.index t = win0_2.index t
    ∧ win0_2.index t = ![t.val, 0] :=
  (by decide +kernel : ∀ t : Fin grid0.N, _)

/-- What point `t` writes back is block `t` of the product of the two input arrays as the region finds them. -/
theorem writeback0 (c : Dev nD) (t : Fin cfg0.N) :
    (dat0 V c).flushed 2 t = ((cfg0.win 2).blk t).view.read (Elt F) (prodArr (V c main_v12) (V c main_v14)) := by
  show (cfg0.win 2).cut (grid0.coords t) ((dat0 V c).after 2 t) = _
  rw [after0_2]
  unfold out0_2
  rw [View.canon_unit_zero offsets_zero]
  simp only [View.ld_unit_zero (S := S5000x128) offsets_zero]
  rw [payload0_eq]
  obtain ⟨e0, e1, -⟩ := index0 t
  funext j
  show FloatOps.mulf (V c main_v12 (((cfg0.win 0).blk t).view.emb j)) (V c main_v14 (((cfg0.win 1).blk t).view.emb j))
    = FloatOps.mulf (V c main_v12 (((cfg0.win 2).blk t).view.emb j)) (V c main_v14 (((cfg0.win 2).blk t).view.emb j))
  -- a block's coordinate is its block index times the block extent plus the coordinate inside the block
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; rw [e0]
    | ⟨1, _⟩ => show win0_0.index t (1 : Fin 2) * 128 + 1 * (j 1).val = win0_2.index t (1 : Fin 2) * 128 + 1 * (j 1).val; rw [e0]
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; rw [e1]
    | ⟨1, _⟩ => show win0_1.index t (1 : Fin 2) * 128 + 1 * (j 1).val = win0_2.index t (1 : Fin 2) * 128 + 1 * (j 1).val; rw [e1]
  rw [h0, h1]

/-- An index of the output array is in point `t`'s block iff each coordinate is in the block's range on its axis. -/
theorem mem_block0 (t : Fin cfg0.N) (i : S25000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- The five blocks tile the array: row `r` lies in the block of point `r / 5000`, whose one column block is the whole
    row. -/
theorem cover0 (i : S25000x128.Idx) :
    ∃ t : Fin cfg0.N, (cfg0.win 2).flush t = true ∧ i ∈ ((cfg0.win 2).blk t).view.set := by
  have hi0 : (i 0).val < 25000 := (i 0).isLt
  have hi1 : (i 1).val < 128 := (i 1).isLt
  have hN : (i 0).val / 5000 < cfg0.N := by rw [show cfg0.N = 5 from N_0]; omega
  obtain ⟨-, -, e2⟩ := index0 ⟨(i 0).val / 5000, hN⟩
  have q0 : win0_2.index ⟨(i 0).val / 5000, hN⟩ (0 : Fin 2) = (i 0).val / 5000 := congrFun e2 0
  have q1 : win0_2.index ⟨(i 0).val / 5000, hN⟩ (1 : Fin 2) = 0 := congrFun e2 1
  refine ⟨⟨(i 0).val / 5000, hN⟩, flush0_2 _, ?_⟩
  rw [mem_block0]
  intro a
  match a with
  | ⟨0, _⟩ => show win0_2.index ⟨(i 0).val / 5000, hN⟩ (0 : Fin 2) * 5000 ≤ (i 0).val ∧ (i 0).val < win0_2.index ⟨(i 0).val / 5000, hN⟩ (0 : Fin 2) * 5000 + 5000; omega
  | ⟨1, _⟩ => show win0_2.index ⟨(i 0).val / 5000, hN⟩ (1 : Fin 2) * 128 ≤ (i 1).val ∧ (i 1).val < win0_2.index ⟨(i 0).val / 5000, hN⟩ (1 : Fin 2) * 128 + 128; omega

/-- THE OUTPUT ARRAY AFTER REGION 0 is the elementwise product of its two input arrays as the region finds them. -/
theorem final0 (c : Dev nD) : (dat0 V c).arrAt 2 cfg0.N
    = (fun i => FloatOps.mulf ((V c main_v12 : S25000x128.Idx → Elt F .f32) i) ((V c main_v14 : S25000x128.Idx → Elt F .f32) i)) :=
  (dat0 V c).arrAt_eq_of_cover 2 (prodArr (V c main_v12) (V c main_v14)) (fun t _ => writeback0 V c t) cover0

/-! ## Region 1: the elementwise product again, of two other arrays -/

/-- The stored value is the product of the two loaded blocks: a reshape of a block to its own shape changes nothing. -/
theorem payload1_eq (x0 x1 : Vec F S5000x128 .f32) : k1_pay1 x0 x1 = mulf x0 x1 := by
  unfold k1_pay1
  rw [shapeCast_self, shapeCast_self]

/-- At grid point `t` the output's block index is `(t, 0)`, and both inputs' block indices equal it (decided over
    the 5 points). -/
theorem index1 : ∀ t : Fin cfg1.N, win1_0.index t = win1_2.index t ∧ win1_1.index t = win1_2.index t
    ∧ win1_2.index t = ![t.val, 0] :=
  (by decide +kernel : ∀ t : Fin grid1.N, _)

/-- What point `t` writes back is block `t` of the product of the two input arrays as the region finds them. -/
theorem writeback1 (c : Dev nD) (t : Fin cfg1.N) :
    (dat1 V c).flushed 2 t = ((cfg1.win 2).blk t).view.read (Elt F) (prodArr (V c main_v24) (V c main_v26)) := by
  show (cfg1.win 2).cut (grid1.coords t) ((dat1 V c).after 2 t) = _
  rw [after1_2]
  unfold out1_2
  rw [View.canon_unit_zero offsets_zero]
  simp only [View.ld_unit_zero (S := S5000x128) offsets_zero]
  rw [payload1_eq]
  obtain ⟨e0, e1, -⟩ := index1 t
  funext j
  show FloatOps.mulf (V c main_v24 (((cfg1.win 0).blk t).view.emb j)) (V c main_v26 (((cfg1.win 1).blk t).view.emb j))
    = FloatOps.mulf (V c main_v24 (((cfg1.win 2).blk t).view.emb j)) (V c main_v26 (((cfg1.win 2).blk t).view.emb j))
  -- a block's coordinate is its block index times the block extent plus the coordinate inside the block
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; rw [e0]
    | ⟨1, _⟩ => show win1_0.index t (1 : Fin 2) * 128 + 1 * (j 1).val = win1_2.index t (1 : Fin 2) * 128 + 1 * (j 1).val; rw [e0]
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; rw [e1]
    | ⟨1, _⟩ => show win1_1.index t (1 : Fin 2) * 128 + 1 * (j 1).val = win1_2.index t (1 : Fin 2) * 128 + 1 * (j 1).val; rw [e1]
  rw [h0, h1]

/-- An index of the output array is in point `t`'s block iff each coordinate is in the block's range on its axis. -/
theorem mem_block1 (t : Fin cfg1.N) (i : S25000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v27).slice (win1_2.rect t)).set ↔ _
  rw [View.set_slice_whole, Rect.mem_set_unit]
  exact Iff.rfl

/-- The five blocks tile the array: row `r` lies in the block of point `r / 5000`, whose one column block is the whole
    row. -/
theorem cover1 (i : S25000x128.Idx) :
    ∃ t : Fin cfg1.N, (cfg1.win 2).flush t = true ∧ i ∈ ((cfg1.win 2).blk t).view.set := by
  have hi0 : (i 0).val < 25000 := (i 0).isLt
  have hi1 : (i 1).val < 128 := (i 1).isLt
  have hN : (i 0).val / 5000 < cfg1.N := by rw [show cfg1.N = 5 from N_1]; omega
  obtain ⟨-, -, e2⟩ := index1 ⟨(i 0).val / 5000, hN⟩
  have q0 : win1_2.index ⟨(i 0).val / 5000, hN⟩ (0 : Fin 2) = (i 0).val / 5000 := congrFun e2 0
  have q1 : win1_2.index ⟨(i 0).val / 5000, hN⟩ (1 : Fin 2) = 0 := congrFun e2 1
  refine ⟨⟨(i 0).val / 5000, hN⟩, flush1_2 _, ?_⟩
  rw [mem_block1]
  intro a
  match a with
  | ⟨0, _⟩ => show win1_2.index ⟨(i 0).val / 5000, hN⟩ (0 : Fin 2) * 5000 ≤ (i 0).val ∧ (i 0).val < win1_2.index ⟨(i 0).val / 5000, hN⟩ (0 : Fin 2) * 5000 + 5000; omega
  | ⟨1, _⟩ => show win1_2.index ⟨(i 0).val / 5000, hN⟩ (1 : Fin 2) * 128 ≤ (i 1).val ∧ (i 1).val < win1_2.index ⟨(i 0).val / 5000, hN⟩ (1 : Fin 2) * 128 + 128; omega

/-- THE OUTPUT ARRAY AFTER REGION 1 is the elementwise product of its two input arrays as the region finds them. -/
theorem final1 (c : Dev nD) : (dat1 V c).arrAt 2 cfg1.N
    = (fun i => FloatOps.mulf ((V c main_v24 : S25000x128.Idx → Elt F .f32) i) ((V c main_v26 : S25000x128.Idx → Elt F .f32) i)) :=
  (dat1 V c).arrAt_eq_of_cover 2 (prodArr (V c main_v24) (V c main_v26)) (fun t _ => writeback1 V c t) cover1

/-! ## Region 2: the elementwise choice between two arrays by a mask -/

/-- The elementwise choice: where the mask exceeds one half (`0x3F000000` as a 32-bit float), the first array's
    element, elsewhere the second's. -/
abbrev chooseArr (mask a0 a1 : S25000x128.Idx → Elt F .f32) : S25000x128.Idx → Elt F .f32 :=
  fun i => Scalar.select (FloatOps.cmpf .ogt (mask i) (Scalar.ofBits .f32 0x3F000000#32)) (a0 i) (a1 i)

/-- The stored value is the choice between the two loaded blocks by the loaded mask block compared with the constant
    one half spread over the block: a reshape of a block to its own shape changes nothing. -/
theorem payload2_eq (xm x0 x1 : Vec F S5000x128 .f32) :
    k2_pay1 xm x0 x1 = select (cmpf .ogt xm (broadcast S5000x128 (Scalar.ofBits .f32 0x3F000000#32))) x0 x1 := by
  unfold k2_pay1
  rw [shapeCast_self, shapeCast_self, shapeCast_self]

/-- At grid point `t` the output's block index is `(t, 0)`, and the three inputs' block indices equal it (decided
    over the 5 points). -/
theorem index2 : ∀ t : Fin cfg2.N, win2_0.index t = win2_3.index t ∧ win2_1.index t = win2_3.index t
    ∧ win2_2.index t = win2_3.index t ∧ win2_3.index t = ![t.val, 0] :=
  (by decide +kernel : ∀ t : Fin grid2.N, _)

/-- What point `t` writes back is block `t` of the choice between the two input arrays by the mask array, all as
    the region finds them. -/
theorem writeback2 (c : Dev nD) (t : Fin cfg2.N) :
    (dat2 V c).flushed 3 t
      = ((cfg2.win 3).blk t).view.read (Elt F) (chooseArr (V c main_v50) (V c main_v47) (V c main_v48)) := by
  show (cfg2.win 3).cut (grid2.coords t) ((dat2 V c).after 3 t) = _
  rw [after2_3]
  unfold out2_3
  rw [View.canon_unit_zero offsets_zero]
  simp only [View.ld_unit_zero (S := S5000x128) offsets_zero]
  rw [payload2_eq]
  obtain ⟨e0, e1, e2, -⟩ := index2 t
  funext j
  show Scalar.select (FloatOps.cmpf .ogt (V c main_v50 (((cfg2.win 2).blk t).view.emb j)) (Scalar.ofBits .f32 0x3F000000#32))
      (V c main_v47 (((cfg2.win 0).blk t).view.emb j)) (V c main_v48 (((cfg2.win 1).blk t).view.emb j))
    = Scalar.select (FloatOps.cmpf .ogt (V c main_v50 (((cfg2.win 3).blk t).view.emb j)) (Scalar.ofBits .f32 0x3F000000#32))
      (V c main_v47 (((cfg2.win 3).blk t).view.emb j)) (V c main_v48 (((cfg2.win 3).blk t).view.emb j))
  -- a block's coordinate is its block index times the block extent plus the coordinate inside the block
  have h0 : ((cfg2.win 0).blk t).view.emb j = ((cfg2.win 3).blk t).view.emb j := by
    funext a; apply Fin.ext
    match a with
    | ⟨0, _⟩ => show win2_0.index t (0 : Fin 2) * 5000 + 1 * (j 0).val = win2_3.index t (0 : Fin 2) * 5000 + 1 * (j 0).val; rw [e0]
    | ⟨1, _⟩ => show win2_0.index t (1 : Fin 2) * 128 + 1 * (j 1).val = win2_3.index t (1 : Fin 2) * 128 + 1 * (j 1).val; rw [e0]
  have h1 : ((cfg2.win 1).blk t).view.emb j = ((cfg2.win 3).blk t).view.emb j := by
    funext a; apply Fin.ext
    match a with
    | ⟨0, _⟩ => show win2_1.index t (0 : Fin 2) * 5000 + 1 * (j 0).val = win2_3.index t (0 : Fin 2) * 5000 + 1 * (j 0).val; rw [e1]
    | ⟨1, _⟩ => show win2_1.index t (1 : Fin 2) * 128 + 1 * (j 1).val = win2_3.index t (1 : Fin 2) * 128 + 1 * (j 1).val; rw [e1]
  have h2 : ((cfg2.win 2).blk t).view.emb j = ((cfg2.win 3).blk t).view.emb j := by
    funext a; apply Fin.ext
    match a with
    | ⟨0, _⟩ => show win2_2.index t (0 : Fin 2) * 5000 + 1 * (j 0).val = win2_3.index t (0 : Fin 2) * 5000 + 1 * (j 0).val; rw [e2]
    | ⟨1, _⟩ => show win2_2.index t (1 : Fin 2) * 128 + 1 * (j 1).val = win2_3.index t (1 : Fin 2) * 128 + 1 * (j 1).val; rw [e2]
  rw [h0, h1, h2]

/-- An index of the output array is in point `t`'s block iff each coordinate is in the block's range on its axis. -/
theorem mem_block2 (t : Fin cfg2.N) (i : S25000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v51).slice (win2_3.rect t)).set ↔ _
  rw [View.set_slice_whole, Rect.mem_set_unit]
  exact Iff.rfl

/-- The five blocks tile the array: row `r` lies in the block of point `r / 5000`, whose one column block is the whole
    row. -/
theorem cover2 (i : S25000x128.Idx) :
    ∃ t : Fin cfg2.N, (cfg2.win 3).flush t = true ∧ i ∈ ((cfg2.win 3).blk t).view.set := by
  have hi0 : (i 0).val < 25000 := (i 0).isLt
  have hi1 : (i 1).val < 128 := (i 1).isLt
  have hN : (i 0).val / 5000 < cfg2.N := by rw [show cfg2.N = 5 from N_2]; omega
  obtain ⟨-, -, -, e3⟩ := index2 ⟨(i 0).val / 5000, hN⟩
  have q0 : win2_3.index ⟨(i 0).val / 5000, hN⟩ (0 : Fin 2) = (i 0).val / 5000 := congrFun e3 0
  have q1 : win2_3.index ⟨(i 0).val / 5000, hN⟩ (1 : Fin 2) = 0 := congrFun e3 1
  refine ⟨⟨(i 0).val / 5000, hN⟩, flush2_3 _, ?_⟩
  rw [mem_block2]
  intro a
  match a with
  | ⟨0, _⟩ => show win2_3.index ⟨(i 0).val / 5000, hN⟩ (0 : Fin 2) * 5000 ≤ (i 0).val ∧ (i 0).val < win2_3.index ⟨(i 0).val / 5000, hN⟩ (0 : Fin 2) * 5000 + 5000; omega
  | ⟨1, _⟩ => show win2_3.index ⟨(i 0).val / 5000, hN⟩ (1 : Fin 2) * 128 ≤ (i 1).val ∧ (i 1).val < win2_3.index ⟨(i 0).val / 5000, hN⟩ (1 : Fin 2) * 128 + 128; omega

/-- THE OUTPUT ARRAY AFTER REGION 2 is the elementwise choice between its two input arrays by its mask array, all as
    the region finds them. -/
theorem final2 (c : Dev nD) : (dat2 V c).arrAt 3 cfg2.N
    = (fun i => Scalar.select (FloatOps.cmpf .ogt ((V c main_v50 : S25000x128.Idx → Elt F .f32) i) (Scalar.ofBits .f32 0x3F000000#32))
        ((V c main_v47 : S25000x128.Idx → Elt F .f32) i) ((V c main_v48 : S25000x128.Idx → Elt F .f32) i)) :=
  (dat2 V c).arrAt_eq_of_cover 3 (chooseArr (V c main_v50) (V c main_v47) (V c main_v48)) (fun t _ => writeback2 V c t) cover2

end Cert.KernelIdeal.RegionValue

end
-- ==== Proof.Layout.lean ====
/-
  Layout operations of this program read at an index.

  A vector of length `a` is laid out as a column `[a, 1]` (by a `broadcast_in_dim` along axis 0, or by a reshape) and a
  column `[a, 1]` is spread along a second axis to `[a, b]`; a vector is also spread directly to `[a, b]` along axis 0.
  Each reads, at `(p, ·)`, the vector's entry `p`. A reshape of a pointwise product (or of a pointwise select) is
  the product (select) of the reshapes, so a reshape to a packed layout, a pointwise kernel, and the reshape back
  compose to the pointwise operation itself.
-/
import Idealize.ShloMosaic.Lib.Pipeline.Value
import Idealize.ShloMosaic.Lib.ValueIdx
import Idealize.ShloMosaic.Lib.IdealHost

noncomputable section

namespace Cert.Layout

open Idealize.ShloMosaic Idealize.ShloMosaic.ValueIdx

variable {α : Type}

/-- A vector broadcast along axis 0 to a column `[a, 1]` reads, at `(p, u)`, the vector at `p`. -/
theorem bcast_vec_col_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A vector broadcast along axis 0 to `[a, b]` reads, at `(p, c)`, the vector at `p`. -/
theorem bcast_vec_rows_apply {a b : ℕ} (x : (⟨1, ![a]⟩ : Shape).Idx → α)
    (h : (⟨1, ![a]⟩ : Shape).BroadcastsInDim ⟨2, ![a, b]⟩ ![0]) (p : Fin a) (c : Fin b) :
    broadcastInDim ⟨2, ![a, b]⟩ ![0] h x (ix2 p c) = x (ix1 p) := by
  refine broadcastInDim_apply ![0] h x (ix2 p c) (ix1 p) fun ax => ?_
  match ax with
  | ⟨0, _⟩ =>
    show p.val = if a = 1 then 0 else p.val
    split
    · have := p.isLt; omega
    · rfl

/-- A column `[a, 1]` broadcast along axes (0, 1) to `[a, b]` reads, at `(p, c)`, the column at `(p, 0)`. -/
theorem bcast_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A length-`a` vector reshaped to `[a, 1]` reads, at `(p, u)`, the vector at `p`. -/
theorem shapeCast_vec_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A reshape there, a pointwise binary operation, and the reshape back: the operation itself. -/
theorem shapeCast_map₂_shapeCast {β γ : Type} {s t : Shape} (g : α → β → γ) (x : s.Idx → α) (y : s.Idx → β)
    (h : s.ShapeCasts t) (h' : t.ShapeCasts s) :
    shapeCast s (fun j => g (shapeCast t x h j) (shapeCast t y h j)) h' = fun i => g (x i) (y i) := by
  have hx := congrFun (shapeCast_shapeCast x h h')
  have hy := congrFun (shapeCast_shapeCast y h h')
  funext i
  exact congrArg₂ g (hx i) (hy i)

/-- The same for a pointwise ternary operation. -/
theorem shapeCast_map₃_shapeCast {β γ δ : Type} {s t : Shape} (g : α → β → γ → δ) (x : s.Idx → α) (y : s.Idx → β)
    (z : s.Idx → γ) (h : s.ShapeCasts t) (h' : t.ShapeCasts s) :
    shapeCast s (fun j => g (shapeCast t x h j) (shapeCast t y h j) (shapeCast t z h j)) h' = fun i => g (x i) (y i) (z i) := by
  have hx := congrFun (shapeCast_shapeCast x h h')
  have hy := congrFun (shapeCast_shapeCast y h h')
  have hz := congrFun (shapeCast_shapeCast z h h')
  funext i
  show g _ _ _ = _
  rw [show shapeCast t x h (Shape.reshapeEquiv h' i) = x i from hx i,
    show shapeCast t y h (Shape.reshapeEquiv h' i) = y i from hy i,
    show shapeCast t z h (Shape.reshapeEquiv h' i) = z i from hz i]

end Cert.Layout

end
-- ==== Proof.KValue.lean ====
/-
  The kernel program's result buffer as one function of its five arguments.

  Boundary by boundary through @main: the host stretches are the functions of KStretch.lean, each region leaves the
  elementwise product (select) of its packed input arrays, and a reshape to the packed layout followed by the
  reshape back is the identity, so the packing drops out: the first region leaves the feature table scaled by the
  degree coefficient (`scaled`), the second the aggregate scaled by it (`outA`), the third selects between the
  scattered rows and the features by the membership mask (`kOut`).
-/
import proofs.«424469_j541165879956_3_alg».proof.Proof.KStretch0
import proofs.«424469_j541165879956_3_alg».proof.Proof.KStretch1
import proofs.«424469_j541165879956_3_alg».proof.Proof.RegionValue
import proofs.«424469_j541165879956_3_alg».proof.Proof.Layout

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Cert.KernelIdeal.KStretch

/-! ## The kernel program's result as one function of its arguments -/

/-- The feature table scaled by the degree coefficient of its row (what the first region leaves). -/
def scaled (x0 : FVec Ideal S100000x32 .f32) (x1 : IVec S6400000 32) (x3 : FVec Ideal S6400000 .f32) : FVec Ideal S100000x32 .f32 :=
  fun i => FloatOps.mulf (x0 i) (col (dinv x1 x3) i)

/-- The aggregate scaled by the degree coefficient of its row (what the second region leaves). -/
def outA (x0 : FVec Ideal S100000x32 .f32) (x1 x2 : IVec S6400000 32) (x3 : FVec Ideal S6400000 .f32) : FVec Ideal S100000x32 .f32 :=
  fun i => FloatOps.mulf (agg (scaled x0 x1 x3) x1 x2 x3 i) (col (dinv x1 x3) i)

/-- The program's result: where the membership mask exceeds one half the scattered rows, elsewhere the features. -/
def kOut (x0 : FVec Ideal S100000x32 .f32) (x1 x2 : IVec S6400000 32) (x3 : FVec Ideal S6400000 .f32) (x4 : IVec S100000 32) :
    FVec Ideal S100000x32 .f32 :=
  fun i => Scalar.select (FloatOps.cmpf .ogt (col (maskf x4) i) (Scalar.ofBits .f32 0x3F000000#32))
    (scat (outA x0 x1 x2 x3) x4 i) (x0 i)

/-- A packed array times a packed array, element by element. -/
def mulP (a b : FVec Ideal S25000x128 .f32) : FVec Ideal S25000x128 .f32 := fun i => FloatOps.mulf (a i) (b i)

/-- The packed select of the last region. -/
def selP (mk a b : FVec Ideal S25000x128 .f32) : FVec Ideal S25000x128 .f32 :=
  fun i => Scalar.select (FloatOps.cmpf .ogt (mk i) (Scalar.ofBits .f32 0x3F000000#32)) (a i) (b i)

/-- Packing, multiplying and unpacking is multiplying. -/
theorem unpack_mulP (a b : FVec Ideal S100000x32 .f32) :
    shapeCast S100000x32 (mulP (shapeCast S25000x128 a shapeCasts_S100000x32_S25000x128) (shapeCast S25000x128 b shapeCasts_S100000x32_S25000x128))
      shapeCasts_S25000x128_S100000x32 = fun i => FloatOps.mulf (a i) (b i) :=
  Cert.Layout.shapeCast_map₂_shapeCast (fun (p q : EReal) => FloatOps.mulf (F := Ideal) (φ := .f32) p q) a b _ _

/-- Packing, selecting and unpacking is selecting. -/
theorem unpack_selP (mk a b : FVec Ideal S100000x32 .f32) :
    shapeCast S100000x32 (selP (shapeCast S25000x128 mk shapeCasts_S100000x32_S25000x128) (shapeCast S25000x128 a shapeCasts_S100000x32_S25000x128)
        (shapeCast S25000x128 b shapeCasts_S100000x32_S25000x128)) shapeCasts_S25000x128_S100000x32
      = fun i => Scalar.select (FloatOps.cmpf .ogt (mk i) (Scalar.ofBits .f32 0x3F000000#32)) (a i) (b i) :=
  Cert.Layout.shapeCast_map₃_shapeCast
    (fun (p q r : EReal) => Scalar.select (FloatOps.cmpf (F := Ideal) (φ := .f32) .ogt p (Scalar.ofBits .f32 0x3F000000#32)) q r) mk a b _ _

variable (m : (ℓ : Loc nD τ sig) → Buf (Elt Ideal) ℓ) (ρ : Dev nD → PrngReg) (c : Dev nD)

/-- The launch contents of the five arguments. -/
abbrev a0 : FVec Ideal S100000x32 .f32 := m ((c : Thread nD τ).loc main_arg0)
abbrev a1 : IVec S6400000 32 := m ((c : Thread nD τ).loc main_arg1)
abbrev a2 : IVec S6400000 32 := m ((c : Thread nD τ).loc main_arg2)
abbrev a3 : FVec Ideal S6400000 .f32 := m ((c : Thread nD τ).loc main_arg3)
abbrev a4 : IVec S100000 32 := m ((c : Thread nD τ).loc main_arg4)

/-! ## Region 0's entry and exit -/

theorem w5_arg0 : W5 m ρ c (Proc.devRef .tc main_arg0) = a0 m c := (st0_args (W0 m ρ c)).1
theorem w5_arg1 : W5 m ρ c (Proc.devRef .tc main_arg1) = a1 m c := (st0_args (W0 m ρ c)).2.1
theorem w5_arg2 : W5 m ρ c (Proc.devRef .tc main_arg2) = a2 m c := (st0_args (W0 m ρ c)).2.2.1
theorem w5_arg3 : W5 m ρ c (Proc.devRef .tc main_arg3) = a3 m c := (st0_args (W0 m ρ c)).2.2.2.1
theorem w5_arg4 : W5 m ρ c (Proc.devRef .tc main_arg4) = a4 m c := (st0_args (W0 m ρ c)).2.2.2.2

theorem w5_v12 : W5 m ρ c (Proc.devRef .tc main_v12) = shapeCast S25000x128 (a0 m c) shapeCasts_S100000x32_S25000x128 :=
  st0_v12 (W0 m ρ c)

theorem w5_v14 : W5 m ρ c (Proc.devRef .tc main_v14)
    = shapeCast S25000x128 (col (dinv (a1 m c) (a3 m c))) shapeCasts_S100000x32_S25000x128 :=
  Cert.KernelIdeal.KStretch0.st0_v14 (W0 m ρ c)

theorem w5_v11 : W5 m ρ c (Proc.devRef .tc main_v11)
    = shapeCast S100000x1 (dinv (a1 m c) (a3 m c)) shapeCasts_S100000_S100000x1 :=
  Cert.KernelIdeal.KStretch0.st0_v11 (W0 m ρ c)

/-- Region 0 leaves the product of its two packed inputs. -/
theorem w6_v15 : W6 m ρ c (Proc.devRef .tc main_v15)
    = mulP (shapeCast S25000x128 (a0 m c) shapeCasts_S100000x32_S25000x128)
        (shapeCast S25000x128 (col (dinv (a1 m c) (a3 m c))) shapeCasts_S100000x32_S25000x128) :=
  (W6_arr m ρ c 2).trans ((Cert.KernelIdeal.RegionValue.final0 (V5 m ρ) c).trans
    (congrArg₂ mulP (w5_v12 m ρ c) (w5_v14 m ρ c)))

theorem w6_arg0 : W6 m ρ c (Proc.devRef .tc main_arg0) = a0 m c :=
  (W6_of_ne m ρ c main_arg0 (by decide)).trans (w5_arg0 m ρ c)
theorem w6_arg1 : W6 m ρ c (Proc.devRef .tc main_arg1) = a1 m c :=
  (W6_of_ne m ρ c main_arg1 (by decide)).trans (w5_arg1 m ρ c)
theorem w6_arg2 : W6 m ρ c (Proc.devRef .tc main_arg2) = a2 m c :=
  (W6_of_ne m ρ c main_arg2 (by decide)).trans (w5_arg2 m ρ c)
theorem w6_arg3 : W6 m ρ c (Proc.devRef .tc main_arg3) = a3 m c :=
  (W6_of_ne m ρ c main_arg3 (by decide)).trans (w5_arg3 m ρ c)
theorem w6_arg4 : W6 m ρ c (Proc.devRef .tc main_arg4) = a4 m c :=
  (W6_of_ne m ρ c main_arg4 (by decide)).trans (w5_arg4 m ρ c)
theorem w6_v11 : W6 m ρ c (Proc.devRef .tc main_v11)
    = shapeCast S100000x1 (dinv (a1 m c) (a3 m c)) shapeCasts_S100000_S100000x1 :=
  (W6_of_ne m ρ c main_v11 (by decide)).trans (w5_v11 m ρ c)

/-! ## Region 1's entry and exit -/

/-- What the gather reads: region 0's product, unpacked, is the scaled table. -/
theorem unpacked15 : shapeCast S100000x32 (W6 m ρ c (Proc.devRef .tc main_v15)) shapeCasts_S25000x128_S100000x32
    = scaled (a0 m c) (a1 m c) (a3 m c) :=
  (congrArg (fun t : FVec Ideal S25000x128 .f32 => shapeCast S100000x32 t shapeCasts_S25000x128_S100000x32) (w6_v15 m ρ c)).trans
    (unpack_mulP _ _)

theorem w9_v24 : W9 m ρ c (Proc.devRef .tc main_v24)
    = shapeCast S25000x128 (agg (scaled (a0 m c) (a1 m c) (a3 m c)) (a1 m c) (a2 m c) (a3 m c)) shapeCasts_S100000x32_S25000x128 :=
  (Cert.KernelIdeal.KStretch1.st1_v24 (W6 m ρ c)).trans
    (congrArg (fun t : FVec Ideal S100000x32 .f32 => shapeCast S25000x128 t shapeCasts_S100000x32_S25000x128)
      (by rw [unpacked15, w6_arg1, w6_arg2, w6_arg3]))

theorem w9_v26 : W9 m ρ c (Proc.devRef .tc main_v26)
    = shapeCast S25000x128 (col (dinv (a1 m c) (a3 m c))) shapeCasts_S100000x32_S25000x128 :=
  (st1_v26 (W6 m ρ c)).trans
    (congrArg (fun t : FVec Ideal S100000x1 .f32 => shapeCast S25000x128 (spread t) shapeCasts_S100000x32_S25000x128) (w6_v11 m ρ c))

theorem w9_arg0 : W9 m ρ c (Proc.devRef .tc main_arg0) = a0 m c := ((st1_args (W6 m ρ c)).1).trans (w6_arg0 m ρ c)
theorem w9_arg4 : W9 m ρ c (Proc.devRef .tc main_arg4) = a4 m c := ((st1_args (W6 m ρ c)).2).trans (w6_arg4 m ρ c)

/-- Region 1 leaves the product of its two packed inputs. -/
theorem w10_v27 : W10 m ρ c (Proc.devRef .tc main_v27)
    = mulP (shapeCast S25000x128 (agg (scaled (a0 m c) (a1 m c) (a3 m c)) (a1 m c) (a2 m c) (a3 m c)) shapeCasts_S100000x32_S25000x128)
        (shapeCast S25000x128 (col (dinv (a1 m c) (a3 m c))) shapeCasts_S100000x32_S25000x128) :=
  (W10_arr m ρ c 2).trans ((Cert.KernelIdeal.RegionValue.final1 (V9 m ρ) c).trans
    (congrArg₂ mulP (w9_v24 m ρ c) (w9_v26 m ρ c)))

theorem unpacked27 : shapeCast S100000x32 (W10 m ρ c (Proc.devRef .tc main_v27)) shapeCasts_S25000x128_S100000x32
    = outA (a0 m c) (a1 m c) (a2 m c) (a3 m c) :=
  (congrArg (fun t : FVec Ideal S25000x128 .f32 => shapeCast S100000x32 t shapeCasts_S25000x128_S100000x32) (w10_v27 m ρ c)).trans
    (unpack_mulP _ _)

theorem w10_arg0 : W10 m ρ c (Proc.devRef .tc main_arg0) = a0 m c :=
  (W10_of_ne m ρ c main_arg0 (by decide)).trans (w9_arg0 m ρ c)
theorem w10_arg4 : W10 m ρ c (Proc.devRef .tc main_arg4) = a4 m c :=
  (W10_of_ne m ρ c main_arg4 (by decide)).trans (w9_arg4 m ρ c)

/-! ## Region 2 and the return -/

theorem w11_v47 : W11 m ρ c (Proc.devRef .tc main_v47)
    = shapeCast S25000x128 (scat (outA (a0 m c) (a1 m c) (a2 m c) (a3 m c)) (a4 m c)) shapeCasts_S100000x32_S25000x128 :=
  (st2_v47 (W10 m ρ c)).trans
    (congrArg (fun t : FVec Ideal S100000x32 .f32 => shapeCast S25000x128 t shapeCasts_S100000x32_S25000x128)
      (by rw [unpacked27, w10_arg4]))

theorem w11_v48 : W11 m ρ c (Proc.devRef .tc main_v48) = shapeCast S25000x128 (a0 m c) shapeCasts_S100000x32_S25000x128 :=
  (st2_v48 (W10 m ρ c)).trans
    (congrArg (fun t : FVec Ideal S100000x32 .f32 => shapeCast S25000x128 t shapeCasts_S100000x32_S25000x128) (w10_arg0 m ρ c))

theorem w11_v50 : W11 m ρ c (Proc.devRef .tc main_v50)
    = shapeCast S25000x128 (col (maskf (a4 m c))) shapeCasts_S100000x32_S25000x128 :=
  (st2_v50 (W10 m ρ c)).trans
    (congrArg (fun t : IVec S100000 32 => shapeCast S25000x128 (col (maskf t)) shapeCasts_S100000x32_S25000x128) (w10_arg4 m ρ c))

/-- Region 2 leaves the select of its three packed inputs. -/
theorem w12_v51 : W12 m ρ c (Proc.devRef .tc main_v51)
    = selP (shapeCast S25000x128 (col (maskf (a4 m c))) shapeCasts_S100000x32_S25000x128)
        (shapeCast S25000x128 (scat (outA (a0 m c) (a1 m c) (a2 m c) (a3 m c)) (a4 m c)) shapeCasts_S100000x32_S25000x128)
        (shapeCast S25000x128 (a0 m c) shapeCasts_S100000x32_S25000x128) :=
  (W12_arr m ρ c 3).trans ((Cert.KernelIdeal.RegionValue.final2 (V11 m ρ) c).trans
    (by
      show selP (W11 m ρ c (Proc.devRef .tc main_v50)) (W11 m ρ c (Proc.devRef .tc main_v47)) (W11 m ρ c (Proc.devRef .tc main_v48)) = _
      rw [w11_v50, w11_v47, w11_v48]))

/-- THE RESULT BUFFER at the return holds `kOut` of the launch contents of the five arguments. -/
theorem value : W13 m ρ c (Proc.devRef .tc main_v52) = kOut (a0 m c) (a1 m c) (a2 m c) (a3 m c) (a4 m c) :=
  (st3_v52 (W12 m ρ c)).trans
    ((congrArg (fun t : FVec Ideal S25000x128 .f32 => shapeCast S100000x32 t shapeCasts_S25000x128_S100000x32) (w12_v51 m ρ c)).trans
      (unpack_selP _ _ _))

end Cert.KernelIdeal.KValue

end
-- ==== Proof.LibSumScale.lean ====
/-
  A filtered sum of finite extended reals, scaled.

  On the extended reals multiplication does not distribute over addition in general (an infinite factor against
  summands of both signs), but it does when the factor and every summand are real numbers. `sum_ite_mul_real`: for a
  real `s` and terms `a k` that are real wherever the predicate `P` holds, `(z + ∑ₖ [P k] a k) · s = z + ∑ₖ [P k] b k`
  whenever `z = 0` and `b k = a k · s` on `P` — the form in which a scatter-add into zeros, scaled afterwards, meets
  a scatter-add of terms scaled beforehand. `coe_sum` moves the coercion `ℝ → EReal` through a finite sum.
-/
import Mathlib.Data.EReal.Operations
import Mathlib.Algebra.BigOperators.Ring.Finset

open scoped BigOperators

namespace Cert.LibSumScale

/-- The coercion of the reals into the extended reals is additive over a finite sum. -/
theorem coe_sum {ι : Type} (S : Finset ι) (y : ι → ℝ) :
    (∑ k ∈ S, ((y k : ℝ) : EReal)) = ((∑ k ∈ S, y k : ℝ) : EReal) := by
  classical
  induction S using Finset.induction_on with
  | empty => simp
  | insert a S ha ih => rw [Finset.sum_insert ha, Finset.sum_insert ha, ih, EReal.coe_add]

/-- A filtered sum of real terms over zero, times a real, is the filtered sum of the scaled terms over zero. -/
theorem sum_ite_mul_real {K : ℕ} (P : Fin K → Prop) [DecidablePred P] (a b : Fin K → EReal) (s z : EReal)
    (hz : z = 0) (hs : ∃ x : ℝ, s = (x : EReal)) (ha : ∀ k, P k → ∃ x : ℝ, a k = (x : EReal))
    (hab : ∀ k, P k → b k = a k * s) :
    (z + ∑ k, if P k then a k else 0) * s = z + ∑ k, if P k then b k else 0 := by
  subst hz
  obtain ⟨s', rfl⟩ := hs
  rw [zero_add, zero_add]
  have h1 : ∀ k, (if P k then a k else 0) = (((if P k then (a k).toReal else 0 : ℝ)) : EReal) := by
    intro k
    by_cases hp : P k
    · obtain ⟨x, hx⟩ := ha k hp
      rw [if_pos hp, if_pos hp, hx, EReal.toReal_coe]
    · rw [if_neg hp, if_neg hp, EReal.coe_zero]
  have h2 : ∀ k, (if P k then b k else 0) = (((if P k then (a k).toReal else 0 : ℝ) * s' : ℝ) : EReal) := by
    intro k
    by_cases hp : P k
    · obtain ⟨x, hx⟩ := ha k hp
      rw [if_pos hp, if_pos hp, hab k hp, hx, EReal.toReal_coe, EReal.coe_mul]
    · rw [if_neg hp, if_neg hp, zero_mul, EReal.coe_zero]
  rw [Finset.sum_congr rfl (fun k _ => h1 k), Finset.sum_congr rfl (fun k _ => h2 k), coe_sum, coe_sum,
    ← EReal.coe_mul, Finset.sum_mul]

end Cert.LibSumScale
-- ==== Proof.Spec.lean ====
/-
  The mathematics of the two programs, index by index, and why they agree.

  Inputs: a feature table `f` (100000 × 32), an edge list of 6400000 edges with destination rows `r`, source
  columns `c` (32-bit words) and weights `v`. Both programs form the row sums `rowsum n = ∑ₖ [r k = n] v k`, the
  degree coefficient `dinv n = rowsum n ^ (−1/2)` where the row sum is positive and `0` elsewhere, and the
  normalised aggregation `out (n, d) = ∑ₖ [r k = n] dinv n · v k · dinv (c k) · f (c k, d)`.
  The reference multiplies the three coefficients edge by edge (`outR`); the kernel scales the table by `dinv` before
  the gather and the aggregate by `dinv` after the scatter-add (`outK`), which is the same number because
  `dinv n` is constant over the edges that land on row `n` and every factor is a real number: on the extended
  reals a real factor moves through a finite sum of real terms (`outK_eq_outR`).
  An edge's row index is read signed and is dropped by the scatter-add when it is outside `[0, 100000)`; a gather
  index is first wrapped (`z + 100000` when negative: `wrap`) and then clamped into the table (`row`).
-/
import Idealize.ShloMosaic.PureOps.Ideal
import Idealize.ShloMosaic.Lib.ValueIdx
import proofs.«424469_j541165879956_3_alg».proof.Proof.LibSumScale

noncomputable section

open scoped BigOperators

namespace Cert.Spec

open Idealize.ShloMosaic Idealize.ShloMosaic.ValueIdx

abbrev SF : Shape := ⟨2, ![100000, 32]⟩
abbrev SE : Shape := ⟨1, ![6400000]⟩

/-- The float constants the two programs spell, as the extended reals their words denote. -/
def zero : EReal := Ideal.ofBits .f32 0x00000000#32
def one : EReal := Ideal.ofBits .f32 0x3F800000#32
def mhalf : EReal := Ideal.ofBits .f32 0xBF000000#32
def half : EReal := Ideal.ofBits .f32 0x3F000000#32

theorem zero_eq : zero = 0 := by
  unfold zero; simp [Ideal.ofBits, Ideal.ieee]

theorem one_eq : one = ((1 : ℝ) : EReal) := by
  unfold one; simp [Ideal.ofBits, Ideal.ieee, -EReal.coe_mul]; norm_num

theorem mhalf_eq : mhalf = ((-(1 / 2) : ℝ) : EReal) := by
  unfold mhalf; simp [Ideal.ofBits, Ideal.ieee, -EReal.coe_mul]; norm_num

theorem half_eq : half = ((1 / 2 : ℝ) : EReal) := by
  unfold half; simp [Ideal.ofBits, Ideal.ieee, -EReal.coe_mul]; norm_num

variable (f : SF.Idx → EReal) (r c : SE.Idx → BitVec 32) (v : SE.Idx → EReal)

/-- The sum of the weights of the edges whose row index, read signed, is `n`. -/
def rowsum (n : Fin 100000) : EReal :=
  zero + ∑ k : Fin 6400000, if (r (ix1 k)).toInt = (n.val : Int) then v (ix1 k) else 0

/-- The degree coefficient of a row sum `s`: `s ^ (−1/2)` where `s > 0`, else `0` (both selects as the programs spell them). -/
def dscal (s : EReal) : EReal :=
  Scalar.select (Ideal.cmp .ogt s zero) (Ideal.pow (Scalar.select (Ideal.cmp .ogt s zero) s one) mhalf) zero

def dinv (n : Fin 100000) : EReal := dscal (rowsum r v n)

/-- A gather index as numpy reads it: a negative word has the table's length added. -/
def wrap (z : BitVec 32) : BitVec 32 := Scalar.select (IntOp.cmpi .slt z 0#32) (IntOp.addi z 100000#32) z

/-- The table row a gather index selects: wrapped, read signed, clamped into `[0, 99999]`. -/
def row (z : BitVec 32) : Fin 100000 := ⟨min (wrap z).toInt.toNat 99999, by omega⟩

/-- The kernel's aggregation: the table scaled before the gather, the aggregate scaled after the scatter-add. -/
def outK (n : Fin 100000) (d : Fin 32) : EReal :=
  (zero + ∑ k : Fin 6400000, if (r (ix1 k)).toInt = (n.val : Int) then
      (f (ix2 (row (c (ix1 k))) d) * dinv r v (row (c (ix1 k)))) * v (ix1 k) else 0) * dinv r v n

/-- The reference's aggregation: the three coefficients multiplied edge by edge. -/
def outR (n : Fin 100000) (d : Fin 32) : EReal :=
  zero + ∑ k : Fin 6400000, if (r (ix1 k)).toInt = (n.val : Int) then
      ((dinv r v (row (r (ix1 k))) * v (ix1 k)) * dinv r v (row (c (ix1 k)))) * f (ix2 (row (c (ix1 k))) d) else 0

variable {f r c v}

/-- A row sum of real weights is a real number. -/
theorem rowsum_real (hv : ∀ e, ∃ x : ℝ, v e = (x : EReal)) (n : Fin 100000) : ∃ x : ℝ, rowsum r v n = (x : EReal) := by
  unfold rowsum
  rw [zero_eq, zero_add]
  have h : ∀ k : Fin 6400000, (if (r (ix1 k)).toInt = (n.val : Int) then v (ix1 k) else 0)
      = (((if (r (ix1 k)).toInt = (n.val : Int) then (v (ix1 k)).toReal else 0 : ℝ)) : EReal) := by
    intro k
    split
    · obtain ⟨x, hx⟩ := hv (ix1 k); rw [hx, EReal.toReal_coe]
    · rw [EReal.coe_zero]
  rw [Finset.sum_congr rfl (fun k _ => h k), Cert.LibSumScale.coe_sum]
  exact ⟨_, rfl⟩

/-- The degree coefficient of a real row sum is a real number. -/
theorem dscal_real (s : ℝ) : ∃ x : ℝ, dscal (s : EReal) = (x : EReal) := by
  unfold dscal Scalar.select
  split
  · rw [mhalf_eq]
    exact ⟨Real.rpow s (-(1 / 2)), rfl⟩
  · exact ⟨0, by rw [zero_eq, EReal.coe_zero]⟩

theorem dinv_real (hv : ∀ e, ∃ x : ℝ, v e = (x : EReal)) (n : Fin 100000) : ∃ x : ℝ, dinv r v n = (x : EReal) := by
  obtain ⟨s, hs⟩ := rowsum_real (r := r) hv n
  unfold dinv; rw [hs]; exact dscal_real s

/-- A gather index that is a row number (read signed, in range) selects that row. -/
theorem row_of_toInt (z : BitVec 32) (n : Fin 100000) (h : z.toInt = (n.val : Int)) : row z = n := by
  have hn : n.val < 100000 := n.isLt
  have hw : wrap z = z := by
    have h0 : ¬ z.toInt < 0 := by rw [h]; omega
    unfold wrap Scalar.select IntOp.cmpi
    simp [BitVec.slt, h0]
  refine Fin.ext ?_
  show min (wrap z).toInt.toNat 99999 = n.val
  rw [hw, h]
  omega

/-- THE TWO AGGREGATIONS AGREE for real features and weights. -/
theorem outK_eq_outR (hf : ∀ i, ∃ x : ℝ, f i = (x : EReal)) (hv : ∀ e, ∃ x : ℝ, v e = (x : EReal))
    (n : Fin 100000) (d : Fin 32) : outK f r c v n d = outR f r c v n d := by
  unfold outK outR
  refine Cert.LibSumScale.sum_ite_mul_real (fun k : Fin 6400000 => (r (ix1 k)).toInt = (n.val : Int)) _ _ _ _ zero_eq
    (dinv_real hv n) (fun k _ => ?_) (fun k hk => ?_)
  · obtain ⟨x, hx⟩ := hf (ix2 (row (c (ix1 k))) d)
    obtain ⟨y, hy⟩ := dinv_real (r := r) hv (row (c (ix1 k)))
    obtain ⟨z, hz⟩ := hv (ix1 k)
    exact ⟨x * y * z, by rw [hx, hy, hz, EReal.coe_mul, EReal.coe_mul]⟩
  · rw [row_of_toInt _ n hk]
    generalize dinv r v n = s
    generalize dinv r v (row (c (ix1 k))) = q
    generalize v (ix1 k) = w
    generalize f (ix2 (row (c (ix1 k))) d) = x
    rw [mul_comm (s * w * q) x, mul_comm s w, mul_assoc w s q, mul_comm s q, ← mul_assoc w q s, ← mul_assoc x (w * q) s,
      mul_comm w q, ← mul_assoc x q w]

end Cert.Spec

end
-- ==== Proof.LibScatterRows.lean ====
/-
  Scatter-adds along the FIRST axis of the operand, and a gather of single elements of a vector, read at an index.

  ROWS. What `operand.at[idx].add(updates)` (a segment sum) lowers to for an operand `[N, C]`, a vector of `K` row indices
  and updates `[K, C]`: `stablehlo.scatter` with an `add` body and the dimension numbers update_window_dims `[1]`,
  inserted_window_dims `[0]`, scatter_dims_to_operand_dims `[0]`, index_vector_dim `1` over the indices as `[K, 1]`.
  Update element `(k, c)` lands at operand element `(idx[k, 0], c)`, the index read as a SIGNED integer and not
  clamped: an update whose row index is outside `[0, N)` is dropped. So the result at `(n, c)` is the operand there
  plus the sum of the updates `(k, c)` over the `k` whose index is `n` (`scatterAdd_rows_apply`).

  VECTOR. The same for an operand `[N]` and updates `[K]` (no window axis: update_window_dims `[]`): the result at
  `n` is the operand there plus the sum of the updates `k` whose index is `n` (`scatterAdd_vec_apply`).

  GATHER. `table[ids]` over a vector table `[N]` at start indices `[R, 1]`: the one operand axis is collapsed and
  start-indexed, there is no offset axis, and result element `r` is the table's at `idx[r, 0]` read as a signed
  integer and CLAMPED into `[0, N − 1]` (`gather_vec`).

  All three are stated for an ARBITRARY record of dimension numbers whose lists are the ones above (each hypothesis
  holds by `rfl` on a written record), every extent a variable. `rowsDims` / `vecDims` are the two scatter records
  with their conditions as a variable; `start_*` / `window_*` compute the window's start and the window coordinate
  on the operand's axes; `resultIdx?_rows` / `resultIdx?_vec` say where an update lands.
-/
import Idealize.ShloMosaic.Lib.ValueIdx

noncomputable section

open scoped BigOperators

namespace Cert.LibScatterRows

open Idealize.ShloMosaic Idealize.ShloMosaic.ValueIdx

/-! ## The row scatter-add -/

/-- The dimension numbers of a row scatter for an operand `[N, C]`, scatter indices `[K, 1]` and updates `[K, C]`,
    over any evidence `wf` of their conditions. -/
abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows

variable {N C K w : Nat} (wf : ScatterDims.WF ⟨2, ![N, C]⟩ ⟨2, ![K, 1]⟩ ⟨2, ![K, C]⟩ [1] [0] [0] 1)

/-- On the row axis the window of update `(k, e)` starts at the `k`-th scatter index, read signed. -/
theorem start_row (idx : IVec ⟨2, ![K, 1]⟩ w) (k : Fin K) (e : Fin C) :
    (rowsDims N C K wf).start (ix2 k e) idx 0 = (idx (ix2 k ⟨0, Nat.one_pos⟩)).toInt := by
  unfold ScatterDims.start
  rw [dif_pos (show (0 : Fin 2) ∈ (rowsDims N C K wf).scatterDimsToOperandDims from List.mem_singleton.mpr rfl)]
  congr 2
  funext b; refine Fin.ext ?_
  match b with
  | ⟨0, _⟩ => rfl
  | ⟨1, _⟩ => rfl

/-- The column axis is not a scattered axis: the window starts at column 0. -/
theorem start_col (idx : IVec ⟨2, ![K, 1]⟩ w) (j : (⟨2, ![K, C]⟩ : Shape).Idx) :
    (rowsDims N C K wf).start j idx 1 = 0 := by
  unfold ScatterDims.start
  rw [dif_neg (show ¬ (1 : Fin 2) ∈ ([0] : List (Fin 2)) from by decide)]

/-- The row axis is inserted: its window coordinate is 0. -/
theorem window_row (j : (⟨2, ![K, C]⟩ : Shape).Idx) : (rowsDims N C K wf).window j 0 = 0 := by
  unfold ScatterDims.window
  have h : ¬ (0 : Fin 2) ∈ (rowsDims N C K wf).sKept := by
    show ¬ (0 : Fin 2) ∈ (List.finRange 2).filter (· ∉ ([0] : List (Fin 2)))
    decide
  rw [dif_neg h]

/-- The column axis is the updates' one window axis: the window coordinate of update `(k, e)` is `e`. -/
theorem window_col (k : Fin K) (e : Fin C) : (rowsDims N C K wf).window (ix2 k e) 1 = e.val := by
  unfold ScatterDims.window
  have h : (1 : Fin 2) ∈ (rowsDims N C K wf).sKept := by
    show (1 : Fin 2) ∈ (List.finRange 2).filter (· ∉ ([0] : List (Fin 2)))
    decide
  rw [dif_pos h]
  rfl

/-- WHERE AN UPDATE LANDS: update `(k, e)` lands at `(n, c)` exactly when the `k`-th scatter index, read signed, is
    `n` and `e = c`. -/
theorem resultIdx?_rows (idx : IVec ⟨2, ![K, 1]⟩ w) (k : Fin K) (e : Fin C) (n : Fin N) (c : Fin C) :
    (rowsDims N C K wf).resultIdx? (ix2 k e) idx = some (ix2 n c) ↔
      (idx (ix2 k ⟨0, Nat.one_pos⟩)).toInt = (n.val : Int) ∧ e = c := by
  have he : e.val < C := e.isLt
  have hn : n.val < N := n.isLt
  unfold ScatterDims.resultIdx?
  constructor
  · intro h
    split at h
    · rename_i hh
      have hf := Option.some.inj h
      have h0 := congrArg Fin.val (congrFun hf 0)
      have h1 := congrArg Fin.val (congrFun hf 1)
      have hh0 := (hh 0).1
      simp only [start_row, start_col, window_row, window_col] at h0 h1 hh0
      refine ⟨?_, Fin.ext ?_⟩
      · change ((idx (ix2 k ⟨0, Nat.one_pos⟩)).toInt + ((0 : Nat) : Int)).toNat = n.val at h0
        omega
      · change (0 + (e.val : Int)).toNat = c.val at h1
        omega
    · exact absurd h (by simp)
  · rintro ⟨hi, rfl⟩
    have hall : ∀ a : Fin 2, 0 ≤ (rowsDims N C K wf).start (ix2 k e) idx a + ((rowsDims N C K wf).window (ix2 k e) a : Int) ∧
        (rowsDims N C K wf).start (ix2 k e) idx a + ((rowsDims N C K wf).window (ix2 k e) a : Int)
          < ((⟨2, ![N, C]⟩ : Shape).size a : Int) := by
      intro a
      match a with
      | ⟨0, _⟩ =>
        rw [show (⟨0, by omega⟩ : Fin 2) = 0 from rfl, start_row, window_row, hi]
        change 0 ≤ (n.val : Int) + ((0 : Nat) : Int) ∧ (n.val : Int) + ((0 : Nat) : Int) < (N : Int)
        omega
      | ⟨1, _⟩ =>
        rw [show (⟨1, by omega⟩ : Fin 2) = 1 from rfl, start_col, window_col]
        change 0 ≤ 0 + (e.val : Int) ∧ 0 + (e.val : Int) < (C : Int)
        omega
    rw [dif_pos hall]
    congr 1
    funext a; refine Fin.ext ?_
    match a with
    | ⟨0, _⟩ =>
      show ((rowsDims N C K wf).start (ix2 k e) idx 0 + ((rowsDims N C K wf).window (ix2 k e) 0 : Int)).toNat = n.val
      rw [start_row, window_row, hi]; omega
    | ⟨1, _⟩ =>
      show ((rowsDims N C K wf).start (ix2 k e) idx 1 + ((rowsDims N C K wf).window (ix2 k e) 1 : Int)).toNat = e.val
      rw [start_col, window_col]; omega

/-- The row scatter-add over the written record, read at `(n, c)`. -/
theorem scatterAdd_rowsDims_apply (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd (rowsDims N C K wf) x idx upd (ix2 n c) =
      x (ix2 n c) + ∑ k : Fin K, if (idx (ix2 k ⟨0, Nat.one_pos⟩)).toInt = (n.val : Int) then upd (ix2 k c) else 0 := by
  unfold Ideal.hostScatterAdd
  congr 1
  rw [Finset.sum_filter, sum_idx2]
  refine Finset.sum_congr rfl fun k _ => ?_
  -- of the updates of row `k` only the one in column `c` can land in column `c`
  rw [Finset.sum_eq_single c]
  · by_cases h : (idx (ix2 k ⟨0, Nat.one_pos⟩)).toInt = (n.val : Int)
    · rw [if_pos h, if_pos ((resultIdx?_rows wf idx k c n c).mpr ⟨h, rfl⟩)]
    · rw [if_neg h, if_neg (fun h' => h ((resultIdx?_rows wf idx k c n c).mp h').1)]
  · intro e _ hec
    rw [if_neg (fun h' => hec ((resultIdx?_rows wf idx k e n c).mp h').2)]
  · intro h; exact absurd (Finset.mem_univ c) h

end Rows

/-- THE ROW SCATTER-ADD READ AT `(n, c)`: the operand there plus the updates of column `c` whose scatter index is `n`. -/
theorem scatterAdd_rows_apply {N C K w : Nat}
    (d : ScatterDims ⟨2, ![N, C]⟩ ⟨2, ![K, 1]⟩ ⟨2, ![K, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd d x idx upd (ix2 n c) =
      x (ix2 n c) + ∑ k : Fin K, if (idx (ix2 k ⟨0, Nat.one_pos⟩)).toInt = (n.val : Int) then upd (ix2 k c) else 0 := by
  obtain ⟨uw, iw, sd, iv, wf⟩ := d
  dsimp only at huw hiw hsd hiv
  subst huw hiw hsd hiv
  exact scatterAdd_rowsDims_apply wf x idx upd n c

/-! ## The vector scatter-add -/

/-- The dimension numbers of a scatter into a vector: operand `[N]`, scatter indices `[K, 1]`, updates `[K]`, over any
    evidence `wf` of their conditions. -/
abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N K w : Nat} (wf : ScatterDims.WF ⟨1, ![N]⟩ ⟨2, ![K, 1]⟩ ⟨1, ![K]⟩ [] [0] [0] 1)

/-- The window of update `k` starts at the `k`-th scatter index, read signed. -/
theorem start_vec (idx : IVec ⟨2, ![K, 1]⟩ w) (k : Fin K) :
    (vecDims N K wf).start (ix1 k) idx 0 = (idx (ix2 k ⟨0, Nat.one_pos⟩)).toInt := by
  unfold ScatterDims.start
  rw [dif_pos (show (0 : Fin 1) ∈ (vecDims N K wf).scatterDimsToOperandDims from List.mem_singleton.mpr rfl)]
  congr 2
  funext b; refine Fin.ext ?_
  match b with
  | ⟨0, _⟩ => rfl
  | ⟨1, _⟩ => rfl

/-- The operand's one axis is inserted: its window coordinate is 0. -/
theorem window_vec (j : (⟨1, ![K]⟩ : Shape).Idx) : (vecDims N K wf).window j 0 = 0 := by
  unfold ScatterDims.window
  have h : ¬ (0 : Fin 1) ∈ (vecDims N K wf).sKept := by
    show ¬ (0 : Fin 1) ∈ (List.finRange 1).filter (· ∉ ([0] : List (Fin 1)))
    decide
  rw [dif_neg h]

/-- WHERE AN UPDATE LANDS: update `k` lands at `n` exactly when the `k`-th scatter index, read signed, is `n`. -/
theorem resultIdx?_vec (idx : IVec ⟨2, ![K, 1]⟩ w) (k : Fin K) (n : Fin N) :
    (vecDims N K wf).resultIdx? (ix1 k) idx = some (ix1 n) ↔
      (idx (ix2 k ⟨0, Nat.one_pos⟩)).toInt = (n.val : Int) := by
  have hn : n.val < N := n.isLt
  unfold ScatterDims.resultIdx?
  constructor
  · intro h
    split at h
    · have hf := Option.some.inj h
      have h0 := congrArg Fin.val (congrFun hf 0)
      simp only [start_vec, window_vec] at h0
      change ((idx (ix2 k ⟨0, Nat.one_pos⟩)).toInt + ((0 : Nat) : Int)).toNat = n.val at h0
      rename_i hh
      have hh0 := (hh 0).1
      simp only [start_vec, window_vec] at hh0
      omega
    · exact absurd h (by simp)
  · intro hi
    have hall : ∀ a : Fin 1, 0 ≤ (vecDims N K wf).start (ix1 k) idx a + ((vecDims N K wf).window (ix1 k) a : Int) ∧
        (vecDims N K wf).start (ix1 k) idx a + ((vecDims N K wf).window (ix1 k) a : Int)
          < ((⟨1, ![N]⟩ : Shape).size a : Int) := by
      intro a
      match a with
      | ⟨0, _⟩ =>
        rw [show (⟨0, by omega⟩ : Fin 1) = 0 from rfl, start_vec, window_vec, hi]
        change 0 ≤ (n.val : Int) + ((0 : Nat) : Int) ∧ (n.val : Int) + ((0 : Nat) : Int) < (N : Int)
        omega
    rw [dif_pos hall]
    congr 1
    funext a; refine Fin.ext ?_
    match a with
    | ⟨0, _⟩ =>
      show ((vecDims N K wf).start (ix1 k) idx 0 + ((vecDims N K wf).window (ix1 k) 0 : Int)).toNat = n.val
      rw [start_vec, window_vec, hi]; omega

/-- The vector scatter-add over the written record, read at `n`. -/
theorem scatterAdd_vecDims_apply (x : (⟨1, ![N]⟩ : Shape).Idx → EReal) (idx : IVec ⟨2, ![K, 1]⟩ w)
    (upd : (⟨1, ![K]⟩ : Shape).Idx → EReal) (n : Fin N) :
    Ideal.hostScatterAdd (vecDims N K wf) x idx upd (ix1 n) =
      x (ix1 n) + ∑ k : Fin K, if (idx (ix2 k ⟨0, Nat.one_pos⟩)).toInt = (n.val : Int) then upd (ix1 k) else 0 := by
  unfold Ideal.hostScatterAdd
  congr 1
  rw [Finset.sum_filter, sum_idx1]
  refine Finset.sum_congr rfl fun k _ => ?_
  by_cases h : (idx (ix2 k ⟨0, Nat.one_pos⟩)).toInt = (n.val : Int)
  · rw [if_pos h, if_pos ((resultIdx?_vec wf idx k n).mpr h)]
  · rw [if_neg h, if_neg (fun h' => h ((resultIdx?_vec wf idx k n).mp h'))]

end Vec

/-- THE VECTOR SCATTER-ADD READ AT `n`: the operand there plus the updates whose scatter index is `n`. -/
theorem scatterAdd_vec_apply {N K w : Nat}
    (d : ScatterDims ⟨1, ![N]⟩ ⟨2, ![K, 1]⟩ ⟨1, ![K]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![K, 1]⟩ w)
    (upd : (⟨1, ![K]⟩ : Shape).Idx → EReal) (n : Fin N) :
    Ideal.hostScatterAdd d x idx upd (ix1 n) =
      x (ix1 n) + ∑ k : Fin K, if (idx (ix2 k ⟨0, Nat.one_pos⟩)).toInt = (n.val : Int) then upd (ix1 k) else 0 := by
  obtain ⟨uw, iw, sd, iv, wf⟩ := d
  dsimp only at huw hiw hsd hiv
  subst huw hiw hsd hiv
  exact scatterAdd_vecDims_apply wf x idx upd n

/-! ## The gather of single elements of a vector -/

/-- The element of a table of `N` entries a start index selects: the index as a signed integer, clamped into
    `[0, N − 1]`. -/
def clampVec (N : Nat) (hN : 0 < N) {w : Nat} (v : BitVec w) : Fin N := ⟨min v.toInt.toNat (N - 1), by omega⟩

theorem clampVec_val (N : Nat) (hN : 0 < N) {w : Nat} (v : BitVec w) :
    (clampVec N hN v).val = min v.toInt.toNat (N - 1) := rfl

/-- Start indices `[R, 1]`, result `[R]`: element `b` is the table's at the entry `idx[b, 0]` selects. -/
theorem gather_vec {α : Type} {N R w : Nat} (hN : 0 < N)
    (d : GatherDims ⟨1, ![N]⟩ ⟨2, ![R, 1]⟩ ⟨1, ![R]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![R, 1]⟩ w) (b : Fin R) :
    Host.gather d x idx (ix1 b) = x (ix1 (clampVec N hN (idx (ix2 b ⟨0, Nat.one_pos⟩)))) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the one operand axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b ⟨0, Nat.one_pos⟩)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl

end Cert.LibScatterRows

end
-- ==== Proof.LibGatherRow.lean ====
import Idealize.ShloMosaic.Lib.ValueIdx

/-!
  A gather of whole rows of a table, read at an index.

  `table[ids]` over a table `[N, C]` prints as a gather whose one collapsed and start-indexed operand axis is the row
  axis (collapsed_slice_dims `[0]`, start_index_map `[0]`, slice_sizes `[1, C]`), whose one offset axis is the result's
  last and whose index vector lies on the start indices' last axis, of extent one. Result element `(…, c)` is the
  table's at `(row, c)`, `row` the start index read as a signed integer and clamped into `[0, N − 1]`: a negative
  index reads row 0, one past the end reads the last row. Stated for an arbitrary record of dimension numbers whose
  lists are the ones above (each hypothesis holds by `rfl` on a written record), at start indices `[R, K, 1]`
  (`gather_row3`) and `[R, 1]` (`gather_row2`), every extent a variable.
-/

namespace Cert.LibGatherRow

open Idealize.ShloMosaic Idealize.ShloMosaic.ValueIdx

variable {α : Type}

/-- The row of a table of `N` rows a start index selects: the index as a signed integer, clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) :
    (clampRow N hN v).val = min v.toInt.toNat (N - 1) := rfl

/-- Start indices `[R, K, 1]`, result `[R, K, C]`: element `(b, k, e)` is the table's at the row `idx[b, k, 0]` selects, column `e`. -/
theorem gather_row3 {N C R K w : Nat} (hN : 0 < N)
    (d : GatherDims ⟨2, ![N, C]⟩ ⟨3, ![R, K, 1]⟩ ⟨3, ![R, K, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![R, K, 1]⟩ w) (b : Fin R) (k : Fin K) (e : Fin C) :
    Host.gather d x idx (ix3 b k e) = x (ix2 (clampRow N hN (idx (ix3 b k 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix3 b k 0)).toInt.toNat (N - 1)
    rw [hsl]
    -- the start index is read at the result's two batch coordinates, component 0
    refine congrArg (fun v => min (idx v).toInt.toNat (N - 1)) ?_
    funext q
    refine Fin.ext ?_
    match q with
    | ⟨0, _⟩ => rfl
    | ⟨1, _⟩ => rfl
    | ⟨2, _⟩ => rfl
  | ⟨1, _⟩ =>
    -- the column axis: neither collapsed nor start-indexed, so the coordinate is the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

/-- Start indices `[R, 1]`, result `[R, C]`: element `(b, e)` is the table's at the row `idx[b, 0]` selects, column `e`. -/
theorem gather_row2 {N C R w : Nat} (hN : 0 < N)
    (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (b : Fin R) (e : Fin C) :
    Host.gather d x idx (ix2 b e) = x (ix2 (clampRow N hN (idx (ix2 b 0))) e) := by
  have hsl : d.sliceSizes 0 = 1 := d.slice_collapsed 0 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  refine Fin.ext ?_
  match a with
  | ⟨0, _⟩ =>
    -- the row axis: the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = min (idx (ix2 b 0)).toInt.toNat (N - 1)
    rw [hsl]
    -- the start index is read at the result's one batch coordinate, component 0
    refine congrArg (fun v => min (idx v).toInt.toNat (N - 1)) ?_
    funext q
    refine Fin.ext ?_
    match q with
    | ⟨0, _⟩ => rfl
    | ⟨1, _⟩ => rfl
  | ⟨1, _⟩ =>
    -- the column axis: the result's offset coordinate
    show GatherDims.start _ _ idx 1 + GatherDims.batchCoord _ _ 1 + GatherDims.offCoord _ _ 1 = e.val
    rw [GatherDims.batchCoord_eq_zero _ _ _ List.not_mem_nil]
    unfold GatherDims.start GatherDims.offCoord
    rw [dif_neg (by simp), dif_pos (by simp [GatherDims.sKept, Shape.kept])]
    rw [Nat.add_zero, Nat.zero_add]
    rfl

end Cert.LibGatherRow
-- ==== Proof.LibAllOnes.lean ====
/-
  Two readings a fill-mode `take` needs that the library states only one way round.

  * An `and`-reduction started at 1 over an array of `i1` words that are all 1 is 1 at every result index
    (`reduce_andi_of_all`): the converse of the library's reading of `jnp.all`, by the same fold.
  * A length-`m` vector laid along the second axis of an [n × m] rectangle in ONE broadcast (dimension map `[1]`)
    reads, at (p, q), the vector at `q` (`bcast_axis1`).
-/
import Idealize.ShloMosaic.Lib.ReduceAll
import Idealize.ShloMosaic.Lib.StableHlo.Predicate

noncomputable section

namespace Cert.LibAllOnes

open Idealize.ShloMosaic Idealize.ShloMosaic.StableHlo.Predicate

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi 1#1 1#1 = 1#1 := by decide
    rw [List.foldl_cons, ha, h11]
    exact foldl_andi_one f l (fun n hn => h n (List.mem_cons_of_mem _ hn))

/-- An `and`-reduction from 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- A vector laid along the second axis of an [n × m] rectangle by one broadcast reads, at (p, q), the vector at `q`. -/
theorem bcast_axis1 {α : Type} {n m : Nat} (h : (⟨1, ![m]⟩ : Shape).BroadcastsInDim ⟨2, ![n, m]⟩ ![1])
    (v : (⟨1, ![m]⟩ : Shape).Idx → α) (p : Fin n) (q : Fin m) :
    broadcastInDim ⟨2, ![n, m]⟩ ![1] h v (ij p q) = v (Shape.Idx.ofFin q) := by
  simp only [broadcastInDim]
  congr 1
  funext a
  have ha : a = 0 := Subsingleton.elim _ _
  subst ha
  apply Fin.ext
  have hq := q.isLt
  split
  · next h1 => change m = 1 at h1; show (0 : Nat) = q.val; omega
  · rfl

end Cert.LibAllOnes

end
-- ==== Proof.KAt.lean ====
/-
  The kernel program's stretch functions read at an index, against the index-level specification.

  `col` of a vector reads the vector at the row; `rowsum` and `dinv` are the specification's; the fill-mode row
  gather `take` reads the table at the wrapped and clamped row wherever the wrapped index is inside the table — which
  is everywhere once every column index `c` satisfies `−100000 ≤ c < 100000` —, so the scaled aggregate `outA` is
  the specification's `outK`.
-/
import proofs.«424469_j541165879956_3_alg».proof.Proof.KStretch
import proofs.«424469_j541165879956_3_alg».proof.Proof.Spec
import proofs.«424469_j541165879956_3_alg».proof.Proof.Layout
import proofs.«424469_j541165879956_3_alg».proof.Proof.LibScatterRows
import proofs.«424469_j541165879956_3_alg».proof.Proof.LibGatherRow
import proofs.«424469_j541165879956_3_alg».proof.Proof.LibAllOnes

noncomputable section

open scoped BigOperators

namespace Cert.KernelIdeal.KAt

open Cert.KernelIdeal Cert.KernelIdeal.Gen Idealize.ShloMosaic Idealize.ShloMosaic.ValueIdx Cert.KernelIdeal.KStretch

/-- A vector laid along the rows reads, at `(n, d)`, the vector at `n`. -/
theorem col_at (dv : FVec Ideal S100000 .f32) (n : Fin 100000) (d : Fin 32) : col dv (ix2 n d) = dv (ix1 n) :=
  (Cert.Layout.bcast_col_apply _ bcast_S100000x1_S100000x32_0_1 n d).trans
    (Cert.Layout.shapeCast_vec_col_apply dv shapeCasts_S100000_S100000x1 n 0)

theorem zerosN_at (i : S100000.Idx) : zerosN i = Cert.Spec.zero :=
  broadcastInDim_scalar_apply bcast_S_S100000 _ i

/-- At the extended reals the host's accumulating scatter is the exact sum (the instance's field, by definition; stated
    over abstract shapes so that nothing of a program's extents is unfolded). -/
theorem scatterAdd_ideal {s si su : Shape} {w : Nat} {φ : FTy} (d : ScatterDims s si su) (x : FVec Ideal s φ) (idx : IVec si w)
    (upd : FVec Ideal su φ) : Host.scatterAdd d x idx upd = Ideal.hostScatterAdd d x idx upd := rfl

/-- The row sums are the specification's. -/
theorem rowsum_at (x1 : IVec S6400000 32) (x3 : FVec Ideal S6400000 .f32) (n : Fin 100000) :
    rowsum x1 x3 (ix1 n) = Cert.Spec.rowsum x1 x3 n := by
  unfold rowsum Cert.Spec.rowsum
  rw [scatterAdd_ideal, Cert.LibScatterRows.scatterAdd_vec_apply _ rfl rfl rfl rfl, zerosN_at]
  refine congrArg (fun t => Cert.Spec.zero + t) ?_
  refine Finset.sum_congr rfl fun k _ => ?_
  rw [Cert.Layout.bcast_vec_col_apply x1 bcast_S6400000_S6400000x1_0 k ⟨0, Nat.one_pos⟩]

/-- The host's power at an index is the scalar power of the entries (by definition; abstract shapes). -/
theorem powf_apply {s : Shape} {φ : FTy} (x y : FVec Ideal s φ) (i : s.Idx) :
    Host.powf x y i = Ideal.pow (x i) (y i) := rfl

/-- The degree coefficient is the specification's. -/
theorem dinv_at (x1 : IVec S6400000 32) (x3 : FVec Ideal S6400000 .f32) (n : Fin 100000) :
    dinv x1 x3 (ix1 n) = Cert.Spec.dinv x1 x3 n := by
  have hone : (broadcastInDim S100000 ![] bcast_S_S100000 (constant (F := Ideal) S_ .f32 0x3F800000#32) : FVec Ideal S100000 .f32) (ix1 n)
      = Cert.Spec.one := broadcastInDim_scalar_apply bcast_S_S100000 _ _
  have hmh : (broadcastInDim S100000 ![] bcast_S_S100000 (constant (F := Ideal) S_ .f32 0xBF000000#32) : FVec Ideal S100000 .f32) (ix1 n)
      = Cert.Spec.mhalf := broadcastInDim_scalar_apply bcast_S_S100000 _ _
  unfold dinv dcoef Cert.Spec.dinv Cert.Spec.dscal
  rw [select_apply, cmpf_apply, powf_apply, select_apply, cmpf_apply, zerosN_at, rowsum_at, hone, hmh]
  generalize Cert.Spec.rowsum x1 x3 n = s
  rfl

/-- A wrapped column index in `[−100000, 100000)` is inside the table. -/
theorem wrap_inb (z : BitVec 32) (h1 : (-100000 : Int) ≤ z.toInt) (h2 : z.toInt < 100000) :
    IntOp.cmpi .sge (Cert.Spec.wrap z) 0#32 = 1#1 ∧ IntOp.cmpi .sle (Cert.Spec.wrap z) 99999#32 = 1#1 := by
  have e0 : (0#32 : BitVec 32).toInt = 0 := by decide
  have e1 : (100000#32 : BitVec 32).toInt = 100000 := by decide
  have e2 : (99999#32 : BitVec 32).toInt = 99999 := by decide
  have hw : 0 ≤ (Cert.Spec.wrap z).toInt ∧ (Cert.Spec.wrap z).toInt ≤ 99999 := by
    unfold Cert.Spec.wrap Scalar.select IntOp.cmpi IntOp.addi
    by_cases hz : z.toInt < 0
    · have hs : z.slt 0#32 = true := by rw [BitVec.slt_eq_decide, e0]; exact decide_eq_true hz
      simp only [hs, BitVec.ofBool_true, if_true]
      rw [BitVec.toInt_add, e1, Int.bmod_eq_of_le_mul_two (by omega) (by omega)]
      omega
    · have hs : z.slt 0#32 = false := by rw [BitVec.slt_eq_decide, e0]; exact decide_eq_false hz
      simp only [hs, BitVec.ofBool_false]
      rw [if_neg (by decide)]
      omega
  unfold IntOp.cmpi
  simp only [BitVec.sle_eq_decide, e0, e2]
  exact ⟨by rw [decide_eq_true hw.1]; rfl, by rw [decide_eq_true hw.2]; rfl⟩

variable (x0 : FVec Ideal S100000x32 .f32) (x1 x2 : IVec S6400000 32) (x3 : FVec Ideal S6400000 .f32)

/-- The wrapped index column reads, at `(k, 0)`, the wrapped `k`-th column index. -/
theorem wrapIdx_at (k : Fin 6400000) (u : Fin 1) : wrapIdx x2 (ix2 k u) = Cert.Spec.wrap (x2 (ix1 k)) := by
  unfold wrapIdx
  rw [Cert.Layout.bcast_vec_col_apply _ bcast_S6400000_S6400000x1_0 k u]
  rfl

/-- With every column index in range, every wrapped index passes the bounds test. -/
theorem inb_one (hc : ∀ e, (-100000 : Int) ≤ (x2 e).toInt ∧ (x2 e).toInt < 100000) (j : S6400000.Idx) :
    inb (wrapIdx x2) j = 1#1 := by
  unfold inb
  refine Cert.LibAllOnes.reduce_andi_of_all _ _ _ _ j rfl fun i => ?_
  obtain ⟨k, u, rfl⟩ : ∃ (k : Fin 6400000) (u : Fin 1), i = ix2 k u := ⟨i 0, i 1, eq_ix2 i⟩
  obtain ⟨ha, hb⟩ := wrap_inb (x2 (ix1 k)) (hc _).1 (hc _).2
  show IntOp.andi (IntOp.cmpi .sge (wrapIdx x2 (ix2 k u)) _) (IntOp.cmpi .sle (wrapIdx x2 (ix2 k u)) _) = 1#1
  rw [wrapIdx_at]
  have c0 : (broadcastInDim S6400000x1 ![] bcast_S_S6400000x1 (constantI S_ 32 0#32)) (ix2 k u) = 0#32 := rfl
  have c1 : (broadcastInDim S6400000x1 ![0, 1] bcast_S1x1_S6400000x1_0_1
      (broadcastInDim S1x1 ![1] bcast_S1_S1x1_1 (constantI S1 32 99999#32))) (ix2 k u) = 99999#32 := rfl
  rw [c0, c1, ha, hb]
  decide

/-- The fill-mode gather reads the table at the wrapped, clamped row. -/
theorem take_at (hc : ∀ e, (-100000 : Int) ≤ (x2 e).toInt ∧ (x2 e).toInt < 100000)
    (fs : FVec Ideal S100000x32 .f32) (k : Fin 6400000) (d : Fin 32) :
    take fs x2 (ix2 k d) = fs (ix2 (Cert.Spec.row (x2 (ix1 k))) d) := by
  unfold take
  rw [select_apply, Cert.Layout.bcast_vec_rows_apply _ bcast_S6400000_S6400000x32_0 k d, inb_one x2 hc, select_one,
    Cert.LibGatherRow.gather_row2 (by decide) _ rfl rfl rfl rfl rfl, wrapIdx_at]
  rfl

/-- THE SCALED AGGREGATE is the specification's kernel-side aggregation. -/
theorem outA_at (hc : ∀ e, (-100000 : Int) ≤ (x2 e).toInt ∧ (x2 e).toInt < 100000) (n : Fin 100000) (d : Fin 32) :
    Cert.KernelIdeal.KStretch.agg (fun i => FloatOps.mulf (x0 i) (col (dinv x1 x3) i)) x1 x2 x3 (ix2 n d) * col (dinv x1 x3) (ix2 n d)
      = Cert.Spec.outK x0 x1 x2 x3 n d := by
  unfold Cert.Spec.outK agg
  rw [col_at, dinv_at]
  refine congrArg (fun t => t * Cert.Spec.dinv x1 x3 n) ?_
  rw [scatterAdd_ideal, Cert.LibScatterRows.scatterAdd_rows_apply _ rfl rfl rfl rfl]
  refine congrArg₂ (fun a b : EReal => a + b) ?_ ?_
  · exact broadcastInDim_scalar_apply bcast_S_S100000x32 _ _
  · refine Finset.sum_congr rfl fun k _ => ?_
    rw [Cert.Layout.bcast_vec_col_apply x1 bcast_S6400000_S6400000x1_0 k ⟨0, Nat.one_pos⟩]
    refine if_congr Iff.rfl ?_ rfl
    rw [mulf_apply, take_at x2 hc, Cert.Layout.bcast_col_apply _ bcast_S6400000x1_S6400000x32_0_1 k d,
      Cert.Layout.bcast_vec_col_apply x3 bcast_S6400000_S6400000x1_0 k 0]
    refine congrArg (fun t : EReal => t * x3 (ix1 k)) ?_
    show x0 (ix2 (Cert.Spec.row (x2 (ix1 k))) d) * col (dinv x1 x3) (ix2 (Cert.Spec.row (x2 (ix1 k))) d) = _
    rw [col_at, dinv_at]

end Cert.KernelIdeal.KAt

end
-- ==== Proof.RefAt.lean ====
/-
  The reference program's stages read at an index, against the index-level specification.

  The reference forms the row sums by a scatter-add of the edge weights into a zero vector (`rowsum_at`), turns each
  into its degree coefficient by two selects around a power (`dinv_at`), gathers the coefficient at each edge's row
  and column index and the feature row at its column index (`coefR_at`, `coefC_at`, `feat_at`), multiplies the
  three coefficients and the feature edge by edge (`coef_at`, `upd_at`) and scatter-adds the products into a zero
  table by the edges' row index (`out_at`). Each gather index is wrapped by the program first (a negative word has the
  table's length added: `wrapR_at`, `wrapC_at`, `wrapF_at`) and clamped into the table by the gather, which
  together is the specification's `row` (`clampVec_wrap`, `clampRow_wrap`). The last stage's mask, a column vector
  broadcast along the feature axis, reads the vector it is broadcast from (`mask_at`).

  The sums run over 6400000 edges, so no step compares two terms that hold such a sum other than syntactically: the
  scatter-adds are unfolded by an equation stated over abstract shapes (`scatterAdd_ideal`), sums are matched term by
  term, and the row sum is made a variable before the degree coefficient's two sides are compared.
-/
import proofs.«424469_j541165879956_3_alg».proof.Proof.RefRead
import proofs.«424469_j541165879956_3_alg».proof.Proof.Spec
import proofs.«424469_j541165879956_3_alg».proof.Proof.LibScatterRows
import proofs.«424469_j541165879956_3_alg».proof.Proof.LibGatherRow
import Idealize.ShloMosaic.Lib.ValueIdx
import Idealize.ShloMosaic.PureOps.Ideal

noncomputable section

open scoped BigOperators

namespace Cert.ReferenceIdeal.RefAt

open Cert.ReferenceIdeal Cert.ReferenceIdeal.ReadCopy Idealize.ShloMosaic Idealize.ShloMosaic.ValueIdx

/-! ## The operations of the ideal instance, as the functions they are -/

theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-! ## Index equalities of the layout operations -/

/-- Entry `(k, 0)` of a vector laid out as a column is the vector's entry `k`. -/
theorem idx_v1 (k : Fin 6400000) : idx_main_v1 (ix2 k ⟨0, Nat.one_pos⟩) = ix1 k := by
  funext a
  match a with
  | ⟨0, _⟩ => rfl
theorem idx_v16 (k : Fin 6400000) : idx_main_v16 (ix2 k ⟨0, Nat.one_pos⟩) = ix1 k := by
  funext a
  match a with
  | ⟨0, _⟩ => rfl
theorem idx_v24 (k : Fin 6400000) : idx_main_v24 (ix2 k ⟨0, Nat.one_pos⟩) = ix1 k := by
  funext a
  match a with
  | ⟨0, _⟩ => rfl
theorem idx_v27 (k : Fin 6400000) : idx_main_v27 (ix2 k ⟨0, Nat.one_pos⟩) = ix1 k := by
  funext a
  match a with
  | ⟨0, _⟩ => rfl
theorem idx_v33 (k : Fin 6400000) : idx_main_v33 (ix2 k ⟨0, Nat.one_pos⟩) = ix1 k := by
  funext a
  match a with
  | ⟨0, _⟩ => rfl
theorem idx_v38 (k : Fin 6400000) : idx_main_v38 (ix2 k ⟨0, Nat.one_pos⟩) = ix1 k := by
  funext a
  match a with
  | ⟨0, _⟩ => rfl

/-- Entry `(k, d)` of a column broadcast along the feature axis is the column's entry `(k, 0)`. -/
theorem idx_v35 (k : Fin 6400000) (d : Fin 32) : idx_main_v35 (ix2 k d) = ix2 k ⟨0, Nat.one_pos⟩ := by
  funext a
  match a with
  | ⟨0, _⟩ => rfl
  | ⟨1, _⟩ => rfl

/-! ## The row sums and the degree coefficient -/

/-- The scatter-add of the weights into the zero vector, read at `n`: the sum of the weights of the edges whose row
    index is `n`. -/
theorem rowsum_at (x1 : IVec S6400000 32) (x3 : FVec Ideal S6400000 .f32) (n : Fin 100000) :
    val_main_v2 (F := Ideal) x1 x3 (ix1 n) = Cert.Spec.rowsum x1 x3 n := by
  unfold val_main_v2
  rw [scatterAdd_ideal, Cert.LibScatterRows.scatterAdd_vec_apply (N := 100000) (K := 6400000)
    scatter_S100000_S6400000x1_S6400000_n_0_0_1 rfl rfl rfl rfl]
  unfold Cert.Spec.rowsum
  refine congrArg₂ (fun a b : EReal => a + b) ?_ (Finset.sum_congr rfl fun k _ => ?_)
  · rw [val_main_v0_apply, val_main_cst_apply]
    rfl
  · rw [val_main_v1_apply, idx_v1]

/-- The degree coefficient, read at `n`. -/
theorem dinv_at (x1 : IVec S6400000 32) (x3 : FVec Ideal S6400000 .f32) (n : Fin 100000) :
    val_main_v10 (F := Ideal) x1 x3 (ix1 n) = Cert.Spec.dinv x1 x3 n := by
  rw [val_main_v10_apply, val_main_v9_apply, val_main_v7_apply, val_main_v5_apply, val_main_v4_apply,
    val_main_v3_apply, val_main_cst_0_apply, val_main_v8_apply, val_main_cst_3_apply, val_main_v6_apply,
    val_main_cst_2_apply, val_main_call0_v1_apply, val_main_call0_v0_apply, val_main_cst_1_apply,
    val_main_call1_v1_apply, val_main_call1_v0_apply, val_main_cst_4_apply, rowsum_at]
  unfold Cert.Spec.dinv
  -- with the row sum a variable, the two sides are the same two selects around the same power
  generalize Cert.Spec.rowsum x1 x3 n = s
  rfl

/-! ## The gather indices: wrapped by the program, clamped by the gather -/

/-- The row index of edge `k` as the first coefficient gather reads it. -/
theorem wrapR_at (x1 : IVec S6400000 32) (k : Fin 6400000) :
    val_main_v16 (F := Ideal) x1 (ix2 k ⟨0, Nat.one_pos⟩) = Cert.Spec.wrap (x1 (ix1 k)) := by
  rw [val_main_v16_apply, idx_v16, val_main_v15_apply, val_main_v12_apply, val_main_v14_apply, val_main_v11_apply,
    val_main_c_apply, val_main_v13_apply, val_main_c_5_apply]
  rfl

/-- The column index of edge `k` as the second coefficient gather reads it. -/
theorem wrapC_at (x2 : IVec S6400000 32) (k : Fin 6400000) :
    val_main_v24 (F := Ideal) x2 (ix2 k ⟨0, Nat.one_pos⟩) = Cert.Spec.wrap (x2 (ix1 k)) := by
  rw [val_main_v24_apply, idx_v24, val_main_v23_apply, val_main_v20_apply, val_main_v22_apply, val_main_v19_apply,
    val_main_c_6_apply, val_main_v21_apply, val_main_c_7_apply]
  rfl

/-- The column index of edge `k` as the feature gather reads it. -/
theorem wrapF_at (x2 : IVec S6400000 32) (k : Fin 6400000) :
    val_main_v33 (F := Ideal) x2 (ix2 k ⟨0, Nat.one_pos⟩) = Cert.Spec.wrap (x2 (ix1 k)) := by
  rw [val_main_v33_apply, idx_v33, val_main_v32_apply, val_main_v29_apply, val_main_v31_apply, val_main_v28_apply,
    val_main_c_8_apply, val_main_v30_apply, val_main_c_9_apply]
  rfl

/-- A wrapped index clamped into the vector of coefficients is the specification's row. -/
theorem clampVec_wrap (h : 0 < 100000) (z : BitVec 32) :
    Cert.LibScatterRows.clampVec 100000 h (Cert.Spec.wrap z) = Cert.Spec.row z := Fin.ext rfl

/-- A wrapped index clamped into the feature table's rows is the specification's row. -/
theorem clampRow_wrap (h : 0 < 100000) (z : BitVec 32) :
    Cert.LibGatherRow.clampRow 100000 h (Cert.Spec.wrap z) = Cert.Spec.row z := Fin.ext rfl

/-! ## The three gathers -/

/-- The coefficient of edge `k`'s row. -/
theorem coefR_at (x1 : IVec S6400000 32) (x3 : FVec Ideal S6400000 .f32) (k : Fin 6400000) :
    val_main_v17 (F := Ideal) x1 x3 (ix1 k) = Cert.Spec.dinv x1 x3 (Cert.Spec.row (x1 (ix1 k))) := by
  unfold val_main_v17
  rw [Cert.LibScatterRows.gather_vec (N := 100000) (R := 6400000) (by omega)
    gather_S100000_S6400000x1_S6400000_n_0_n_n_0_1_1 rfl rfl rfl rfl rfl, wrapR_at, clampVec_wrap, dinv_at]

/-- The coefficient of edge `k`'s column. -/
theorem coefC_at (x1 x2 : IVec S6400000 32) (x3 : FVec Ideal S6400000 .f32) (k : Fin 6400000) :
    val_main_v25 (F := Ideal) x1 x2 x3 (ix1 k) = Cert.Spec.dinv x1 x3 (Cert.Spec.row (x2 (ix1 k))) := by
  unfold val_main_v25
  rw [Cert.LibScatterRows.gather_vec (N := 100000) (R := 6400000) (by omega)
    gather_S100000_S6400000x1_S6400000_n_0_n_n_0_1_1 rfl rfl rfl rfl rfl, wrapC_at, clampVec_wrap, dinv_at]

/-- The feature of edge `k`'s column, component `d`. -/
theorem feat_at (x0 : FVec Ideal S100000x32 .f32) (x2 : IVec S6400000 32) (k : Fin 6400000) (d : Fin 32) :
    val_main_v34 (F := Ideal) x0 x2 (ix2 k d) = x0 (ix2 (Cert.Spec.row (x2 (ix1 k))) d) := by
  unfold val_main_v34
  rw [Cert.LibGatherRow.gather_row2 (N := 100000) (C := 32) (R := 6400000) (by omega)
    gather_S100000x32_S6400000x1_S6400000x32_1_0_n_n_0_1_132 rfl rfl rfl rfl rfl]
  show x0 (ix2 (Cert.LibGatherRow.clampRow 100000 _ (val_main_v33 (F := Ideal) x2 (ix2 k ⟨0, Nat.one_pos⟩))) d) = _
  rw [wrapF_at, clampRow_wrap]

/-! ## The edge products and the aggregation -/

/-- The product of edge `k`'s three coefficients: row coefficient, weight, column coefficient, in the program's order. -/
theorem coef_at (x1 x2 : IVec S6400000 32) (x3 : FVec Ideal S6400000 .f32) (k : Fin 6400000) :
    val_main_v26 (F := Ideal) x1 x2 x3 (ix1 k) =
      (Cert.Spec.dinv x1 x3 (Cert.Spec.row (x1 (ix1 k))) * x3 (ix1 k)) * Cert.Spec.dinv x1 x3 (Cert.Spec.row (x2 (ix1 k))) := by
  rw [val_main_v26_apply, val_main_v18_apply, coefR_at, coefC_at]
  rfl

/-- Update `(k, d)` of the aggregation: edge `k`'s coefficient product times its feature component `d`. -/
theorem upd_at (x0 : FVec Ideal S100000x32 .f32) (x1 x2 : IVec S6400000 32) (x3 : FVec Ideal S6400000 .f32)
    (k : Fin 6400000) (d : Fin 32) :
    val_main_v36 (F := Ideal) x0 x1 x2 x3 (ix2 k d) =
      ((Cert.Spec.dinv x1 x3 (Cert.Spec.row (x1 (ix1 k))) * x3 (ix1 k)) * Cert.Spec.dinv x1 x3 (Cert.Spec.row (x2 (ix1 k))))
        * x0 (ix2 (Cert.Spec.row (x2 (ix1 k))) d) := by
  rw [val_main_v36_apply, val_main_v35_apply, idx_v35, val_main_v27_apply, idx_v27, coef_at, feat_at]
  rfl

/-- THE REFERENCE'S AGGREGATION READ AT `(n, d)`: the scatter-add of the edge products into the zero table by the
    edges' row index. -/
theorem out_at (x0 : FVec Ideal S100000x32 .f32) (x1 x2 : IVec S6400000 32) (x3 : FVec Ideal S6400000 .f32) (n : Fin 100000) (d : Fin 32) :
    val_main_v39 (F := Ideal) x0 x1 x2 x3 (ix2 n d) = Cert.Spec.outR x0 x1 x2 x3 n d := by
  unfold val_main_v39
  rw [scatterAdd_ideal, Cert.LibScatterRows.scatterAdd_rows_apply (N := 100000) (C := 32) (K := 6400000)
    scatter_S100000x32_S6400000x1_S6400000x32_1_0_0_1 rfl rfl rfl rfl]
  unfold Cert.Spec.outR
  refine congrArg₂ (fun a b : EReal => a + b) ?_ (Finset.sum_congr rfl fun k _ => ?_)
  · rw [val_main_v37_apply, val_main_cst_10_apply]
    rfl
  · rw [val_main_v38_apply, idx_v38, upd_at]

/-! ## The mask of the last stage -/

/-- The mask broadcast along the feature axis reads the vector it is broadcast from. -/
theorem mask_at (x4 : IVec S100000 32) (n : Fin 100000) (d : Fin 32) :
    val_main_call2_v0 (F := Ideal) x4 (ix2 n d) = val_main_v56 (F := Ideal) x4 (ix1 n) := by
  rw [val_main_call2_v0_apply, val_main_v57_apply]
  refine congrArg (val_main_v56 (F := Ideal) x4) ?_
  funext a
  match a with
  | ⟨0, _⟩ => rfl

end Cert.ReferenceIdeal.RefAt

end
-- ==== Proof.LibScatterMap.lean ====
/-
  A scatter whose body returns the update, under an elementwise map.

  `x.at[idx].set(upd)` lowers to a `stablehlo.scatter` whose body returns its second argument. Whatever the
  dimension numbers, the start indices and the order in which the updates are taken, such a scatter only MOVES
  elements: every result element is an element of the operand or of the updates. So an elementwise map `g` commutes
  with it: mapping the result is scattering the mapped updates into the mapped operand (`scatter_set_map`). With
  `g` a comparison this turns a scattered float mask into a scattered bit mask.
-/
import Idealize.ShloMosaic.PureOps.ShapeOps
import Idealize.ShloMosaic.PureOps.Dims

namespace Cert.LibScatterMap

open Idealize.ShloMosaic

/-- One step of the scatter's fold (update number `n` written where it lands, dropped when it lands outside), under `g`. -/
private theorem step_map {α β : Type} {s si u : Shape} {w : Nat} (g : α → β) (d : ScatterDims s si u)
    (idx : IVec si w) (upd : u.Idx → α) (r : s.Idx → α) (n : Fin u.numel) :
    (fun i => g ((match d.resultIdx? (u.rowMajor.symm n) idx with
        | some i => fun i' => if i' = i then (fun (_ b : α) => b) (r i) (upd (u.rowMajor.symm n)) else r i'
        | none => r) i))
      = (match d.resultIdx? (u.rowMajor.symm n) idx with
        | some i => fun i' => if i' = i then (fun (_ b : β) => b) (g (r i)) (g (upd (u.rowMajor.symm n))) else g (r i')
        | none => fun i => g (r i)) := by
  cases d.resultIdx? (u.rowMajor.symm n) idx with
  | none => rfl
  | some i =>
    funext i'
    by_cases e : i' = i
    · simp only [e, if_true]
    · simp only [e, if_false]

/-- THE MAP THROUGH THE SCATTER: `g` of the scattered array is the scatter of the `g`-images. -/
theorem scatter_set_map {α β : Type} {s si u : Shape} {w : Nat} (g : α → β) (d : ScatterDims s si u)
    (x : s.Idx → α) (idx : IVec si w) (upd : u.Idx → α) :
    (fun i => g (Host.scatter d (fun _ b => b) x idx upd i))
      = Host.scatter d (fun _ b => b) (fun i => g (x i)) idx (fun j => g (upd j)) := by
  unfold Host.scatter
  generalize List.finRange u.numel = l
  induction l generalizing x with
  | nil => rfl
  | cons n l ih =>
    simp only [List.foldl_cons]
    rw [ih]
    congr 1
    exact step_map g d idx upd x n

end Cert.LibScatterMap
-- ==== Proof.Bridge.lean ====
/-
  The two programs' results are one function, under the precondition's facts.

  The reference's stages (the patched copy of its generated readings, RefRead.lean) and the kernel's stretch functions
  (KStretch.lean, KValue.lean) meet at three places. The scaled aggregate: index by index the kernel's is the
  specification's `outK`, the reference's its `outR`, and the two agree for real features and weights. The scattered
  rows: both programs write those rows at the same wrapped `index` entries into zeros by the same scatter. The
  membership mask: the kernel scatters ones into float zeros and tests `> 1/2`, the reference scatters `true` into
  `false`; a scatter that writes its updates commutes with the test, `0 > 1/2` is false and `1 > 1/2` is true.
-/
import proofs.«424469_j541165879956_3_alg».proof.Proof.KValue
import proofs.«424469_j541165879956_3_alg».proof.Proof.KAt
import proofs.«424469_j541165879956_3_alg».proof.Proof.RefAt
import proofs.«424469_j541165879956_3_alg».proof.Proof.LibScatterMap

noncomputable section

namespace Cert.Bridge

open Idealize.ShloMosaic Idealize.ShloMosaic.ValueIdx
open Cert.KernelIdeal.KStretch Cert.KernelIdeal.KValue Cert.ReferenceIdeal.ReadCopy

/-! ## The two programs' records and index columns are the same terms -/

theorem dims_rows : Cert.KernelIdeal.scatter_S100000x32_S100000x1_S100000x32_1_0_0_1
    = Cert.ReferenceIdeal.scatter_S100000x32_S100000x1_S100000x32_1_0_0_1 := rfl

theorem dims_vec : Cert.KernelIdeal.scatter_S100000_S100000x1_S100000_n_0_0_1
    = Cert.ReferenceIdeal.scatter_S100000_S100000x1_S100000_n_0_0_1 := rfl

theorem wrapIx_eq46 (x4 : IVec Cert.KernelIdeal.S100000 32) : wrapIx x4 = val_main_v46 (F := Ideal) x4 := rfl
theorem wrapIx_eq54 (x4 : IVec Cert.KernelIdeal.S100000 32) : wrapIx x4 = val_main_v54 (F := Ideal) x4 := rfl

theorem zeros_eq40 : (broadcastInDim Cert.KernelIdeal.S100000x32 ![] Cert.KernelIdeal.Facts₀.bcast_S_S100000x32
      (constant (F := Ideal) Cert.KernelIdeal.S_ .f32 0x00000000#32) : FVec Ideal Cert.KernelIdeal.S100000x32 .f32)
    = val_main_v40 (F := Ideal) := rfl

/-! ## The mask -/

/-- The test the kernel's last region applies to the float mask. -/
def gtHalf (x : EReal) : BitVec 1 := Ideal.cmp .ogt x (Ideal.ofBits .f32 0x3F000000#32)

theorem gtHalf_zero : gtHalf (Ideal.ofBits .f32 0x00000000#32) = 0#1 := by
  unfold gtHalf Ideal.cmp
  have h0 := Cert.Spec.zero_eq; have hh := Cert.Spec.half_eq
  unfold Cert.Spec.zero at h0; unfold Cert.Spec.half at hh
  rw [h0, hh]
  have : ¬ (((1 / 2 : ℝ) : EReal) < (0 : EReal)) := by
    rw [← EReal.coe_zero, EReal.coe_lt_coe_iff]; norm_num
  show BitVec.ofBool (decide (((1 / 2 : ℝ) : EReal) < (0 : EReal))) = 0#1
  rw [decide_eq_false this]
  rfl

theorem gtHalf_one : gtHalf (Ideal.ofBits .f32 0x3F800000#32) = 1#1 := by
  unfold gtHalf Ideal.cmp
  have h1 := Cert.Spec.one_eq; have hh := Cert.Spec.half_eq
  unfold Cert.Spec.one at h1; unfold Cert.Spec.half at hh
  rw [h1, hh]
  have : (((1 / 2 : ℝ) : EReal) < ((1 : ℝ) : EReal)) := by
    rw [EReal.coe_lt_coe_iff]; norm_num
  show BitVec.ofBool (decide (((1 / 2 : ℝ) : EReal) < ((1 : ℝ) : EReal))) = 1#1
  rw [decide_eq_true this]
  rfl

/-- The float mask tested against one half is the reference's bit mask. -/
theorem mask_eq (x4 : IVec Cert.KernelIdeal.S100000 32) (n : Fin 100000) :
    gtHalf (maskf x4 (ix1 n)) = val_main_v56 (F := Ideal) x4 (ix1 n) := by
  have h := congrFun (Cert.LibScatterMap.scatter_set_map gtHalf Cert.KernelIdeal.scatter_S100000_S100000x1_S100000_n_0_0_1
    zerosN (wrapIx x4)
    (broadcastInDim Cert.KernelIdeal.S100000 ![] Cert.KernelIdeal.Facts₀.bcast_S_S100000 (constant (F := Ideal) Cert.KernelIdeal.S_ .f32 0x3F800000#32))) (ix1 n)
  refine h.trans ?_
  have e0 : (fun i => gtHalf (zerosN i)) = val_main_v48 (F := Ideal) := by
    funext i
    rw [Cert.KernelIdeal.KAt.zerosN_at]
    exact gtHalf_zero
  have e1 : (fun j => gtHalf ((broadcastInDim Cert.KernelIdeal.S100000 ![] Cert.KernelIdeal.Facts₀.bcast_S_S100000
      (constant (F := Ideal) Cert.KernelIdeal.S_ .f32 0x3F800000#32) : FVec Ideal Cert.KernelIdeal.S100000 .f32) j)) = val_main_v55 (F := Ideal) := by
    funext j
    rw [broadcastInDim_scalar_apply]
    exact gtHalf_one
  rw [e0, e1, dims_vec, wrapIx_eq54]
  rfl

/-! ## The scattered rows -/

variable (x0 : FVec Ideal Cert.KernelIdeal.S100000x32 .f32) (x1 x2 : IVec Cert.KernelIdeal.S6400000 32)
  (x3 : FVec Ideal Cert.KernelIdeal.S6400000 .f32) (x4 : IVec Cert.KernelIdeal.S100000 32)

/-- The two scaled aggregates are one array, for real features and weights and in-range column indices. -/
theorem outA_eq39 (hf : ∀ i, ∃ x : ℝ, x0 i = (x : EReal)) (hv : ∀ e, ∃ x : ℝ, x3 e = (x : EReal))
    (hc : ∀ e, (-100000 : Int) ≤ (x2 e).toInt ∧ (x2 e).toInt < 100000) :
    outA x0 x1 x2 x3 = val_main_v39 (F := Ideal) x0 x1 x2 x3 := by
  funext i
  obtain ⟨n, d, rfl⟩ : ∃ (n : Fin 100000) (d : Fin 32), i = ix2 n d := ⟨i 0, i 1, eq_ix2 i⟩
  rw [Cert.ReferenceIdeal.RefAt.out_at, ← Cert.Spec.outK_eq_outR hf hv n d]
  exact Cert.KernelIdeal.KAt.outA_at x0 x1 x2 x3 hc n d

/-- So the scattered rows are one array. -/
theorem scat_eq47 (hf : ∀ i, ∃ x : ℝ, x0 i = (x : EReal)) (hv : ∀ e, ∃ x : ℝ, x3 e = (x : EReal))
    (hc : ∀ e, (-100000 : Int) ≤ (x2 e).toInt ∧ (x2 e).toInt < 100000) :
    scat (outA x0 x1 x2 x3) x4 = val_main_v47 (F := Ideal) x0 x1 x2 x3 x4 := by
  unfold scat
  rw [outA_eq39 x0 x1 x2 x3 hf hv hc, dims_rows, wrapIx_eq46, zeros_eq40]
  rfl

/-! ## The results -/

/-- THE REFERENCE'S RESULT IS THE KERNEL'S, array for array. -/
theorem result_eq (hf : ∀ i, ∃ x : ℝ, x0 i = (x : EReal)) (hv : ∀ e, ∃ x : ℝ, x3 e = (x : EReal))
    (hc : ∀ e, (-100000 : Int) ≤ (x2 e).toInt ∧ (x2 e).toInt < 100000) :
    val_main_v58 (F := Ideal) x0 x1 x2 x3 x4 = kOut x0 x1 x2 x3 x4 := by
  funext i
  obtain ⟨n, d, rfl⟩ : ∃ (n : Fin 100000) (d : Fin 32), i = ix2 n d := ⟨i 0, i 1, eq_ix2 i⟩
  rw [val_main_v58_apply, Cert.ReferenceIdeal.RefAt.mask_at, ← mask_eq x4 n, ← scat_eq47 x0 x1 x2 x3 x4 hf hv hc]
  unfold kOut
  rw [Cert.KernelIdeal.KAt.col_at]
  rfl

end Cert.Bridge

end
-- ==== Proof.PreFacts.lean ====
/-
  The precondition `finite_inputs`, decoded. The printed predicate is a rank-0 i1 word: the conjunction of three
  `jnp.all`s, each a reduction by `and` over every index of an i1 array, started at 1:
    (1) |features| < +∞ everywhere, (2) |adj_vals| < +∞ everywhere,
    (3) -100000 ≤ adj_cols (signed) and adj_cols < 100000 (signed) everywhere.
  The hypothesis says the word is 1. A conjunction of i1 words is 1 exactly when both are; a reduction by `and` into
  the one rank-0 index that is 1 met a 1 at every operand index. So each element test is 1 at each index.
  At the extended reals the float test reads  max x (-x) < ⊤  (the pattern 0x7F800000 denotes ⊤), which fails at
  x = ⊤ and x = ⊥ (there max x (-x) = ⊤), so x is a real. The word test is a signed ≥ against the word
  4294867296 (which is -100000 read signed) and a signed < against 100000.
-/
import proofs.«424469_j541165879956_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic

/-- The rank-0 shape has one index. -/
instance subsingleton_S_Idx : Subsingleton Cert.Pre_finite_inputs.S_.Idx := ⟨fun a b => funext fun d => d.elim0⟩

/-- The f32 pattern 0x7F800000 (exponent all ones, fraction zero, sign clear) denotes +∞. -/
theorem inf_bits : Ideal.ofBits .f32 0x7F800000#32 = (⊤ : EReal) := by
  simp [Ideal.ofBits, Ideal.ieee]

/-- An extended real whose absolute value max x (-x) lies below ⊤ is a real: |⊤| = |⊥| = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The float element test of the precondition, |x| < +∞ as an i1 word, read back: x is a real. -/
theorem real_of_cmp (x : EReal) (h : Ideal.cmp .olt (max x (-x)) (Ideal.ofBits .f32 0x7F800000#32) = 1#1) :
    ∃ r : ℝ, x = (r : EReal) := by
  rw [inf_bits] at h
  simp only [Ideal.cmp, StableHlo.Predicate.ofBool_eq_one_iff, decide_eq_true_eq] at h
  exact real_of_abs_lt_top x h

/-- The word 4294867296 = 2³² - 100000 is -100000 read signed. -/
theorem lo_toInt : (4294867296#32 : BitVec 32).toInt = -100000 := by decide

/-- The word 100000 is 100000 read signed. -/
theorem hi_toInt : (100000#32 : BitVec 32).toInt = 100000 := by decide

/-- The word element test of the precondition, (w ≥ -100000) and (w < 100000) signed as an i1 word, read back. -/
theorem range_of_cmp (w : BitVec 32)
    (h : IntOp.andi (IntOp.cmpi .sge w 4294867296#32) (IntOp.cmpi .slt w 100000#32) = 1#1) :
    (-100000 : Int) ≤ w.toInt ∧ w.toInt < 100000 := by
  rw [IntOp.andi_eq_one, IntOp.cmpi_sge, IntOp.cmpi_slt, lo_toInt, hi_toInt] at h
  exact h

/-- THE PRECONDITION DECODED: every entry of the two float arrays is a real, and every entry of the column-index
    array lies in [-100000, 100000) read signed. -/
theorem of_pre [Cert.Pre_finite_inputs.Facts]
    (f : FVec Ideal Cert.Pre_finite_inputs.S100000x32 .f32) (r c : IVec Cert.Pre_finite_inputs.S6400000 32)
    (v : FVec Ideal Cert.Pre_finite_inputs.S6400000 .f32) (ix : IVec Cert.Pre_finite_inputs.S100000 32)
    (h : Cert.Pre_finite_inputs.fn (F := Ideal) f r c v ix = fun _ => 1#1) :
    (∀ i, ∃ x : ℝ, f i = (x : EReal)) ∧ (∀ e, ∃ x : ℝ, v e = (x : EReal)) ∧
    (∀ e, (-100000 : Int) ≤ (c e).toInt ∧ (c e).toInt < 100000) := by
  -- the predicate's word at the one rank-0 index: (all₁ ∧ all₂) ∧ all₃
  have h0 := congrFun h ValueIdx.ix0
  dsimp only [Cert.Pre_finite_inputs.fn, andi] at h0
  rw [IntOp.andi_eq_one, IntOp.andi_eq_one] at h0
  obtain ⟨⟨hf, hv⟩, hc⟩ := h0
  -- each "all" gives its element test at every index; the element tests unfold to the two forms read back above
  refine ⟨fun i => ?_, fun e => ?_, fun e => ?_⟩
  · exact real_of_cmp (f i) (Host.reduce_andi_all _ _ _ _ _ hf i)
  · exact real_of_cmp (v e) (Host.reduce_andi_all _ _ _ _ _ hv e)
  · exact range_of_cmp (c e) (Host.reduce_andi_all _ _ _ _ _ hc e)

end Cert.PreFacts

end
-- ==== Proof.lean ====
/-
  The proof of `Cert.Claim`: the kernel program (a graph-convolution layer: the degree-normalised aggregation of
  neighbour features over an edge list, written into the rows an index vector names) against its reference, over the
  extended reals, for finite features and edge weights and column indices that index the feature table in range
  (`−100000 ≤ c < 100000`, the range numpy-style indexing accepts).

  The three frames: the kernel's two are the generated ones; the reference's is its run with the result dropped.
  The idealization rewrote nothing, so it is preserved trivially. The algebraic claim: the kernel's run leaves its
  result buffer at the last boundary's contents (RunValue.lean), which are `kOut` of the arguments (KValue.lean);
  the reference's run leaves its result at the fold of its operations (RefRun.lean), which is the stage `val_main_v58`
  of the arguments (RefEval.lean); and the two are one array once the features and weights are real numbers and the
  column indices are in range (Bridge.lean), which is what the precondition says (PreFacts.lean).
-/
import proofs.«424469_j541165879956_3_alg».proof.Defs
import proofs.«424469_j541165879956_3_alg».proof.Proof.Gen.Kernel
import proofs.«424469_j541165879956_3_alg».proof.Proof.Gen.Kernel.Skeleton
import proofs.«424469_j541165879956_3_alg».proof.Proof.Gen.Kernel.Launch
import proofs.«424469_j541165879956_3_alg».proof.Proof.Gen.Kernel.Points
import proofs.«424469_j541165879956_3_alg».proof.Proof.Gen.Kernel.Frame
import proofs.«424469_j541165879956_3_alg».proof.Proof.Gen.KernelIdeal
import proofs.«424469_j541165879956_3_alg».proof.Proof.Gen.KernelIdeal.Skeleton
import proofs.«424469_j541165879956_3_alg».proof.Proof.Gen.KernelIdeal.Launch
import proofs.«424469_j541165879956_3_alg».proof.Proof.Gen.KernelIdeal.Points
import proofs.«424469_j541165879956_3_alg».proof.Proof.Gen.KernelIdeal.Frame
import proofs.«424469_j541165879956_3_alg».proof.Proof.Gen.ReferenceIdeal
import proofs.«424469_j541165879956_3_alg».proof.Proof.Gen.Pre_finite_inputs
import proofs.«424469_j541165879956_3_alg».proof.Proof.RunValue
import proofs.«424469_j541165879956_3_alg».proof.Proof.RefEval
import proofs.«424469_j541165879956_3_alg».proof.Proof.Bridge
import proofs.«424469_j541165879956_3_alg».proof.Proof.PreFacts
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunCopy.run (F := Ideal) m ρ)

theorem preserves : Cert.preserves_Kernel_KernelIdeal := trivial

/-- Both programs run; the kernel's result is `kOut` of the arguments, the reference's the last stage of the same
    arguments, and under the precondition the two are one array. -/
theorem algebraic : Cert.algebraic_KernelIdeal_ReferenceIdeal := by
  intro m ρ m' ρ' hpre hagree
  refine ⟨fun c => Cert.KernelIdeal.Gen.W13 m ρ c (Proc.devRef .tc Cert.KernelIdeal.main_v52),
    Cert.KernelIdeal.RunValue.run_value m ρ, ?_⟩
  refine (θ_run Cert.ReferenceIdeal.defs _ _).mono (fun _ h c => ⟨(h c).1.trans ?_, (h c).2⟩)
    (Cert.ReferenceIdeal.RunCopy.run (F := Ideal) m' ρ')
  obtain ⟨hf, hv, hc⟩ := Cert.PreFacts.of_pre _ _ _ _ _ (hpre c)
  rw [Cert.ReferenceIdeal.RefEval.eval]
  show Cert.ReferenceIdeal.ReadCopy.val_main_v58 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
    = Cert.KernelIdeal.Gen.W13 m ρ c (Proc.devRef .tc Cert.KernelIdeal.main_v52)
  rw [Cert.KernelIdeal.KValue.value, (hagree c).1, (hagree c).2.1, (hagree c).2.2.1, (hagree c).2.2.2.1, (hagree c).2.2.2.2]
  exact Cert.Bridge.result_eq _ _ _ _ _ hf hv hc

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
